-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v100)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v100) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x128x4096 : Shape := ⟨3, ![4, 128, 4096]⟩
abbrev S4x64x64x2 : Shape := ⟨4, ![4, 64, 64, 2]⟩
abbrev S_ : Shape := ⟨0, ![]⟩

class Facts : Prop where
  bcast_S_S4x128x4096 : S_.BroadcastsInDim S4x128x4096 (![] : Fin 0 → Fin S4x128x4096.rank)
  reducesTo_S4x128x4096_S_d0_1_2 : S4x128x4096.ReducesTo [0, 1, 2] S_
  h_S_ : 0 < S_.numel
  bcast_S_S4x64x64x2 : S_.BroadcastsInDim S4x64x64x2 (![] : Fin 0 → Fin S4x64x64x2.rank)
  reducesTo_S4x64x64x2_S_d0_1_2_3 : S4x64x64x2.ReducesTo [0, 1, 2, 3] S_

variable [Facts]

def fn {F : FTy → Type} [FloatOps F] (main_arg0 : FVec F S4x128x4096 .f32) (main_arg1 : FVec F S4x64x64x2 .f32) : IVec S_ 1 :=
  let main_v0 : FVec F S4x128x4096 .f32 := Host.absf main_arg0
  let main_cst : FVec F S_ .f32 := constant S_ .f32 0x7F800000#32
  let main_v1 : FVec F S4x128x4096 .f32 := broadcastInDim S4x128x4096 ![] bcast_S_S4x128x4096 main_cst
  let main_v2 : IVec S4x128x4096 1 := cmpf .olt main_v0 main_v1
  let main_c : IVec S_ 1 := constantI S_ 1 1#1
  let main_v3 : IVec S_ 1 := (fun x v => Host.reduce IntOp.andi x v reducesTo_S4x128x4096_S_d0_1_2 h_S_) main_v2 main_c
  let main_v4 : FVec F S4x64x64x2 .f32 := Host.absf main_arg1
  let main_cst_0 : FVec F S_ .f32 := constant S_ .f32 0x7F800000#32
  let main_v5 : FVec F S4x64x64x2 .f32 := broadcastInDim S4x64x64x2 ![] bcast_S_S4x64x64x2 main_cst_0
  let main_v6 : IVec S4x64x64x2 1 := cmpf .olt main_v4 main_v5
  let main_c_1 : IVec S_ 1 := constantI S_ 1 1#1
  let main_v7 : IVec S_ 1 := (fun x v => Host.reduce IntOp.andi x v reducesTo_S4x64x64x2_S_d0_1_2_3 h_S_) main_v6 main_c_1
  let main_v8 : IVec S_ 1 := andi main_v3 main_v7
  main_v8
-- ==== Kernel.lean ====
abbrev S4x128x4096 : Shape := ⟨3, ![4, 128, 4096]⟩
abbrev S4x64x64x2 : Shape := ⟨4, ![4, 64, 64, 2]⟩
abbrev S4x2 : Shape := ⟨2, ![4, 2]⟩
abbrev S4x4096x2 : Shape := ⟨3, ![4, 4096, 2]⟩
abbrev S4x4096x1 : Shape := ⟨3, ![4, 4096, 1]⟩
abbrev S4x4096 : Shape := ⟨2, ![4, 4096]⟩
abbrev S_ : Shape := ⟨0, ![]⟩
abbrev S4096 : Shape := ⟨1, ![4096]⟩
abbrev S4x1 : Shape := ⟨2, ![4, 1]⟩
abbrev S4 : Shape := ⟨1, ![4]⟩
abbrev S1x1x4 : Shape := ⟨3, ![1, 1, 4]⟩
abbrev S4x4096x4 : Shape := ⟨3, ![4, 4096, 4]⟩
abbrev S4x4096x2x1 : Shape := ⟨4, ![4, 4096, 2, 1]⟩
abbrev S4x4096x1x2 : Shape := ⟨4, ![4, 4096, 1, 2]⟩
abbrev S4x4096x2x2 : Shape := ⟨4, ![4, 4096, 2, 2]⟩
abbrev S4x4096x4096 : Shape := ⟨3, ![4, 4096, 4096]⟩
abbrev S4x1x1 : Shape := ⟨3, ![4, 1, 1]⟩
abbrev S1x4096x1 : Shape := ⟨3, ![1, 4096, 1]⟩
abbrev S4x4096x4x1 : Shape := ⟨4, ![4, 4096, 4, 1]⟩
abbrev S4x4096x4x3 : Shape := ⟨4, ![4, 4096, 4, 3]⟩
abbrev S1x128x1024 : Shape := ⟨3, ![1, 128, 1024]⟩
abbrev S1x4096x1024 : Shape := ⟨3, ![1, 4096, 1024]⟩
abbrev S1x128x4096 : Shape := ⟨3, ![1, 128, 4096]⟩
abbrev S128x4096 : Shape := ⟨2, ![128, 4096]⟩
abbrev S128x1024 : Shape := ⟨2, ![128, 1024]⟩
abbrev S4096x1024 : Shape := ⟨2, ![4096, 1024]⟩

abbrev nBuf : Space → Nat
  | .hbm => 135
  | .vmem => 7
  | .smem => 0
  | _ => 0

abbrev hbmTy0_0 (i : Nat) : BufTy := match i % 128 with
  | 0 => ⟨S4x128x4096, .f32⟩
  | 1 => ⟨S4x64x64x2, .f32⟩
  | 2 => ⟨S4x2, .i32⟩
  | 3 => ⟨S4x4096x2, .f32⟩
  | 4 => ⟨S4x4096x1, .f32⟩
  | 5 => ⟨S4x4096, .f32⟩
  | 6 => ⟨S_, .f32⟩
  | 7 => ⟨S4x4096, .f32⟩
  | 8 => ⟨S4x4096, .i1⟩
  | 9 => ⟨S_, .i1⟩
  | 10 => ⟨S4096, .i1⟩
  | 11 => ⟨S4x4096x1, .f32⟩
  | 12 => ⟨S4x4096, .f32⟩
  | 13 => ⟨S_, .f32⟩
  | 14 => ⟨S4x4096, .f32⟩
  | 15 => ⟨S4x4096, .i1⟩
  | 16 => ⟨S_, .i1⟩
  | 17 => ⟨S4096, .i1⟩
  | 18 => ⟨S4096, .i1⟩
  | 19 => ⟨S4x4096x1, .f32⟩
  | 20 => ⟨S4x4096, .f32⟩
  | 21 => ⟨S_, .f32⟩
  | 22 => ⟨S4x4096, .f32⟩
  | 23 => ⟨S4x4096, .i1⟩
  | 24 => ⟨S_, .i1⟩
  | 25 => ⟨S4096, .i1⟩
  | 26 => ⟨S4096, .i1⟩
  | 27 => ⟨S4x4096x1, .f32⟩
  | 28 => ⟨S4x4096, .f32⟩
  | 29 => ⟨S_, .f32⟩
  | 30 => ⟨S4x4096, .f32⟩
  | 31 => ⟨S4x4096, .i1⟩
  | 32 => ⟨S_, .i1⟩
  | 33 => ⟨S4096, .i1⟩
  | 34 => ⟨S4096, .i1⟩
  | 35 => ⟨S4x4096x1, .f32⟩
  | 36 => ⟨S4x4096, .f32⟩
  | 37 => ⟨S_, .f32⟩
  | 38 => ⟨S_, .f32⟩
  | 39 => ⟨S_, .f32⟩
  | 40 => ⟨S4x4096, .f32⟩
  | 41 => ⟨S4x4096, .f32⟩
  | 42 => ⟨S_, .f32⟩
  | 43 => ⟨S4x4096, .f32⟩
  | 44 => ⟨S4x4096, .f32⟩
  | 45 => ⟨S4x4096x1, .f32⟩
  | 46 => ⟨S4x4096, .f32⟩
  | 47 => ⟨S_, .f32⟩
  | 48 => ⟨S_, .f32⟩
  | 49 => ⟨S_, .f32⟩
  | 50 => ⟨S4x4096, .f32⟩
  | 51 => ⟨S4x4096, .f32⟩
  | 52 => ⟨S_, .f32⟩
  | 53 => ⟨S4x4096, .f32⟩
  | 54 => ⟨S4x4096, .f32⟩
  | 55 => ⟨S4x4096, .f32⟩
  | 56 => ⟨S4x4096, .f32⟩
  | 57 => ⟨S4x4096, .f32⟩
  | 58 => ⟨S4x4096, .f32⟩
  | 59 => ⟨S4x4096, .i32⟩
  | 60 => ⟨S4x4096, .i32⟩
  | 61 => ⟨S4x4096x1, .i32⟩
  | 62 => ⟨S4x1, .i32⟩
  | 63 => ⟨S4, .i32⟩
  | 64 => ⟨S1x1x4, .i32⟩
  | 65 => ⟨S4x4096x4, .i32⟩
  | 66 => ⟨S4x4096x4, .i32⟩
  | 67 => ⟨S4x4096x4, .i32⟩
  | 68 => ⟨S_, .i32⟩
  | 69 => ⟨S4x4096x4, .i32⟩
  | 70 => ⟨S4x4096x4, .i32⟩
  | 71 => ⟨S4x4096x1, .i32⟩
  | 72 => ⟨S4x1, .i32⟩
  | 73 => ⟨S4, .i32⟩
  | 74 => ⟨S1x1x4, .i32⟩
  | 75 => ⟨S4x4096x4, .i32⟩
  | 76 => ⟨S4x4096x4, .i32⟩
  | 77 => ⟨S4x4096x4, .i32⟩
  | 78 => ⟨S4x4096x4, .i32⟩
  | 79 => ⟨S_, .f32⟩
  | 80 => ⟨S4x4096, .f32⟩
  | 81 => ⟨S4x4096, .f32⟩
  | 82 => ⟨S4x4096x1, .f32⟩
  | 83 => ⟨S4x4096x1, .f32⟩
  | 84 => ⟨S4x4096x2, .f32⟩
  | 85 => ⟨S4x4096x1, .f32⟩
  | 86 => ⟨S4x4096x1, .f32⟩
  | 87 => ⟨S4x4096x2, .f32⟩
  | 88 => ⟨S4x4096x2x1, .f32⟩
  | 89 => ⟨S4x4096x1x2, .f32⟩
  | 90 => ⟨S4x4096x2x2, .f32⟩
  | 91 => ⟨S4x4096x2x2, .f32⟩
  | 92 => ⟨S4x4096x2x2, .f32⟩
  | 93 => ⟨S4x4096x4, .f32⟩
  | 94 => ⟨S_, .f32⟩
  | 95 => ⟨S4x4096x4096, .f32⟩
  | 96 => ⟨S4, .i32⟩
  | 97 => ⟨S4x1x1, .i32⟩
  | 98 => ⟨S4096, .i32⟩
  | 99 => ⟨S1x4096x1, .i32⟩
  | 100 => ⟨S_, .i32⟩
  | 101 => ⟨S4x1x1, .i32⟩
  | 102 => ⟨S4x1x1, .i1⟩
  | 103 => ⟨S_, .i32⟩
  | 104 => ⟨S4x1x1, .i32⟩
  | 105 => ⟨S4x1x1, .i32⟩
  | 106 => ⟨S4x1x1, .i32⟩
  | 107 => ⟨S_, .i32⟩
  | 108 => ⟨S1x4096x1, .i32⟩
  | 109 => ⟨S1x4096x1, .i1⟩
  | 110 => ⟨S_, .i32⟩
  | 111 => ⟨S1x4096x1, .i32⟩
  | 112 => ⟨S1x4096x1, .i32⟩
  | 113 => ⟨S1x4096x1, .i32⟩
  | 114 => ⟨S_, .i32⟩
  | 115 => ⟨S4x4096x4, .i32⟩
  | 116 => ⟨S4x4096x4, .i1⟩
  | 117 => ⟨S_, .i32⟩
  | 118 => ⟨S4x4096x4, .i32⟩
  | 119 => ⟨S4x4096x4, .i32⟩
  | 120 => ⟨S4x4096x4, .i32⟩
  | 121 => ⟨S4x4096x4, .i32⟩
  | 122 => ⟨S4x4096x4, .i32⟩
  | 123 => ⟨S4x4096x4x1, .i32⟩
  | 124 => ⟨S4x4096x4x1, .i32⟩
  | 125 => ⟨S4x4096x4x1, .i32⟩
  | 126 => ⟨S4x4096x4x3, .i32⟩
  | 127 => ⟨S4x4096x4096, .f32⟩
  | _ => ⟨S4x128x4096, .f32⟩

abbrev hbmTy0_1 (i : Nat) : BufTy := match i % 128 with
  | 0 => ⟨S4096, .f32⟩
  | 1 => ⟨S1x4096x1, .f32⟩
  | 2 => ⟨S4x4096x4096, .f32⟩
  | 3 => ⟨S4x4096x4096, .f32⟩
  | 4 => ⟨S4x4096x4096, .bf16⟩
  | 5 => ⟨S4x128x4096, .bf16⟩
  | 6 => ⟨S4x128x4096, .f32⟩
  | _ => ⟨S4x128x4096, .f32⟩

abbrev hbmTy (i : Nat) : BufTy := match i / 128 with
  | 0 => hbmTy0_0 i
  | 1 => hbmTy0_1 i
  | _ => ⟨S4x128x4096, .f32⟩

abbrev bufTy : (tb : Table) → Fin (tcTables nBuf tb) → BufTy
  | .hbm, ⟨i, _⟩ => hbmTy i
  | .local _ .vmem, ⟨0, _⟩ => ⟨S1x128x1024, .bf16⟩
  | .local _ .vmem, ⟨1, _⟩ => ⟨S1x128x1024, .bf16⟩
  | .local _ .vmem, ⟨2, _⟩ => ⟨S1x4096x1024, .bf16⟩
  | .local _ .vmem, ⟨3, _⟩ => ⟨S1x4096x1024, .bf16⟩
  | .local _ .vmem, ⟨4, _⟩ => ⟨S1x128x4096, .f32⟩
  | .local _ .vmem, ⟨5, _⟩ => ⟨S1x128x4096, .f32⟩
  | .local _ .vmem, ⟨6, _⟩ => ⟨S128x4096, .f32⟩
  | _, _ => ⟨S4x128x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_c_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_c_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_3 : Ref sig .tc := ⟨.hbm, 21, rfl⟩
abbrev main_v14 : Ref sig .tc := ⟨.hbm, 22, rfl⟩
abbrev main_v15 : Ref sig .tc := ⟨.hbm, 23, rfl⟩
abbrev main_c_4 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩
abbrev main_v21 : Ref sig .tc := ⟨.hbm, 31, rfl⟩
abbrev main_c_6 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_7 : Ref sig .tc := ⟨.hbm, 37, rfl⟩
abbrev main_cst_8 : Ref sig .tc := ⟨.hbm, 38, rfl⟩
abbrev main_call0_v0 : Ref sig .tc := ⟨.hbm, 39, rfl⟩
abbrev main_call0_v1 : Ref sig .tc := ⟨.hbm, 40, rfl⟩
abbrev main_call0_v2 : Ref sig .tc := ⟨.hbm, 41, rfl⟩
abbrev main_call0_v3 : Ref sig .tc := ⟨.hbm, 42, rfl⟩
abbrev main_call0_v4 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_9 : Ref sig .tc := ⟨.hbm, 47, rfl⟩
abbrev main_cst_10 : Ref sig .tc := ⟨.hbm, 48, rfl⟩
abbrev main_call1_v0 : Ref sig .tc := ⟨.hbm, 49, rfl⟩
abbrev main_call1_v1 : Ref sig .tc := ⟨.hbm, 50, rfl⟩
abbrev main_call1_v2 : Ref sig .tc := ⟨.hbm, 51, rfl⟩
abbrev main_call1_v3 : Ref sig .tc := ⟨.hbm, 52, rfl⟩
abbrev main_call1_v4 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_c_11 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_cst_12 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_cst_13 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_c_14 : Ref sig .tc := ⟨.hbm, 100, rfl⟩
abbrev main_v72 : Ref sig .tc := ⟨.hbm, 101, rfl⟩
abbrev main_v73 : Ref sig .tc := ⟨.hbm, 102, rfl⟩
abbrev main_c_15 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_c_16 : Ref sig .tc := ⟨.hbm, 107, rfl⟩
abbrev main_v77 : Ref sig .tc := ⟨.hbm, 108, rfl⟩
abbrev main_v78 : Ref sig .tc := ⟨.hbm, 109, rfl⟩
abbrev main_c_17 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_c_18 : Ref sig .tc := ⟨.hbm, 114, rfl⟩
abbrev main_v82 : Ref sig .tc := ⟨.hbm, 115, rfl⟩
abbrev main_v83 : Ref sig .tc := ⟨.hbm, 116, rfl⟩
abbrev main_c_19 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_10 : BitVec 32 := 0#32
  let v15 : BitVec 1 := Scalar.cmpi .ne v14 c0_i32_10
  v15

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  shapeCasts_S4x64x64x2_S4x4096x2 : S4x64x64x2.ShapeCasts S4x4096x2
  slices_S4x4096x2_S4x4096x1_0_0_0 : S4x4096x2.Slices ![0, 0, 0] S4x4096x1
  shapeCasts_S4x4096x1_S4x4096 : S4x4096x1.ShapeCasts S4x4096
  bcast_S_S4x4096 : S_.BroadcastsInDim S4x4096 (![] : Fin 0 → Fin S4x4096.rank)
  reducesTo_S4x4096_S4096_d0 : S4x4096.ReducesTo [0] S4096
  h_S_ : 0 < S_.numel
  slices_S4x4096x2_S4x4096x1_0_0_1 : S4x4096x2.Slices ![0, 0, 1] S4x4096x1
  bcast_S4x4096_S4x4096x1_0_1 : S4x4096.BroadcastsInDim S4x4096x1 (![0, 1] : Fin 2 → Fin S4x4096x1.rank)
  slices_S4x2_S4x1_0_0 : S4x2.Slices ![0, 0] S4x1
  shapeCasts_S4x1_S4 : S4x1.ShapeCasts S4
  bcast_S4_S1x1x4_2 : S4.BroadcastsInDim S1x1x4 (![2] : Fin 1 → Fin S1x1x4.rank)
  bcast_S4x4096x1_S4x4096x4_0_1_2 : S4x4096x1.BroadcastsInDim S4x4096x4 (![0, 1, 2] : Fin 3 → Fin S4x4096x4.rank)
  bcast_S1x1x4_S4x4096x4_0_1_2 : S1x1x4.BroadcastsInDim S4x4096x4 (![0, 1, 2] : Fin 3 → Fin S4x4096x4.rank)
  bcast_S_S4x4096x4 : S_.BroadcastsInDim S4x4096x4 (![] : Fin 0 → Fin S4x4096x4.rank)
  slices_S4x2_S4x1_0_1 : S4x2.Slices ![0, 1] S4x1
  concatenates_S4x4096x1_S4x4096x1_S4x4096x2_d2 : Shape.Concatenates [S4x4096x1, S4x4096x1] S4x4096x2 2
  bcast_S4x4096x2_S4x4096x2x1_0_1_2 : S4x4096x2.BroadcastsInDim S4x4096x2x1 (![0, 1, 2] : Fin 3 → Fin S4x4096x2x1.rank)
  bcast_S4x4096x2_S4x4096x1x2_0_1_3 : S4x4096x2.BroadcastsInDim S4x4096x1x2 (![0, 1, 3] : Fin 3 → Fin S4x4096x1x2.rank)
  bcast_S4x4096x2x1_S4x4096x2x2_0_1_2_3 : S4x4096x2x1.BroadcastsInDim S4x4096x2x2 (![0, 1, 2, 3] : Fin 4 → Fin S4x4096x2x2.rank)
  bcast_S4x4096x1x2_S4x4096x2x2_0_1_2_3 : S4x4096x1x2.BroadcastsInDim S4x4096x2x2 (![0, 1, 2, 3] : Fin 4 → Fin S4x4096x2x2.rank)
  shapeCasts_S4x4096x2x2_S4x4096x4 : S4x4096x2x2.ShapeCasts S4x4096x4
  bcast_S_S4x4096x4096 : S_.BroadcastsInDim S4x4096x4096 (![] : Fin 0 → Fin S4x4096x4096.rank)
  bcast_S4_S4x1x1_0 : S4.BroadcastsInDim S4x1x1 (![0] : Fin 1 → Fin S4x1x1.rank)
  bcast_S4096_S1x4096x1_1 : S4096.BroadcastsInDim S1x4096x1 (![1] : Fin 1 → Fin S1x4096x1.rank)
  bcast_S_S4x1x1 : S_.BroadcastsInDim S4x1x1 (![] : Fin 0 → Fin S4x1x1.rank)
  bcast_S_S1x4096x1 : S_.BroadcastsInDim S1x4096x1 (![] : Fin 0 → Fin S1x4096x1.rank)
  bcast_S4x1x1_S4x4096x4_0_1_2 : S4x1x1.BroadcastsInDim S4x4096x4 (![0, 1, 2] : Fin 3 → Fin S4x4096x4.rank)
  bcast_S1x4096x1_S4x4096x4_0_1_2 : S1x4096x1.BroadcastsInDim S4x4096x4 (![0, 1, 2] : Fin 3 → Fin S4x4096x4.rank)
  bcast_S4x4096x4_S4x4096x4x1_0_1_2 : S4x4096x4.BroadcastsInDim S4x4096x4x1 (![0, 1, 2] : Fin 3 → Fin S4x4096x4x1.rank)
  concatenates_S4x4096x4x1_S4x4096x4x1_S4x4096x4x1_S4x4096x4x3_d3 : Shape.Concatenates [S4x4096x4x1, S4x4096x4x1, S4x4096x4x1] S4x4096x4x3 3
  bcast_S1x4096x1_S4x4096x4096_0_1_2 : S1x4096x1.BroadcastsInDim S4x4096x4096 (![0, 1, 2] : Fin 3 → Fin S4x4096x4096.rank)
  bitsLt_bf16_f32 : FTy.bits .bf16 < FTy.bits .f32
  inb_S128x4096_S128x4096_0_0 : ∀ a, (![0, 0] : Fin 2 → Nat) a + S128x4096.size a ≤ S128x4096.size a
  h_S128x4096 : 0 < S128x4096.numel
  shapeCasts_S128x4096_S128x4096 : S128x4096.ShapeCasts S128x4096
  inb_S1x128x1024_S1x128x1024_0_0_0 : ∀ a, (![0, 0, 0] : Fin 3 → Nat) a + S1x128x1024.size a ≤ S1x128x1024.size a
  h_S1x128x1024 : 0 < S1x128x1024.numel
  shapeCasts_S1x128x1024_S128x1024 : S1x128x1024.ShapeCasts S128x1024
  inb_S1x4096x1024_S1x4096x1024_0_0_0 : ∀ a, (![0, 0, 0] : Fin 3 → Nat) a + S1x4096x1024.size a ≤ S1x4096x1024.size a
  h_S1x4096x1024 : 0 < S1x4096x1024.numel
  shapeCasts_S1x4096x1024_S4096x1024 : S1x4096x1024.ShapeCasts S4096x1024
  inb_S1x128x4096_S1x128x4096_0_0_0 : ∀ a, (![0, 0, 0] : Fin 3 → Nat) a + S1x128x4096.size a ≤ S1x128x4096.size a
  h_S1x128x4096 : 0 < S1x128x4096.numel
  shapeCasts_S1x128x4096_S128x4096 : S1x128x4096.ShapeCasts S128x4096
  shapeCasts_S128x4096_S1x128x4096 : S128x4096.ShapeCasts S1x128x4096
  scatter_S4x4096x4096_S4x4096x4x3_S4x4096x4_n_012_012_3_wf : ScatterDims.WF S4x4096x4096 S4x4096x4x3 S4x4096x4 [] [0, 1, 2] [0, 1, 2] 3
  dot_S128x1024_S4096x1024_S128x4096_1_1_0_0_n_n_wf : DotDims.WF S128x1024 S4096x1024 S128x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x1024.size a ≤ S4x128x4096.size a
  hwx0_0 : ∀ i : grid0.Coords, EltTy.bits .bf16 = 32 ∨ (Rect.block (s := S4x128x4096) S1x128x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4096x1024.size a ≤ S4x4096x4096.size a
  hwx0_1 : ∀ i : grid0.Coords, EltTy.bits .bf16 = 32 ∨ (Rect.block (s := S4x4096x4096) S1x4096x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x4096.size a ≤ S4x128x4096.size a
  hwx0_2 : ∀ i : grid0.Coords, EltTy.bits .f32 = 32 ∨ (Rect.block (s := S4x128x4096) S1x128x4096.size (cc0_transform_2 i) (hinb0_2 i)).WholeWords (EltTy.packing .f32)

variable [Facts₀]

def scatter_S4x4096x4096_S4x4096x4x3_S4x4096x4_n_012_012_3 : ScatterDims S4x4096x4096 S4x4096x4x3 S4x4096x4 where
  updateWindowDims := []
  insertedWindowDims := [0, 1, 2]
  scatterDimsToOperandDims := [0, 1, 2]
  indexVectorDim := 3
  wf := scatter_S4x4096x4096_S4x4096x4x3_S4x4096x4_n_012_012_3_wf
def dot_S128x1024_S4096x1024_S128x4096_1_1_0_0_n_n : DotDims S128x1024 S4096x1024 S128x4096 where
  lhsContracting := [1]
  rhsContracting := [1]
  lhsNonContracting := [0]
  rhsNonContracting := [0]
  lhsBatch := []
  rhsBatch := []
  wf := dot_S128x1024_S4096x1024_S128x4096_1_1_0_0_n_n_wf

abbrev win0_0 : Pipeline.Window sig grid0 :=
  Pipeline.Window.ofSpec (Memref.whole main_v99) S1x128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v98) S1x4096x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v100) S1x128x4096.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S4x128x4096 : Shape := ⟨3, ![4, 128, 4096]⟩
abbrev S4x64x64x2 : Shape := ⟨4, ![4, 64, 64, 2]⟩
abbrev S4x2 : Shape := ⟨2, ![4, 2]⟩
abbrev S4x4096x2 : Shape := ⟨3, ![4, 4096, 2]⟩
abbrev S4x4096x1 : Shape := ⟨3, ![4, 4096, 1]⟩
abbrev S4x4096 : Shape := ⟨2, ![4, 4096]⟩
abbrev S_ : Shape := ⟨0, ![]⟩
abbrev S4096 : Shape := ⟨1, ![4096]⟩
abbrev S4x1 : Shape := ⟨2, ![4, 1]⟩
abbrev S4 : Shape := ⟨1, ![4]⟩
abbrev S1x1x4 : Shape := ⟨3, ![1, 1, 4]⟩
abbrev S4x4096x4 : Shape := ⟨3, ![4, 4096, 4]⟩
abbrev S4x4096x2x1 : Shape := ⟨4, ![4, 4096, 2, 1]⟩
abbrev S4x4096x1x2 : Shape := ⟨4, ![4, 4096, 1, 2]⟩
abbrev S4x4096x2x2 : Shape := ⟨4, ![4, 4096, 2, 2]⟩
abbrev S4x4096x4096 : Shape := ⟨3, ![4, 4096, 4096]⟩
abbrev S4x1x1 : Shape := ⟨3, ![4, 1, 1]⟩
abbrev S1x4096x1 : Shape := ⟨3, ![1, 4096, 1]⟩
abbrev S4x4096x4x1 : Shape := ⟨4, ![4, 4096, 4, 1]⟩
abbrev S4x4096x4x3 : Shape := ⟨4, ![4, 4096, 4, 3]⟩

abbrev nBuf : Space → Nat
  | .hbm => 133
  | .vmem => 0
  | .smem => 0
  | _ => 0

abbrev hbmTy0_0 (i : Nat) : BufTy := match i % 128 with
  | 0 => ⟨S4x128x4096, .f32⟩
  | 1 => ⟨S4x64x64x2, .f32⟩
  | 2 => ⟨S4x2, .i32⟩
  | 3 => ⟨S4x4096x2, .f32⟩
  | 4 => ⟨S4x4096x1, .f32⟩
  | 5 => ⟨S4x4096, .f32⟩
  | 6 => ⟨S_, .f32⟩
  | 7 => ⟨S4x4096, .f32⟩
  | 8 => ⟨S4x4096, .i1⟩
  | 9 => ⟨S_, .i1⟩
  | 10 => ⟨S4096, .i1⟩
  | 11 => ⟨S4x4096x1, .f32⟩
  | 12 => ⟨S4x4096, .f32⟩
  | 13 => ⟨S_, .f32⟩
  | 14 => ⟨S4x4096, .f32⟩
  | 15 => ⟨S4x4096, .i1⟩
  | 16 => ⟨S_, .i1⟩
  | 17 => ⟨S4096, .i1⟩
  | 18 => ⟨S4096, .i1⟩
  | 19 => ⟨S4x4096x1, .f32⟩
  | 20 => ⟨S4x4096, .f32⟩
  | 21 => ⟨S_, .f32⟩
  | 22 => ⟨S4x4096, .f32⟩
  | 23 => ⟨S4x4096, .i1⟩
  | 24 => ⟨S_, .i1⟩
  | 25 => ⟨S4096, .i1⟩
  | 26 => ⟨S4096, .i1⟩
  | 27 => ⟨S4x4096x1, .f32⟩
  | 28 => ⟨S4x4096, .f32⟩
  | 29 => ⟨S_, .f32⟩
  | 30 => ⟨S4x4096, .f32⟩
  | 31 => ⟨S4x4096, .i1⟩
  | 32 => ⟨S_, .i1⟩
  | 33 => ⟨S4096, .i1⟩
  | 34 => ⟨S4096, .i1⟩
  | 35 => ⟨S4x4096x1, .f32⟩
  | 36 => ⟨S4x4096, .f32⟩
  | 37 => ⟨S_, .f32⟩
  | 38 => ⟨S_, .f32⟩
  | 39 => ⟨S_, .f32⟩
  | 40 => ⟨S4x4096, .f32⟩
  | 41 => ⟨S4x4096, .f32⟩
  | 42 => ⟨S_, .f32⟩
  | 43 => ⟨S4x4096, .f32⟩
  | 44 => ⟨S4x4096, .f32⟩
  | 45 => ⟨S4x4096x1, .f32⟩
  | 46 => ⟨S4x4096, .f32⟩
  | 47 => ⟨S_, .f32⟩
  | 48 => ⟨S_, .f32⟩
  | 49 => ⟨S_, .f32⟩
  | 50 => ⟨S4x4096, .f32⟩
  | 51 => ⟨S4x4096, .f32⟩
  | 52 => ⟨S_, .f32⟩
  | 53 => ⟨S4x4096, .f32⟩
  | 54 => ⟨S4x4096, .f32⟩
  | 55 => ⟨S4x4096, .f32⟩
  | 56 => ⟨S4x4096, .f32⟩
  | 57 => ⟨S4x4096, .f32⟩
  | 58 => ⟨S4x4096, .f32⟩
  | 59 => ⟨S4x4096, .i32⟩
  | 60 => ⟨S4x4096, .i32⟩
  | 61 => ⟨S4x4096x1, .i32⟩
  | 62 => ⟨S4x1, .i32⟩
  | 63 => ⟨S4, .i32⟩
  | 64 => ⟨S1x1x4, .i32⟩
  | 65 => ⟨S4x4096x4, .i32⟩
  | 66 => ⟨S4x4096x4, .i32⟩
  | 67 => ⟨S4x4096x4, .i32⟩
  | 68 => ⟨S_, .i32⟩
  | 69 => ⟨S4x4096x4, .i32⟩
  | 70 => ⟨S4x4096x4, .i32⟩
  | 71 => ⟨S4x4096x1, .i32⟩
  | 72 => ⟨S4x1, .i32⟩
  | 73 => ⟨S4, .i32⟩
  | 74 => ⟨S1x1x4, .i32⟩
  | 75 => ⟨S4x4096x4, .i32⟩
  | 76 => ⟨S4x4096x4, .i32⟩
  | 77 => ⟨S4x4096x4, .i32⟩
  | 78 => ⟨S4x4096x4, .i32⟩
  | 79 => ⟨S_, .f32⟩
  | 80 => ⟨S4x4096, .f32⟩
  | 81 => ⟨S4x4096, .f32⟩
  | 82 => ⟨S4x4096x1, .f32⟩
  | 83 => ⟨S4x4096x1, .f32⟩
  | 84 => ⟨S4x4096x2, .f32⟩
  | 85 => ⟨S4x4096x1, .f32⟩
  | 86 => ⟨S4x4096x1, .f32⟩
  | 87 => ⟨S4x4096x2, .f32⟩
  | 88 => ⟨S4x4096x2x1, .f32⟩
  | 89 => ⟨S4x4096x1x2, .f32⟩
  | 90 => ⟨S4x4096x2x2, .f32⟩
  | 91 => ⟨S4x4096x2x2, .f32⟩
  | 92 => ⟨S4x4096x2x2, .f32⟩
  | 93 => ⟨S4x4096x4, .f32⟩
  | 94 => ⟨S_, .f32⟩
  | 95 => ⟨S4x4096x4096, .f32⟩
  | 96 => ⟨S4, .i32⟩
  | 97 => ⟨S4x1x1, .i32⟩
  | 98 => ⟨S4096, .i32⟩
  | 99 => ⟨S1x4096x1, .i32⟩
  | 100 => ⟨S_, .i32⟩
  | 101 => ⟨S4x1x1, .i32⟩
  | 102 => ⟨S4x1x1, .i1⟩
  | 103 => ⟨S_, .i32⟩
  | 104 => ⟨S4x1x1, .i32⟩
  | 105 => ⟨S4x1x1, .i32⟩
  | 106 => ⟨S4x1x1, .i32⟩
  | 107 => ⟨S_, .i32⟩
  | 108 => ⟨S1x4096x1, .i32⟩
  | 109 => ⟨S1x4096x1, .i1⟩
  | 110 => ⟨S_, .i32⟩
  | 111 => ⟨S1x4096x1, .i32⟩
  | 112 => ⟨S1x4096x1, .i32⟩
  | 113 => ⟨S1x4096x1, .i32⟩
  | 114 => ⟨S_, .i32⟩
  | 115 => ⟨S4x4096x4, .i32⟩
  | 116 => ⟨S4x4096x4, .i1⟩
  | 117 => ⟨S_, .i32⟩
  | 118 => ⟨S4x4096x4, .i32⟩
  | 119 => ⟨S4x4096x4, .i32⟩
  | 120 => ⟨S4x4096x4, .i32⟩
  | 121 => ⟨S4x4096x4, .i32⟩
  | 122 => ⟨S4x4096x4, .i32⟩
  | 123 => ⟨S4x4096x4x1, .i32⟩
  | 124 => ⟨S4x4096x4x1, .i32⟩
  | 125 => ⟨S4x4096x4x1, .i32⟩
  | 126 => ⟨S4x4096x4x3, .i32⟩
  | 127 => ⟨S4x4096x4096, .f32⟩
  | _ => ⟨S4x128x4096, .f32⟩

abbrev hbmTy0_1 (i : Nat) : BufTy := match i % 128 with
  | 0 => ⟨S4096, .f32⟩
  | 1 => ⟨S1x4096x1, .f32⟩
  | 2 => ⟨S4x4096x4096, .f32⟩
  | 3 => ⟨S4x4096x4096, .f32⟩
  | 4 => ⟨S4x128x4096, .f32⟩
  | _ => ⟨S4x128x4096, .f32⟩

abbrev hbmTy (i : Nat) : BufTy := match i / 128 with
  | 0 => hbmTy0_0 i
  | 1 => hbmTy0_1 i
  | _ => ⟨S4x128x4096, .f32⟩

abbrev bufTy : (tb : Table) → Fin (tcTables nBuf tb) → BufTy
  | .hbm, ⟨i, _⟩ => hbmTy i
  | _, _ => ⟨S4x128x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_c_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_c_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_3 : Ref sig .tc := ⟨.hbm, 21, rfl⟩
abbrev main_v14 : Ref sig .tc := ⟨.hbm, 22, rfl⟩
abbrev main_v15 : Ref sig .tc := ⟨.hbm, 23, rfl⟩
abbrev main_c_4 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩
abbrev main_v21 : Ref sig .tc := ⟨.hbm, 31, rfl⟩
abbrev main_c_6 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_7 : Ref sig .tc := ⟨.hbm, 37, rfl⟩
abbrev main_cst_8 : Ref sig .tc := ⟨.hbm, 38, rfl⟩
abbrev main_call0_v0 : Ref sig .tc := ⟨.hbm, 39, rfl⟩
abbrev main_call0_v1 : Ref sig .tc := ⟨.hbm, 40, rfl⟩
abbrev main_call0_v2 : Ref sig .tc := ⟨.hbm, 41, rfl⟩
abbrev main_call0_v3 : Ref sig .tc := ⟨.hbm, 42, rfl⟩
abbrev main_call0_v4 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_9 : Ref sig .tc := ⟨.hbm, 47, rfl⟩
abbrev main_cst_10 : Ref sig .tc := ⟨.hbm, 48, rfl⟩
abbrev main_call1_v0 : Ref sig .tc := ⟨.hbm, 49, rfl⟩
abbrev main_call1_v1 : Ref sig .tc := ⟨.hbm, 50, rfl⟩
abbrev main_call1_v2 : Ref sig .tc := ⟨.hbm, 51, rfl⟩
abbrev main_call1_v3 : Ref sig .tc := ⟨.hbm, 52, rfl⟩
abbrev main_call1_v4 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_c_11 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_cst_12 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_cst_13 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_c_14 : Ref sig .tc := ⟨.hbm, 100, rfl⟩
abbrev main_v72 : Ref sig .tc := ⟨.hbm, 101, rfl⟩
abbrev main_v73 : Ref sig .tc := ⟨.hbm, 102, rfl⟩
abbrev main_c_15 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_c_16 : Ref sig .tc := ⟨.hbm, 107, rfl⟩
abbrev main_v77 : Ref sig .tc := ⟨.hbm, 108, rfl⟩
abbrev main_v78 : Ref sig .tc := ⟨.hbm, 109, rfl⟩
abbrev main_c_17 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_c_18 : Ref sig .tc := ⟨.hbm, 114, rfl⟩
abbrev main_v82 : Ref sig .tc := ⟨.hbm, 115, rfl⟩
abbrev main_v83 : Ref sig .tc := ⟨.hbm, 116, rfl⟩
abbrev main_c_19 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩

abbrev nD : Nat := 1
abbrev τ : Topo := Topo.v7x

variable {F : FTy → Type} [FloatOps F]

class Facts₀ : Prop where
  shapeCasts_S4x64x64x2_S4x4096x2 : S4x64x64x2.ShapeCasts S4x4096x2
  slices_S4x4096x2_S4x4096x1_0_0_0 : S4x4096x2.Slices ![0, 0, 0] S4x4096x1
  shapeCasts_S4x4096x1_S4x4096 : S4x4096x1.ShapeCasts S4x4096
  bcast_S_S4x4096 : S_.BroadcastsInDim S4x4096 (![] : Fin 0 → Fin S4x4096.rank)
  reducesTo_S4x4096_S4096_d0 : S4x4096.ReducesTo [0] S4096
  h_S_ : 0 < S_.numel
  slices_S4x4096x2_S4x4096x1_0_0_1 : S4x4096x2.Slices ![0, 0, 1] S4x4096x1
  bcast_S4x4096_S4x4096x1_0_1 : S4x4096.BroadcastsInDim S4x4096x1 (![0, 1] : Fin 2 → Fin S4x4096x1.rank)
  slices_S4x2_S4x1_0_0 : S4x2.Slices ![0, 0] S4x1
  shapeCasts_S4x1_S4 : S4x1.ShapeCasts S4
  bcast_S4_S1x1x4_2 : S4.BroadcastsInDim S1x1x4 (![2] : Fin 1 → Fin S1x1x4.rank)
  bcast_S4x4096x1_S4x4096x4_0_1_2 : S4x4096x1.BroadcastsInDim S4x4096x4 (![0, 1, 2] : Fin 3 → Fin S4x4096x4.rank)
  bcast_S1x1x4_S4x4096x4_0_1_2 : S1x1x4.BroadcastsInDim S4x4096x4 (![0, 1, 2] : Fin 3 → Fin S4x4096x4.rank)
  bcast_S_S4x4096x4 : S_.BroadcastsInDim S4x4096x4 (![] : Fin 0 → Fin S4x4096x4.rank)
  slices_S4x2_S4x1_0_1 : S4x2.Slices ![0, 1] S4x1
  concatenates_S4x4096x1_S4x4096x1_S4x4096x2_d2 : Shape.Concatenates [S4x4096x1, S4x4096x1] S4x4096x2 2
  bcast_S4x4096x2_S4x4096x2x1_0_1_2 : S4x4096x2.BroadcastsInDim S4x4096x2x1 (![0, 1, 2] : Fin 3 → Fin S4x4096x2x1.rank)
  bcast_S4x4096x2_S4x4096x1x2_0_1_3 : S4x4096x2.BroadcastsInDim S4x4096x1x2 (![0, 1, 3] : Fin 3 → Fin S4x4096x1x2.rank)
  bcast_S4x4096x2x1_S4x4096x2x2_0_1_2_3 : S4x4096x2x1.BroadcastsInDim S4x4096x2x2 (![0, 1, 2, 3] : Fin 4 → Fin S4x4096x2x2.rank)
  bcast_S4x4096x1x2_S4x4096x2x2_0_1_2_3 : S4x4096x1x2.BroadcastsInDim S4x4096x2x2 (![0, 1, 2, 3] : Fin 4 → Fin S4x4096x2x2.rank)
  shapeCasts_S4x4096x2x2_S4x4096x4 : S4x4096x2x2.ShapeCasts S4x4096x4
  bcast_S_S4x4096x4096 : S_.BroadcastsInDim S4x4096x4096 (![] : Fin 0 → Fin S4x4096x4096.rank)
  bcast_S4_S4x1x1_0 : S4.BroadcastsInDim S4x1x1 (![0] : Fin 1 → Fin S4x1x1.rank)
  bcast_S4096_S1x4096x1_1 : S4096.BroadcastsInDim S1x4096x1 (![1] : Fin 1 → Fin S1x4096x1.rank)
  bcast_S_S4x1x1 : S_.BroadcastsInDim S4x1x1 (![] : Fin 0 → Fin S4x1x1.rank)
  bcast_S_S1x4096x1 : S_.BroadcastsInDim S1x4096x1 (![] : Fin 0 → Fin S1x4096x1.rank)
  bcast_S4x1x1_S4x4096x4_0_1_2 : S4x1x1.BroadcastsInDim S4x4096x4 (![0, 1, 2] : Fin 3 → Fin S4x4096x4.rank)
  bcast_S1x4096x1_S4x4096x4_0_1_2 : S1x4096x1.BroadcastsInDim S4x4096x4 (![0, 1, 2] : Fin 3 → Fin S4x4096x4.rank)
  bcast_S4x4096x4_S4x4096x4x1_0_1_2 : S4x4096x4.BroadcastsInDim S4x4096x4x1 (![0, 1, 2] : Fin 3 → Fin S4x4096x4x1.rank)
  concatenates_S4x4096x4x1_S4x4096x4x1_S4x4096x4x1_S4x4096x4x3_d3 : Shape.Concatenates [S4x4096x4x1, S4x4096x4x1, S4x4096x4x1] S4x4096x4x3 3
  bcast_S1x4096x1_S4x4096x4096_0_1_2 : S1x4096x1.BroadcastsInDim S4x4096x4096 (![0, 1, 2] : Fin 3 → Fin S4x4096x4096.rank)
  scatter_S4x4096x4096_S4x4096x4x3_S4x4096x4_n_012_012_3_wf : ScatterDims.WF S4x4096x4096 S4x4096x4x3 S4x4096x4 [] [0, 1, 2] [0, 1, 2] 3
  dot_S4x128x4096_S4x4096x4096_S4x128x4096_2_2_1_1_0_0_wf : DotDims.WF S4x128x4096 S4x4096x4096 S4x128x4096 [2] [2] [1] [1] [0] [0]

variable [Facts₀]

def scatter_S4x4096x4096_S4x4096x4x3_S4x4096x4_n_012_012_3 : ScatterDims S4x4096x4096 S4x4096x4x3 S4x4096x4 where
  updateWindowDims := []
  insertedWindowDims := [0, 1, 2]
  scatterDimsToOperandDims := [0, 1, 2]
  indexVectorDim := 3
  wf := scatter_S4x4096x4096_S4x4096x4x3_S4x4096x4_n_012_012_3_wf
def dot_S4x128x4096_S4x4096x4096_S4x128x4096_2_2_1_1_0_0 : DotDims S4x128x4096 S4x4096x4096 S4x128x4096 where
  lhsContracting := [2]
  rhsContracting := [2]
  lhsNonContracting := [1]
  rhsNonContracting := [1]
  lhsBatch := [0]
  rhsBatch := [0]
  wf := dot_S4x128x4096_S4x4096x4096_S4x128x4096_2_2_1_1_0_0_wf

class Facts : Prop extends Facts₀ where

variable [Facts]
-- ==== Proof.K.Entry.lean ====
/-
  The one kernel region of the program, seen from @main: what the device's buffers hold when the region is entered
  (the fold of the host operations that come before it), that @main is those operations followed by the region,
  that neither argument array is written on the way, the block of each operand that a grid point works on, and the
  two conditions the kernel body branches on — "this is the first step along the contraction axis" and "this is the
  last one" — decided over the grid of 4 × 4 points: point t is step t mod 4 of batch entry t / 4.
-/
import proofs.«169048_j87840671137910_1_alg».proof.Proof.Gen.Kernel.Launch
import proofs.«169048_j87840671137910_1_alg».proof.Proof.Gen.Kernel.Skeleton
import proofs.«169048_j87840671137910_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch contents after the five stretches of host operations. -/
abbrev V (c : Dev nD) (b : Ref sig .tc) : Buf (Elt F) ((c : Thread nD τ).loc b) :=
  StableHlo.after (List.flatten [hostOps0, hostOps0_1, hostOps0_2, hostOps0_3, hostOps0_4]) (fun b => m (c, b)) b

/-- No host operation allocates a buffer. -/
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
set_option maxHeartbeats 4000000 in
theorem hostOps0_4_fresh : (hostOps0_4 : List (HloOp τ sig (Elt F))).Forall fun op => op.fresh = ∅ := by
  simp only [List.Forall]; repeat' constructor

/-- @main is the five stretches of host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4]
    (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩) main_chain

set_option maxHeartbeats 4000000 in
/-- Every host operation writes its own result buffer, none of them the first argument: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, StableHlo.nary_writes, StableHlo.unaryIndexed_writes,
      StableHlo.TRef.unary, StableHlo.TRef.binary, Finset.mem_singleton]
    repeat' apply And.intro
    all_goals exact StableHlo.devRef_ne_of_ne (by decide)))
set_option maxHeartbeats 4000000 in
/-- Nor the second. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, StableHlo.nary_writes, StableHlo.unaryIndexed_writes,
      StableHlo.TRef.unary, StableHlo.TRef.binary, Finset.mem_singleton]
    repeat' apply And.intro
    all_goals exact StableHlo.devRef_ne_of_ne (by decide)))

/-! ## The operands' blocks -/

/-- Operand `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The left operand's staging buffer holds its block at every point, for any proof data whose array is the
    region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The same for the right operand. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The argument arrays end unchanged -/

/-- From a run of the region to the library's post: neither argument array is an operand of the region, so each ends
    at its region-entry contents, which are its launch contents. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c)⟩) h

/-! ## The body's two branch conditions -/

/-- "The contraction step is the first one": the condition under which the body clears its accumulator. -/
abbrev cond0_0 (i : grid0.Coords) : Prop := (Scalar.cmpi .ne (Scalar.extui (Scalar.cmpi .eq (BitVec.ofNat 32 (i 1).val) 0#32)) 0#32) = 1#1
/-- It holds at the points ≡ 0 (mod 4). -/
theorem hcond0_0 : ∀ t : Fin cfg0.N, cond0_0 (grid0.coords t) ↔ t.val % 4 = 0 :=
  (by decide +kernel : ∀ t : Fin grid0.N, cond0_0 (grid0.coords t) ↔ t.val % 4 = 0)

/-- "The contraction step is the last one": the condition under which the body writes the accumulator out. -/
abbrev cond0_1 (i : grid0.Coords) : Prop := k0_cond2 i = 1#1
/-- It holds at the points ≡ 3 (mod 4). -/
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the result's staging buffer is left alone -/

/-- The two operands are read at every point. -/
theorem liveAt0_0 : ∀ t : Fin cfg0.N, cfg0.idle 0 (grid0.coords t) = false := by decide +kernel
theorem liveAt0_1 : ∀ t : Fin cfg0.N, cfg0.idle 1 (grid0.coords t) = false := by decide +kernel
/-- At a first step the body stores nothing into the result's buffer, and the block is not written back there. -/
theorem idleAt0_2_A : ∀ t : Fin cfg0.N, cond0_0 (grid0.coords t) → ¬cond0_1 (grid0.coords t) → cfg0.idle 2 (grid0.coords t) = true := by decide +kernel
theorem noFlush0_2_A : ∀ t : Fin cfg0.N, cond0_0 (grid0.coords t) → ¬cond0_1 (grid0.coords t) → (cfg0.win 2).flush t = false := by decide +kernel
/-- The same at a middle step. -/
theorem idleAt0_2_B : ∀ t : Fin cfg0.N, ¬cond0_0 (grid0.coords t) → ¬cond0_1 (grid0.coords t) → cfg0.idle 2 (grid0.coords t) = true := by decide +kernel
theorem noFlush0_2_B : ∀ t : Fin cfg0.N, ¬cond0_0 (grid0.coords t) → ¬cond0_1 (grid0.coords t) → (cfg0.win 2).flush t = false := by decide +kernel
/-- At a last step the body stores the whole block. -/
theorem liveAt0_2_C : ∀ t : Fin cfg0.N, ¬cond0_0 (grid0.coords t) → cond0_1 (grid0.coords t) → cfg0.idle 2 (grid0.coords t) = false := by decide +kernel

/-! ## The memrefs the body is called with -/

/-- One staging buffer of the result, through which its contents are stated. -/
abbrev VO0_2 : View sig .tc .vmem S1x128x4096 .f32 := (Memref.whole cc0_stg2_0 : Memref sig .tc .vmem S1x128x4096 .f32).view
/-- Each operand's current staging memref at point `t`, as the pipeline passes it, and its wholeness. -/
abbrev ms0_0 (t : Fin cfg0.N) : Memref sig .tc .vmem S1x128x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x4096x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x128x4096 .f32 := win0_2.stage (cfg0.slots t 2)
abbrev hs0_2 (t : Fin cfg0.N) : (ms0_2 t).IsWhole := hstage0_2 ((cfg0.slots t 2).cast nbuf0_2)
/-- The accumulator: a whole buffer of the kernel's own, kept from one point to the next. -/
abbrev scM0_0 : Memref sig .tc .vmem S128x4096 .f32 := Memref.whole cc0_scratch0
abbrev VS0_0 : View sig .tc .vmem S128x4096 .f32 := scM0_0.view

/-- What the region hands the body besides the operands' buffers: the accumulator at some contents, and the
    generator register at some state. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel.Hand

end
-- ==== Proof.K.StepFirst.lean ====
/-
  The kernel body at a FIRST contraction step (the accumulator is cleared, the step's product is added, nothing is
  written out): on whole staging memrefs holding the two operands' blocks, the result's buffer at any contents handed
  back untouched, and the accumulator at anything, the body runs to the end, leaving the operands' buffers as they
  were and the accumulator with the stores it made — the list of those stores is what the run finds.
-/
import proofs.«169048_j87840671137910_1_alg».proof.Proof.K.Entry

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The stores the body makes at a first step (into the result's buffer: none; into the accumulator: the clearing
    store, then the accumulating one), with the body's run from the operands' blocks `x0`, `x1`. -/
noncomputable def kernelRun0_A (c : Dev nD) (i : grid0.Coords) (arg2 : Memref sig .tc .vmem S1x128x1024 .bf16) (harg2 : arg2.IsWhole) (arg3 : Memref sig .tc .vmem S1x4096x1024 .bf16) (harg3 : arg3.IsWhole) (arg4 : Memref sig .tc .vmem S1x128x4096 .f32) (harg4 : arg4.IsWhole) (arg5 : Memref sig .tc .vmem S128x4096 .f32) (harg5 : arg5.IsWhole) (hc0 : cond0_0 i) (hc1 : ¬cond0_1 i)
    (x0 : Vec F S1x128x1024 .bf16) (x1 : Vec F S1x4096x1024 .bf16) :
    Σ' (L2 : List (View.Piece (Elt F) S1x128x4096 .f32)), { LS0 : List (View.Piece (Elt F) S128x4096 .f32) //
      ∀ (xi2 : Vec F S1x128x4096 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__bmm_kernel i arg2 harg2 arg3 harg3 arg4 harg4 arg5 harg5) K } := by
  refine ⟨[], ?_, fun xi2 E K => ?run⟩
  case run =>
    simp only [cc0__bmm_kernel_eq_skeleton]; unfold cc0__bmm_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.K.StepMid.lean ====
/-
  The kernel body at a MIDDLE contraction step (neither first nor last: the step's product is added to what the
  accumulator holds, nothing is written out): the accumulator comes in at the contents `xs0` the step before left.
-/
import proofs.«169048_j87840671137910_1_alg».proof.Proof.K.StepFirst

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The stores the body makes at a middle step (into the result's buffer: none; into the accumulator: the
    accumulating store), with the body's run from the operands' blocks and the accumulator's contents. -/
noncomputable def kernelRun0_B (c : Dev nD) (i : grid0.Coords) (arg2 : Memref sig .tc .vmem S1x128x1024 .bf16) (harg2 : arg2.IsWhole) (arg3 : Memref sig .tc .vmem S1x4096x1024 .bf16) (harg3 : arg3.IsWhole) (arg4 : Memref sig .tc .vmem S1x128x4096 .f32) (harg4 : arg4.IsWhole) (arg5 : Memref sig .tc .vmem S128x4096 .f32) (harg5 : arg5.IsWhole) (hc0 : ¬cond0_0 i) (hc1 : ¬cond0_1 i)
    (x0 : Vec F S1x128x1024 .bf16) (x1 : Vec F S1x4096x1024 .bf16) (xs0 : Vec F S128x4096 .f32) :
    Σ' (L2 : List (View.Piece (Elt F) S1x128x4096 .f32)), { LS0 : List (View.Piece (Elt F) S128x4096 .f32) //
      ∀ (xi2 : Vec F S1x128x4096 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__bmm_kernel i arg2 harg2 arg3 harg3 arg4 harg4 arg5 harg5) K } := by
  refine ⟨[], ?_, fun xi2 E K => ?run⟩
  case run =>
    simp only [cc0__bmm_kernel_eq_skeleton]; unfold cc0__bmm_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.K.StepLast.lean ====
/-
  The kernel body at a LAST contraction step (the step's product is added to what the accumulator holds, and the
  accumulator is then copied into the result's buffer, which may come in at any contents).
-/
import proofs.«169048_j87840671137910_1_alg».proof.Proof.K.StepMid

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The stores the body makes at a last step (into the result's buffer: the whole block; into the accumulator: the
    accumulating store), with the body's run from the operands' blocks and the accumulator's contents. -/
noncomputable def kernelRun0_C (c : Dev nD) (i : grid0.Coords) (arg2 : Memref sig .tc .vmem S1x128x1024 .bf16) (harg2 : arg2.IsWhole) (arg3 : Memref sig .tc .vmem S1x4096x1024 .bf16) (harg3 : arg3.IsWhole) (arg4 : Memref sig .tc .vmem S1x128x4096 .f32) (harg4 : arg4.IsWhole) (arg5 : Memref sig .tc .vmem S128x4096 .f32) (harg5 : arg5.IsWhole) (hc0 : ¬cond0_0 i) (hc1 : cond0_1 i)
    (x0 : Vec F S1x128x1024 .bf16) (x1 : Vec F S1x4096x1024 .bf16) (xs0 : Vec F S128x4096 .f32) :
    Σ' (L2 : List (View.Piece (Elt F) S1x128x4096 .f32)), { LS0 : List (View.Piece (Elt F) S128x4096 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc0__bmm_kernel i arg2 harg2 arg3 harg3 arg4 harg4 arg5 harg5) K } := by
  refine ⟨?_, ?_, fun E K => ?run⟩
  case run =>
    simp only [cc0__bmm_kernel_eq_skeleton]; unfold cc0__bmm_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Hand

end
-- ==== Proof.K.Frame.lean ====
/-
  The frame of the kernel program: every weakly fair execution of @main terminates without a fault and leaves both
  argument arrays as launched. The region's proof data say what the body leaves at each grid point: the operands'
  buffers at their blocks, and — by recursion on the point, since the accumulator is carried from one contraction
  step to the next — the accumulator's and the result buffer's contents. The invariant between points is "the
  accumulator holds what the point before left"; before the first point and after the last it holds anything.
-/
import proofs.«169048_j87840671137910_1_alg».proof.Proof.K.StepLast

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- A first step stores nothing into the result's buffer: a placeholder nothing consults (the block is neither written
    back there nor read at the next point). -/
def out0_A_2 (c : Dev nD) (i : grid0.Coords) (arg2 : Memref sig .tc .vmem S1x128x1024 .bf16) (harg2 : arg2.IsWhole) (arg3 : Memref sig .tc .vmem S1x4096x1024 .bf16) (harg3 : arg3.IsWhole) (arg4 : Memref sig .tc .vmem S1x128x4096 .f32) (harg4 : arg4.IsWhole) (arg5 : Memref sig .tc .vmem S128x4096 .f32) (harg5 : arg5.IsWhole) (hc0 : cond0_0 i) (hc1 : ¬cond0_1 i)
    (x0 : Vec F S1x128x1024 .bf16) (x1 : Vec F S1x4096x1024 .bf16) : Vec F S1x128x4096 .f32 :=
  VO0_2.read (Elt F) (VO0_2.writes (Elt F) VO0_2.junk (kernelRun0_A c i arg2 harg2 arg3 harg3 arg4 harg4 arg5 harg5 hc0 hc1 x0 x1).1)

/-- A first step's stores into the accumulator cover it. -/
theorem scover0_A_0 (c : Dev nD) (i : grid0.Coords) (arg2 : Memref sig .tc .vmem S1x128x1024 .bf16) (harg2 : arg2.IsWhole) (arg3 : Memref sig .tc .vmem S1x4096x1024 .bf16) (harg3 : arg3.IsWhole) (arg4 : Memref sig .tc .vmem S1x128x4096 .f32) (harg4 : arg4.IsWhole) (arg5 : Memref sig .tc .vmem S128x4096 .f32) (harg5 : arg5.IsWhole) (hc0 : cond0_0 i) (hc1 : ¬cond0_1 i)
    (x0 : Vec F S1x128x1024 .bf16) (x1 : Vec F S1x4096x1024 .bf16) (y : S128x4096.Idx) :
    ∃ pc ∈ (kernelRun0_A c i arg2 harg2 arg3 harg3 arg4 harg4 arg5 harg5 hc0 hc1 x0 x1).2.1, y ∈ pc.1.set :=
  View.cover_of_tiledL (kernelRun0_A c i arg2 harg2 arg3 harg3 arg4 harg4 arg5 harg5 hc0 hc1 x0 x1).2.1 S128x4096.size (by sl_kernel_rfl) y

/-- What a first step leaves in the accumulator. -/
def sout0_A_0 (c : Dev nD) (i : grid0.Coords) (arg2 : Memref sig .tc .vmem S1x128x1024 .bf16) (harg2 : arg2.IsWhole) (arg3 : Memref sig .tc .vmem S1x4096x1024 .bf16) (harg3 : arg3.IsWhole) (arg4 : Memref sig .tc .vmem S1x128x4096 .f32) (harg4 : arg4.IsWhole) (arg5 : Memref sig .tc .vmem S128x4096 .f32) (harg5 : arg5.IsWhole) (hc0 : cond0_0 i) (hc1 : ¬cond0_1 i)
    (x0 : Vec F S1x128x1024 .bf16) (x1 : Vec F S1x4096x1024 .bf16) : Vec F S128x4096 .f32 :=
  VS0_0.read (Elt F) (VS0_0.writes (Elt F) VS0_0.junk (kernelRun0_A c i arg2 harg2 arg3 harg3 arg4 harg4 arg5 harg5 hc0 hc1 x0 x1).2.1)

/-- A middle step stores nothing into the result's buffer either. -/
def out0_B_2 (c : Dev nD) (i : grid0.Coords) (arg2 : Memref sig .tc .vmem S1x128x1024 .bf16) (harg2 : arg2.IsWhole) (arg3 : Memref sig .tc .vmem S1x4096x1024 .bf16) (harg3 : arg3.IsWhole) (arg4 : Memref sig .tc .vmem S1x128x4096 .f32) (harg4 : arg4.IsWhole) (arg5 : Memref sig .tc .vmem S128x4096 .f32) (harg5 : arg5.IsWhole) (hc0 : ¬cond0_0 i) (hc1 : ¬cond0_1 i)
    (x0 : Vec F S1x128x1024 .bf16) (x1 : Vec F S1x4096x1024 .bf16) (xs0 : Vec F S128x4096 .f32) : Vec F S1x128x4096 .f32 :=
  VO0_2.read (Elt F) (VO0_2.writes (Elt F) VO0_2.junk (kernelRun0_B c i arg2 harg2 arg3 harg3 arg4 harg4 arg5 harg5 hc0 hc1 x0 x1 xs0).1)

/-- A middle step's store into the accumulator covers it. -/
theorem scover0_B_0 (c : Dev nD) (i : grid0.Coords) (arg2 : Memref sig .tc .vmem S1x128x1024 .bf16) (harg2 : arg2.IsWhole) (arg3 : Memref sig .tc .vmem S1x4096x1024 .bf16) (harg3 : arg3.IsWhole) (arg4 : Memref sig .tc .vmem S1x128x4096 .f32) (harg4 : arg4.IsWhole) (arg5 : Memref sig .tc .vmem S128x4096 .f32) (harg5 : arg5.IsWhole) (hc0 : ¬cond0_0 i) (hc1 : ¬cond0_1 i)
    (x0 : Vec F S1x128x1024 .bf16) (x1 : Vec F S1x4096x1024 .bf16) (xs0 : Vec F S128x4096 .f32) (y : S128x4096.Idx) :
    ∃ pc ∈ (kernelRun0_B c i arg2 harg2 arg3 harg3 arg4 harg4 arg5 harg5 hc0 hc1 x0 x1 xs0).2.1, y ∈ pc.1.set :=
  View.cover_of_tiledL (kernelRun0_B c i arg2 harg2 arg3 harg3 arg4 harg4 arg5 harg5 hc0 hc1 x0 x1 xs0).2.1 S128x4096.size (by sl_kernel_rfl) y

/-- What a middle step leaves in the accumulator. -/
def sout0_B_0 (c : Dev nD) (i : grid0.Coords) (arg2 : Memref sig .tc .vmem S1x128x1024 .bf16) (harg2 : arg2.IsWhole) (arg3 : Memref sig .tc .vmem S1x4096x1024 .bf16) (harg3 : arg3.IsWhole) (arg4 : Memref sig .tc .vmem S1x128x4096 .f32) (harg4 : arg4.IsWhole) (arg5 : Memref sig .tc .vmem S128x4096 .f32) (harg5 : arg5.IsWhole) (hc0 : ¬cond0_0 i) (hc1 : ¬cond0_1 i)
    (x0 : Vec F S1x128x1024 .bf16) (x1 : Vec F S1x4096x1024 .bf16) (xs0 : Vec F S128x4096 .f32) : Vec F S128x4096 .f32 :=
  VS0_0.read (Elt F) (VS0_0.writes (Elt F) VS0_0.junk (kernelRun0_B c i arg2 harg2 arg3 harg3 arg4 harg4 arg5 harg5 hc0 hc1 x0 x1 xs0).2.1)

/-- A last step's store into the result's buffer covers the block. -/
theorem cover0_C_2 (c : Dev nD) (i : grid0.Coords) (arg2 : Memref sig .tc .vmem S1x128x1024 .bf16) (harg2 : arg2.IsWhole) (arg3 : Memref sig .tc .vmem S1x4096x1024 .bf16) (harg3 : arg3.IsWhole) (arg4 : Memref sig .tc .vmem S1x128x4096 .f32) (harg4 : arg4.IsWhole) (arg5 : Memref sig .tc .vmem S128x4096 .f32) (harg5 : arg5.IsWhole) (hc0 : ¬cond0_0 i) (hc1 : cond0_1 i)
    (x0 : Vec F S1x128x1024 .bf16) (x1 : Vec F S1x4096x1024 .bf16) (xs0 : Vec F S128x4096 .f32) (y : S1x128x4096.Idx) :
    ∃ pc ∈ (kernelRun0_C c i arg2 harg2 arg3 harg3 arg4 harg4 arg5 harg5 hc0 hc1 x0 x1 xs0).1, y ∈ pc.1.set :=
  View.cover_of_tiledL (kernelRun0_C c i arg2 harg2 arg3 harg3 arg4 harg4 arg5 harg5 hc0 hc1 x0 x1 xs0).1 S1x128x4096.size (by sl_kernel_rfl) y

/-- What a last step leaves in the result's buffer. -/
def out0_C_2 (c : Dev nD) (i : grid0.Coords) (arg2 : Memref sig .tc .vmem S1x128x1024 .bf16) (harg2 : arg2.IsWhole) (arg3 : Memref sig .tc .vmem S1x4096x1024 .bf16) (harg3 : arg3.IsWhole) (arg4 : Memref sig .tc .vmem S1x128x4096 .f32) (harg4 : arg4.IsWhole) (arg5 : Memref sig .tc .vmem S128x4096 .f32) (harg5 : arg5.IsWhole) (hc0 : ¬cond0_0 i) (hc1 : cond0_1 i)
    (x0 : Vec F S1x128x1024 .bf16) (x1 : Vec F S1x4096x1024 .bf16) (xs0 : Vec F S128x4096 .f32) : Vec F S1x128x4096 .f32 :=
  VO0_2.read (Elt F) (VO0_2.writes (Elt F) VO0_2.junk (kernelRun0_C c i arg2 harg2 arg3 harg3 arg4 harg4 arg5 harg5 hc0 hc1 x0 x1 xs0).1)

/-- A last step's store into the accumulator covers it. -/
theorem scover0_C_0 (c : Dev nD) (i : grid0.Coords) (arg2 : Memref sig .tc .vmem S1x128x1024 .bf16) (harg2 : arg2.IsWhole) (arg3 : Memref sig .tc .vmem S1x4096x1024 .bf16) (harg3 : arg3.IsWhole) (arg4 : Memref sig .tc .vmem S1x128x4096 .f32) (harg4 : arg4.IsWhole) (arg5 : Memref sig .tc .vmem S128x4096 .f32) (harg5 : arg5.IsWhole) (hc0 : ¬cond0_0 i) (hc1 : cond0_1 i)
    (x0 : Vec F S1x128x1024 .bf16) (x1 : Vec F S1x4096x1024 .bf16) (xs0 : Vec F S128x4096 .f32) (y : S128x4096.Idx) :
    ∃ pc ∈ (kernelRun0_C c i arg2 harg2 arg3 harg3 arg4 harg4 arg5 harg5 hc0 hc1 x0 x1 xs0).2.1, y ∈ pc.1.set :=
  View.cover_of_tiledL (kernelRun0_C c i arg2 harg2 arg3 harg3 arg4 harg4 arg5 harg5 hc0 hc1 x0 x1 xs0).2.1 S128x4096.size (by sl_kernel_rfl) y

/-- What a last step leaves in the accumulator. -/
def sout0_C_0 (c : Dev nD) (i : grid0.Coords) (arg2 : Memref sig .tc .vmem S1x128x1024 .bf16) (harg2 : arg2.IsWhole) (arg3 : Memref sig .tc .vmem S1x4096x1024 .bf16) (harg3 : arg3.IsWhole) (arg4 : Memref sig .tc .vmem S1x128x4096 .f32) (harg4 : arg4.IsWhole) (arg5 : Memref sig .tc .vmem S128x4096 .f32) (harg5 : arg5.IsWhole) (hc0 : ¬cond0_0 i) (hc1 : cond0_1 i)
    (x0 : Vec F S1x128x1024 .bf16) (x1 : Vec F S1x4096x1024 .bf16) (xs0 : Vec F S128x4096 .f32) : Vec F S128x4096 .f32 :=
  VS0_0.read (Elt F) (VS0_0.writes (Elt F) VS0_0.junk (kernelRun0_C c i arg2 harg2 arg3 harg3 arg4 harg4 arg5 harg5 hc0 hc1 x0 x1 xs0).2.1)

/-! ## The contents after each point -/

/-- What the result's staging buffer and the accumulator hold after the body at position `n`: the case the position
    is in (its remainder mod 4), run on the point's memrefs and blocks, over what the position before left in the
    accumulator. A position that is both a first and a last step does not exist. -/
def outsAt0 (c : Dev nD) : (n : ℕ) → n < cfg0.N → Vec F S1x128x4096 .f32 × Vec F S128x4096 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩),
              sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩))
  | n + 1, hn =>
    if h0 : (n + 1) % 4 = 0 then
      if h1 : (n + 1) % 4 = 3 then
        False.elim (by omega)
      else
        (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩),
         sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩))
    else
      if h1 : (n + 1) % 4 = 3 then
        (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).2,
         sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).2)
      else
        (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 c n (Nat.lt_of_succ_lt hn)).2,
         sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 c n (Nat.lt_of_succ_lt hn)).2)

/-- At a first step: that case's contents. -/
theorem outsAt0_A (c : Dev nD) (t : Fin cfg0.N) (h0 : t.val % 4 = 0) (h1 : ¬t.val % 4 = 3) :
    outsAt0 m c t.val t.isLt = (out0_A_2 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t),
      sout0_A_0 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t)) := by
  obtain ⟨n, hn⟩ := t
  cases n with
  | zero => exact rfl
  | succ n => exact (dif_pos h0).trans ((dif_neg h1).trans rfl)

/-- At a middle step: that case's contents, over what the point before left. -/
theorem outsAt0_B (c : Dev nD) (t : Fin cfg0.N) (h0 : ¬t.val % 4 = 0) (h1 : ¬t.val % 4 = 3) :
    outsAt0 m c t.val t.isLt = (out0_B_2 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2,
      sout0_B_0 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a last step: that case's contents, over what the point before left. -/
theorem outsAt0_C (c : Dev nD) (t : Fin cfg0.N) (h0 : ¬t.val % 4 = 0) (h1 : t.val % 4 = 3) :
    outsAt0 m c t.val t.isLt = (out0_C_2 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2,
      sout0_C_0 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- Before position `n`: at the start the accumulator holds anything; afterwards it holds what the position before
    left. The generator register is at some state throughout. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The region's proof data -/

/-- On core `c`: the arrays as the region finds them; after the body at point `t` each operand's buffer at its block
    and the result's at `outsAt0`'s first component; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body at a point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4800000 in
/-- The body at any point: the operands' memrefs hold their blocks; the point's remainder mod 4 says which case it
    is in; the invariant hands the body the accumulator at what the point before left (at anything at the very first
    point) and takes it back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl, PhiS_succ]
  have hN : t.val < 16 := lt_of_lt_of_eq t.isLt (show cfg0.N = 16 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  by_cases h0 : t.val % 4 = 0
  · by_cases h1 : t.val % 4 = 3
    · exfalso; omega
    · rw [Dat.leavesExact_idle (dats m 0 c) 2 t (idleAt0_2_A t ((hcond0_0 t).mpr h0) (fun h => h1 ((hcond0_1 t).mp h))) (noFlush0_2_A t ((hcond0_0 t).mpr h0) (fun h => h1 ((hcond0_1 t).mp h)))]
      rw [outsAt0_A m c t h0 h1]
      unfold sout0_A_0; (try dsimp only)
      by_cases hz : t.val = 0
      · rw [PhiS_castSucc m c t, PhiS_zero m c _ _ hz, PhiA0_eq]
        iintro ⟨⟨HS0, Hg⟩, Ho, ⟨%d0, H0⟩, ⟨%d1, H1⟩, ⟨%d2, H2⟩⟩
        iapply ((kernelRun0_A c (grid0.coords t) _ _ _ _ _ _ _ _ ((hcond0_0 t).mpr h0) (fun h => h1 ((hcond0_1 t).mp h)) (iblk m c 0 t) (iblk m c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _)
          iexact Hg
        isplitl [Ho]; · iexact Ho
        isplitl [H0]; · iexact H0
        isplitl [H1]; · iexact H1
        iexists _; iexact H2
      · rw [PhiS_castSucc m c t, PhiS_pos m c _ _ hz]
        iintro ⟨⟨HS0, Hg⟩, Ho, ⟨%d0, H0⟩, ⟨%d1, H1⟩, ⟨%d2, H2⟩⟩
        iapply ((kernelRun0_A c (grid0.coords t) _ _ _ _ _ _ _ _ ((hcond0_0 t).mpr h0) (fun h => h1 ((hcond0_1 t).mp h)) (iblk m c 0 t) (iblk m c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _)
          iexact Hg
        isplitl [Ho]; · iexact Ho
        isplitl [H0]; · iexact H0
        isplitl [H1]; · iexact H1
        iexists _; iexact H2
  · have hz : t.val ≠ 0 := by intro hz; rw [hz] at h0; exact h0 (Nat.zero_mod _)
    by_cases h1 : t.val % 4 = 3
    · rw [show (dats m 0 c).leavesExact 2 t = owns (c : Thread nD τ) (ms0_2 t) fullShare ((dats m 0 c).after 2 t) from by
        unfold Dat.leavesExact; rw [liveAt0_2_C t (fun h => h0 ((hcond0_0 t).mp h)) ((hcond0_1 t).mpr h1)], after0_2]
      rw [outsAt0_C m c t h0 h1]
      unfold out0_C_2 sout0_C_0; (try dsimp only)
      rw [PhiS_castSucc m c t, PhiS_pos m c _ _ hz]
      iintro ⟨⟨HS0, Hg⟩, Ho, ⟨%d0, H0⟩, ⟨%d1, H1⟩, ⟨%d2, H2⟩⟩
      iapply ((kernelRun0_C c (grid0.coords t) _ _ _ _ _ _ _ _ (fun h => h0 ((hcond0_0 t).mp h)) ((hcond0_1 t).mpr h1) (iblk m c 0 t) (iblk m c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hg]
      · isplitl [HS0]
        · unfold owns; iexists _; isplitr
          swap; · iexact HS0
          ipureintro; exact View.read_writes_of_cover _ _ _ _ _ (scover0_C_0 c _ _ _ _ _ _ _ _ _ _ _ _ _ _)
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_C_2 c _ _ _ _ _ _ _ _ _ _ _ _ _ _)
    · rw [Dat.leavesExact_idle (dats m 0 c) 2 t (idleAt0_2_B t (fun h => h0 ((hcond0_0 t).mp h)) (fun h => h1 ((hcond0_1 t).mp h))) (noFlush0_2_B t (fun h => h0 ((hcond0_0 t).mp h)) (fun h => h1 ((hcond0_1 t).mp h)))]
      rw [outsAt0_B m c t h0 h1]
      unfold sout0_B_0; (try dsimp only)
      rw [PhiS_castSucc m c t, PhiS_pos m c _ _ hz]
      iintro ⟨⟨HS0, Hg⟩, Ho, ⟨%d0, H0⟩, ⟨%d1, H1⟩, ⟨%d2, H2⟩⟩
      iapply ((kernelRun0_B c (grid0.coords t) _ _ _ _ _ _ _ _ (fun h => h0 ((hcond0_0 t).mp h)) (fun h => h1 ((hcond0_1 t).mp h)) (iblk m c 0 t) (iblk m c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hg]
      · isplitl [HS0]
        · unfold owns; iexists _; isplitr
          swap; · iexact HS0
          ipureintro; exact View.read_writes_of_cover _ _ _ _ _ (scover0_B_0 c _ _ _ _ _ _ _ _ _ _ _ _ _ _)
        iexact Hg
      isplitl [Ho]; · iexact Ho
      isplitl [H0]; · iexact H0
      isplitl [H1]; · iexact H1
      iexists _; iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the invariant gives it back: the accumulator's contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 16 := N_0; omega)

/-! ## The run and the frame -/

set_option backward.isDefEq.respectTransparency.types false in
/-- From any memory with zero counters every weakly fair execution of @main terminates, and every final state has each
    operand array of the region at what the library computes from the proof data and every other unscoped buffer as
    the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: both argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Hand

end
-- ==== Proof.KI.Entry.lean ====
/-
  The one kernel region of the program, seen from @main: what the device's buffers hold when the region is entered
  (the fold of the host operations that come before it), that @main is those operations followed by the region,
  that neither argument array is written on the way, the block of each operand that a grid point works on, and the
  two conditions the kernel body branches on — "this is the first step along the contraction axis" and "this is the
  last one" — decided over the grid of 4 × 4 points: point t is step t mod 4 of batch entry t / 4.
-/
import proofs.«169048_j87840671137910_1_alg».proof.Proof.Gen.KernelIdeal.Launch
import proofs.«169048_j87840671137910_1_alg».proof.Proof.Gen.KernelIdeal.Skeleton
import proofs.«169048_j87840671137910_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch contents after the five stretches of host operations. -/
abbrev V (c : Dev nD) (b : Ref sig .tc) : Buf (Elt F) ((c : Thread nD τ).loc b) :=
  StableHlo.after (List.flatten [hostOps0, hostOps0_1, hostOps0_2, hostOps0_3, hostOps0_4]) (fun b => m (c, b)) b

/-- No host operation allocates a buffer. -/
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
set_option maxHeartbeats 4000000 in
theorem hostOps0_4_fresh : (hostOps0_4 : List (HloOp τ sig (Elt F))).Forall fun op => op.fresh = ∅ := by
  simp only [List.Forall]; repeat' constructor

/-- @main is the five stretches of host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4]
    (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩) main_chain

set_option maxHeartbeats 4000000 in
/-- Every host operation writes its own result buffer, none of them the first argument: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, StableHlo.nary_writes, StableHlo.unaryIndexed_writes,
      StableHlo.TRef.unary, StableHlo.TRef.binary, Finset.mem_singleton]
    repeat' apply And.intro
    all_goals exact StableHlo.devRef_ne_of_ne (by decide)))
set_option maxHeartbeats 4000000 in
/-- Nor the second. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, StableHlo.nary_writes, StableHlo.unaryIndexed_writes,
      StableHlo.TRef.unary, StableHlo.TRef.binary, Finset.mem_singleton]
    repeat' apply And.intro
    all_goals exact StableHlo.devRef_ne_of_ne (by decide)))

/-! ## The operands' blocks -/

/-- Operand `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The left operand's staging buffer holds its block at every point, for any proof data whose array is the
    region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The same for the right operand. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The argument arrays end unchanged -/

/-- From a run of the region to the library's post: neither argument array is an operand of the region, so each ends
    at its region-entry contents, which are its launch contents. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c)⟩) h

/-! ## The body's two branch conditions -/

/-- "The contraction step is the first one": the condition under which the body clears its accumulator. -/
abbrev cond0_0 (i : grid0.Coords) : Prop := (Scalar.cmpi .ne (Scalar.extui (Scalar.cmpi .eq (BitVec.ofNat 32 (i 1).val) 0#32)) 0#32) = 1#1
/-- It holds at the points ≡ 0 (mod 4). -/
theorem hcond0_0 : ∀ t : Fin cfg0.N, cond0_0 (grid0.coords t) ↔ t.val % 4 = 0 :=
  (by decide +kernel : ∀ t : Fin grid0.N, cond0_0 (grid0.coords t) ↔ t.val % 4 = 0)

/-- "The contraction step is the last one": the condition under which the body writes the accumulator out. -/
abbrev cond0_1 (i : grid0.Coords) : Prop := k0_cond2 i = 1#1
/-- It holds at the points ≡ 3 (mod 4). -/
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the result's staging buffer is left alone -/

/-- The two operands are read at every point. -/
theorem liveAt0_0 : ∀ t : Fin cfg0.N, cfg0.idle 0 (grid0.coords t) = false := by decide +kernel
theorem liveAt0_1 : ∀ t : Fin cfg0.N, cfg0.idle 1 (grid0.coords t) = false := by decide +kernel
/-- At a first step the body stores nothing into the result's buffer, and the block is not written back there. -/
theorem idleAt0_2_A : ∀ t : Fin cfg0.N, cond0_0 (grid0.coords t) → ¬cond0_1 (grid0.coords t) → cfg0.idle 2 (grid0.coords t) = true := by decide +kernel
theorem noFlush0_2_A : ∀ t : Fin cfg0.N, cond0_0 (grid0.coords t) → ¬cond0_1 (grid0.coords t) → (cfg0.win 2).flush t = false := by decide +kernel
/-- The same at a middle step. -/
theorem idleAt0_2_B : ∀ t : Fin cfg0.N, ¬cond0_0 (grid0.coords t) → ¬cond0_1 (grid0.coords t) → cfg0.idle 2 (grid0.coords t) = true := by decide +kernel
theorem noFlush0_2_B : ∀ t : Fin cfg0.N, ¬cond0_0 (grid0.coords t) → ¬cond0_1 (grid0.coords t) → (cfg0.win 2).flush t = false := by decide +kernel
/-- At a last step the body stores the whole block. -/
theorem liveAt0_2_C : ∀ t : Fin cfg0.N, ¬cond0_0 (grid0.coords t) → cond0_1 (grid0.coords t) → cfg0.idle 2 (grid0.coords t) = false := by decide +kernel

/-! ## The memrefs the body is called with -/

/-- One staging buffer of the result, through which its contents are stated. -/
abbrev VO0_2 : View sig .tc .vmem S1x128x4096 .f32 := (Memref.whole cc0_stg2_0 : Memref sig .tc .vmem S1x128x4096 .f32).view
/-- Each operand's current staging memref at point `t`, as the pipeline passes it, and its wholeness. -/
abbrev ms0_0 (t : Fin cfg0.N) : Memref sig .tc .vmem S1x128x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x4096x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x128x4096 .f32 := win0_2.stage (cfg0.slots t 2)
abbrev hs0_2 (t : Fin cfg0.N) : (ms0_2 t).IsWhole := hstage0_2 ((cfg0.slots t 2).cast nbuf0_2)
/-- The accumulator: a whole buffer of the kernel's own, kept from one point to the next. -/
abbrev scM0_0 : Memref sig .tc .vmem S128x4096 .f32 := Memref.whole cc0_scratch0
abbrev VS0_0 : View sig .tc .vmem S128x4096 .f32 := scM0_0.view

/-- What the region hands the body besides the operands' buffers: the accumulator at some contents, and the
    generator register at some state. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Hand

end
-- ==== Proof.KI.StepFirst.lean ====
/-
  The kernel body at a FIRST contraction step (the accumulator is cleared, the step's product is added, nothing is
  written out): on whole staging memrefs holding the two operands' blocks, the result's buffer at any contents handed
  back untouched, and the accumulator at anything, the body runs to the end, leaving the operands' buffers as they
  were and the accumulator with the stores it made — the list of those stores is what the run finds.
-/
import proofs.«169048_j87840671137910_1_alg».proof.Proof.KI.Entry

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The stores the body makes at a first step (into the result's buffer: none; into the accumulator: the clearing
    store, then the accumulating one), with the body's run from the operands' blocks `x0`, `x1`. -/
noncomputable def kernelRun0_A (c : Dev nD) (i : grid0.Coords) (arg2 : Memref sig .tc .vmem S1x128x1024 .bf16) (harg2 : arg2.IsWhole) (arg3 : Memref sig .tc .vmem S1x4096x1024 .bf16) (harg3 : arg3.IsWhole) (arg4 : Memref sig .tc .vmem S1x128x4096 .f32) (harg4 : arg4.IsWhole) (arg5 : Memref sig .tc .vmem S128x4096 .f32) (harg5 : arg5.IsWhole) (hc0 : cond0_0 i) (hc1 : ¬cond0_1 i)
    (x0 : Vec F S1x128x1024 .bf16) (x1 : Vec F S1x4096x1024 .bf16) :
    Σ' (L2 : List (View.Piece (Elt F) S1x128x4096 .f32)), { LS0 : List (View.Piece (Elt F) S128x4096 .f32) //
      ∀ (xi2 : Vec F S1x128x4096 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__bmm_kernel i arg2 harg2 arg3 harg3 arg4 harg4 arg5 harg5) K } := by
  refine ⟨[], ?_, fun xi2 E K => ?run⟩
  case run =>
    simp only [cc0__bmm_kernel_eq_skeleton]; unfold cc0__bmm_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.KI.StepMid.lean ====
/-
  The kernel body at a MIDDLE contraction step (neither first nor last: the step's product is added to what the
  accumulator holds, nothing is written out): the accumulator comes in at the contents `xs0` the step before left.
-/
import proofs.«169048_j87840671137910_1_alg».proof.Proof.KI.StepFirst

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The stores the body makes at a middle step (into the result's buffer: none; into the accumulator: the
    accumulating store), with the body's run from the operands' blocks and the accumulator's contents. -/
noncomputable def kernelRun0_B (c : Dev nD) (i : grid0.Coords) (arg2 : Memref sig .tc .vmem S1x128x1024 .bf16) (harg2 : arg2.IsWhole) (arg3 : Memref sig .tc .vmem S1x4096x1024 .bf16) (harg3 : arg3.IsWhole) (arg4 : Memref sig .tc .vmem S1x128x4096 .f32) (harg4 : arg4.IsWhole) (arg5 : Memref sig .tc .vmem S128x4096 .f32) (harg5 : arg5.IsWhole) (hc0 : ¬cond0_0 i) (hc1 : ¬cond0_1 i)
    (x0 : Vec F S1x128x1024 .bf16) (x1 : Vec F S1x4096x1024 .bf16) (xs0 : Vec F S128x4096 .f32) :
    Σ' (L2 : List (View.Piece (Elt F) S1x128x4096 .f32)), { LS0 : List (View.Piece (Elt F) S128x4096 .f32) //
      ∀ (xi2 : Vec F S1x128x4096 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__bmm_kernel i arg2 harg2 arg3 harg3 arg4 harg4 arg5 harg5) K } := by
  refine ⟨[], ?_, fun xi2 E K => ?run⟩
  case run =>
    simp only [cc0__bmm_kernel_eq_skeleton]; unfold cc0__bmm_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.KI.StepLast.lean ====
/-
  The kernel body at a LAST contraction step (the step's product is added to what the accumulator holds, and the
  accumulator is then copied into the result's buffer, which may come in at any contents).
-/
import proofs.«169048_j87840671137910_1_alg».proof.Proof.KI.StepMid

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The stores the body makes at a last step (into the result's buffer: the whole block; into the accumulator: the
    accumulating store), with the body's run from the operands' blocks and the accumulator's contents. -/
noncomputable def kernelRun0_C (c : Dev nD) (i : grid0.Coords) (arg2 : Memref sig .tc .vmem S1x128x1024 .bf16) (harg2 : arg2.IsWhole) (arg3 : Memref sig .tc .vmem S1x4096x1024 .bf16) (harg3 : arg3.IsWhole) (arg4 : Memref sig .tc .vmem S1x128x4096 .f32) (harg4 : arg4.IsWhole) (arg5 : Memref sig .tc .vmem S128x4096 .f32) (harg5 : arg5.IsWhole) (hc0 : ¬cond0_0 i) (hc1 : cond0_1 i)
    (x0 : Vec F S1x128x1024 .bf16) (x1 : Vec F S1x4096x1024 .bf16) (xs0 : Vec F S128x4096 .f32) :
    Σ' (L2 : List (View.Piece (Elt F) S1x128x4096 .f32)), { LS0 : List (View.Piece (Elt F) S128x4096 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc0__bmm_kernel i arg2 harg2 arg3 harg3 arg4 harg4 arg5 harg5) K } := by
  refine ⟨?_, ?_, fun E K => ?run⟩
  case run =>
    simp only [cc0__bmm_kernel_eq_skeleton]; unfold cc0__bmm_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Hand

end
-- ==== Proof.KI.Frame.lean ====
/-
  The frame of the kernel program: every weakly fair execution of @main terminates without a fault and leaves both
  argument arrays as launched. The region's proof data say what the body leaves at each grid point: the operands'
  buffers at their blocks, and — by recursion on the point, since the accumulator is carried from one contraction
  step to the next — the accumulator's and the result buffer's contents. The invariant between points is "the
  accumulator holds what the point before left"; before the first point and after the last it holds anything.
-/
import proofs.«169048_j87840671137910_1_alg».proof.Proof.KI.StepLast

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- A first step stores nothing into the result's buffer: a placeholder nothing consults (the block is neither written
    back there nor read at the next point). -/
def out0_A_2 (c : Dev nD) (i : grid0.Coords) (arg2 : Memref sig .tc .vmem S1x128x1024 .bf16) (harg2 : arg2.IsWhole) (arg3 : Memref sig .tc .vmem S1x4096x1024 .bf16) (harg3 : arg3.IsWhole) (arg4 : Memref sig .tc .vmem S1x128x4096 .f32) (harg4 : arg4.IsWhole) (arg5 : Memref sig .tc .vmem S128x4096 .f32) (harg5 : arg5.IsWhole) (hc0 : cond0_0 i) (hc1 : ¬cond0_1 i)
    (x0 : Vec F S1x128x1024 .bf16) (x1 : Vec F S1x4096x1024 .bf16) : Vec F S1x128x4096 .f32 :=
  VO0_2.read (Elt F) (VO0_2.writes (Elt F) VO0_2.junk (kernelRun0_A c i arg2 harg2 arg3 harg3 arg4 harg4 arg5 harg5 hc0 hc1 x0 x1).1)

/-- A first step's stores into the accumulator cover it. -/
theorem scover0_A_0 (c : Dev nD) (i : grid0.Coords) (arg2 : Memref sig .tc .vmem S1x128x1024 .bf16) (harg2 : arg2.IsWhole) (arg3 : Memref sig .tc .vmem S1x4096x1024 .bf16) (harg3 : arg3.IsWhole) (arg4 : Memref sig .tc .vmem S1x128x4096 .f32) (harg4 : arg4.IsWhole) (arg5 : Memref sig .tc .vmem S128x4096 .f32) (harg5 : arg5.IsWhole) (hc0 : cond0_0 i) (hc1 : ¬cond0_1 i)
    (x0 : Vec F S1x128x1024 .bf16) (x1 : Vec F S1x4096x1024 .bf16) (y : S128x4096.Idx) :
    ∃ pc ∈ (kernelRun0_A c i arg2 harg2 arg3 harg3 arg4 harg4 arg5 harg5 hc0 hc1 x0 x1).2.1, y ∈ pc.1.set :=
  View.cover_of_tiledL (kernelRun0_A c i arg2 harg2 arg3 harg3 arg4 harg4 arg5 harg5 hc0 hc1 x0 x1).2.1 S128x4096.size (by sl_kernel_rfl) y

/-- What a first step leaves in the accumulator. -/
def sout0_A_0 (c : Dev nD) (i : grid0.Coords) (arg2 : Memref sig .tc .vmem S1x128x1024 .bf16) (harg2 : arg2.IsWhole) (arg3 : Memref sig .tc .vmem S1x4096x1024 .bf16) (harg3 : arg3.IsWhole) (arg4 : Memref sig .tc .vmem S1x128x4096 .f32) (harg4 : arg4.IsWhole) (arg5 : Memref sig .tc .vmem S128x4096 .f32) (harg5 : arg5.IsWhole) (hc0 : cond0_0 i) (hc1 : ¬cond0_1 i)
    (x0 : Vec F S1x128x1024 .bf16) (x1 : Vec F S1x4096x1024 .bf16) : Vec F S128x4096 .f32 :=
  VS0_0.read (Elt F) (VS0_0.writes (Elt F) VS0_0.junk (kernelRun0_A c i arg2 harg2 arg3 harg3 arg4 harg4 arg5 harg5 hc0 hc1 x0 x1).2.1)

/-- A middle step stores nothing into the result's buffer either. -/
def out0_B_2 (c : Dev nD) (i : grid0.Coords) (arg2 : Memref sig .tc .vmem S1x128x1024 .bf16) (harg2 : arg2.IsWhole) (arg3 : Memref sig .tc .vmem S1x4096x1024 .bf16) (harg3 : arg3.IsWhole) (arg4 : Memref sig .tc .vmem S1x128x4096 .f32) (harg4 : arg4.IsWhole) (arg5 : Memref sig .tc .vmem S128x4096 .f32) (harg5 : arg5.IsWhole) (hc0 : ¬cond0_0 i) (hc1 : ¬cond0_1 i)
    (x0 : Vec F S1x128x1024 .bf16) (x1 : Vec F S1x4096x1024 .bf16) (xs0 : Vec F S128x4096 .f32) : Vec F S1x128x4096 .f32 :=
  VO0_2.read (Elt F) (VO0_2.writes (Elt F) VO0_2.junk (kernelRun0_B c i arg2 harg2 arg3 harg3 arg4 harg4 arg5 harg5 hc0 hc1 x0 x1 xs0).1)

/-- A middle step's store into the accumulator covers it. -/
theorem scover0_B_0 (c : Dev nD) (i : grid0.Coords) (arg2 : Memref sig .tc .vmem S1x128x1024 .bf16) (harg2 : arg2.IsWhole) (arg3 : Memref sig .tc .vmem S1x4096x1024 .bf16) (harg3 : arg3.IsWhole) (arg4 : Memref sig .tc .vmem S1x128x4096 .f32) (harg4 : arg4.IsWhole) (arg5 : Memref sig .tc .vmem S128x4096 .f32) (harg5 : arg5.IsWhole) (hc0 : ¬cond0_0 i) (hc1 : ¬cond0_1 i)
    (x0 : Vec F S1x128x1024 .bf16) (x1 : Vec F S1x4096x1024 .bf16) (xs0 : Vec F S128x4096 .f32) (y : S128x4096.Idx) :
    ∃ pc ∈ (kernelRun0_B c i arg2 harg2 arg3 harg3 arg4 harg4 arg5 harg5 hc0 hc1 x0 x1 xs0).2.1, y ∈ pc.1.set :=
  View.cover_of_tiledL (kernelRun0_B c i arg2 harg2 arg3 harg3 arg4 harg4 arg5 harg5 hc0 hc1 x0 x1 xs0).2.1 S128x4096.size (by sl_kernel_rfl) y

/-- What a middle step leaves in the accumulator. -/
def sout0_B_0 (c : Dev nD) (i : grid0.Coords) (arg2 : Memref sig .tc .vmem S1x128x1024 .bf16) (harg2 : arg2.IsWhole) (arg3 : Memref sig .tc .vmem S1x4096x1024 .bf16) (harg3 : arg3.IsWhole) (arg4 : Memref sig .tc .vmem S1x128x4096 .f32) (harg4 : arg4.IsWhole) (arg5 : Memref sig .tc .vmem S128x4096 .f32) (harg5 : arg5.IsWhole) (hc0 : ¬cond0_0 i) (hc1 : ¬cond0_1 i)
    (x0 : Vec F S1x128x1024 .bf16) (x1 : Vec F S1x4096x1024 .bf16) (xs0 : Vec F S128x4096 .f32) : Vec F S128x4096 .f32 :=
  VS0_0.read (Elt F) (VS0_0.writes (Elt F) VS0_0.junk (kernelRun0_B c i arg2 harg2 arg3 harg3 arg4 harg4 arg5 harg5 hc0 hc1 x0 x1 xs0).2.1)

/-- A last step's store into the result's buffer covers the block. -/
theorem cover0_C_2 (c : Dev nD) (i : grid0.Coords) (arg2 : Memref sig .tc .vmem S1x128x1024 .bf16) (harg2 : arg2.IsWhole) (arg3 : Memref sig .tc .vmem S1x4096x1024 .bf16) (harg3 : arg3.IsWhole) (arg4 : Memref sig .tc .vmem S1x128x4096 .f32) (harg4 : arg4.IsWhole) (arg5 : Memref sig .tc .vmem S128x4096 .f32) (harg5 : arg5.IsWhole) (hc0 : ¬cond0_0 i) (hc1 : cond0_1 i)
    (x0 : Vec F S1x128x1024 .bf16) (x1 : Vec F S1x4096x1024 .bf16) (xs0 : Vec F S128x4096 .f32) (y : S1x128x4096.Idx) :
    ∃ pc ∈ (kernelRun0_C c i arg2 harg2 arg3 harg3 arg4 harg4 arg5 harg5 hc0 hc1 x0 x1 xs0).1, y ∈ pc.1.set :=
  View.cover_of_tiledL (kernelRun0_C c i arg2 harg2 arg3 harg3 arg4 harg4 arg5 harg5 hc0 hc1 x0 x1 xs0).1 S1x128x4096.size (by sl_kernel_rfl) y

/-- What a last step leaves in the result's buffer. -/
def out0_C_2 (c : Dev nD) (i : grid0.Coords) (arg2 : Memref sig .tc .vmem S1x128x1024 .bf16) (harg2 : arg2.IsWhole) (arg3 : Memref sig .tc .vmem S1x4096x1024 .bf16) (harg3 : arg3.IsWhole) (arg4 : Memref sig .tc .vmem S1x128x4096 .f32) (harg4 : arg4.IsWhole) (arg5 : Memref sig .tc .vmem S128x4096 .f32) (harg5 : arg5.IsWhole) (hc0 : ¬cond0_0 i) (hc1 : cond0_1 i)
    (x0 : Vec F S1x128x1024 .bf16) (x1 : Vec F S1x4096x1024 .bf16) (xs0 : Vec F S128x4096 .f32) : Vec F S1x128x4096 .f32 :=
  VO0_2.read (Elt F) (VO0_2.writes (Elt F) VO0_2.junk (kernelRun0_C c i arg2 harg2 arg3 harg3 arg4 harg4 arg5 harg5 hc0 hc1 x0 x1 xs0).1)

/-- A last step's store into the accumulator covers it. -/
theorem scover0_C_0 (c : Dev nD) (i : grid0.Coords) (arg2 : Memref sig .tc .vmem S1x128x1024 .bf16) (harg2 : arg2.IsWhole) (arg3 : Memref sig .tc .vmem S1x4096x1024 .bf16) (harg3 : arg3.IsWhole) (arg4 : Memref sig .tc .vmem S1x128x4096 .f32) (harg4 : arg4.IsWhole) (arg5 : Memref sig .tc .vmem S128x4096 .f32) (harg5 : arg5.IsWhole) (hc0 : ¬cond0_0 i) (hc1 : cond0_1 i)
    (x0 : Vec F S1x128x1024 .bf16) (x1 : Vec F S1x4096x1024 .bf16) (xs0 : Vec F S128x4096 .f32) (y : S128x4096.Idx) :
    ∃ pc ∈ (kernelRun0_C c i arg2 harg2 arg3 harg3 arg4 harg4 arg5 harg5 hc0 hc1 x0 x1 xs0).2.1, y ∈ pc.1.set :=
  View.cover_of_tiledL (kernelRun0_C c i arg2 harg2 arg3 harg3 arg4 harg4 arg5 harg5 hc0 hc1 x0 x1 xs0).2.1 S128x4096.size (by sl_kernel_rfl) y

/-- What a last step leaves in the accumulator. -/
def sout0_C_0 (c : Dev nD) (i : grid0.Coords) (arg2 : Memref sig .tc .vmem S1x128x1024 .bf16) (harg2 : arg2.IsWhole) (arg3 : Memref sig .tc .vmem S1x4096x1024 .bf16) (harg3 : arg3.IsWhole) (arg4 : Memref sig .tc .vmem S1x128x4096 .f32) (harg4 : arg4.IsWhole) (arg5 : Memref sig .tc .vmem S128x4096 .f32) (harg5 : arg5.IsWhole) (hc0 : ¬cond0_0 i) (hc1 : cond0_1 i)
    (x0 : Vec F S1x128x1024 .bf16) (x1 : Vec F S1x4096x1024 .bf16) (xs0 : Vec F S128x4096 .f32) : Vec F S128x4096 .f32 :=
  VS0_0.read (Elt F) (VS0_0.writes (Elt F) VS0_0.junk (kernelRun0_C c i arg2 harg2 arg3 harg3 arg4 harg4 arg5 harg5 hc0 hc1 x0 x1 xs0).2.1)

/-! ## The contents after each point -/

/-- What the result's staging buffer and the accumulator hold after the body at position `n`: the case the position
    is in (its remainder mod 4), run on the point's memrefs and blocks, over what the position before left in the
    accumulator. A position that is both a first and a last step does not exist. -/
def outsAt0 (c : Dev nD) : (n : ℕ) → n < cfg0.N → Vec F S1x128x4096 .f32 × Vec F S128x4096 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩),
              sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩))
  | n + 1, hn =>
    if h0 : (n + 1) % 4 = 0 then
      if h1 : (n + 1) % 4 = 3 then
        False.elim (by omega)
      else
        (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩),
         sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩))
    else
      if h1 : (n + 1) % 4 = 3 then
        (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).2,
         sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).2)
      else
        (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 c n (Nat.lt_of_succ_lt hn)).2,
         sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 c n (Nat.lt_of_succ_lt hn)).2)

/-- At a first step: that case's contents. -/
theorem outsAt0_A (c : Dev nD) (t : Fin cfg0.N) (h0 : t.val % 4 = 0) (h1 : ¬t.val % 4 = 3) :
    outsAt0 m c t.val t.isLt = (out0_A_2 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t),
      sout0_A_0 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t)) := by
  obtain ⟨n, hn⟩ := t
  cases n with
  | zero => exact rfl
  | succ n => exact (dif_pos h0).trans ((dif_neg h1).trans rfl)

/-- At a middle step: that case's contents, over what the point before left. -/
theorem outsAt0_B (c : Dev nD) (t : Fin cfg0.N) (h0 : ¬t.val % 4 = 0) (h1 : ¬t.val % 4 = 3) :
    outsAt0 m c t.val t.isLt = (out0_B_2 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2,
      sout0_B_0 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a last step: that case's contents, over what the point before left. -/
theorem outsAt0_C (c : Dev nD) (t : Fin cfg0.N) (h0 : ¬t.val % 4 = 0) (h1 : t.val % 4 = 3) :
    outsAt0 m c t.val t.isLt = (out0_C_2 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2,
      sout0_C_0 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- Before position `n`: at the start the accumulator holds anything; afterwards it holds what the position before
    left. The generator register is at some state throughout. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The region's proof data -/

/-- On core `c`: the arrays as the region finds them; after the body at point `t` each operand's buffer at its block
    and the result's at `outsAt0`'s first component; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body at a point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4800000 in
/-- The body at any point: the operands' memrefs hold their blocks; the point's remainder mod 4 says which case it
    is in; the invariant hands the body the accumulator at what the point before left (at anything at the very first
    point) and takes it back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl, PhiS_succ]
  have hN : t.val < 16 := lt_of_lt_of_eq t.isLt (show cfg0.N = 16 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  by_cases h0 : t.val % 4 = 0
  · by_cases h1 : t.val % 4 = 3
    · exfalso; omega
    · rw [Dat.leavesExact_idle (dats m 0 c) 2 t (idleAt0_2_A t ((hcond0_0 t).mpr h0) (fun h => h1 ((hcond0_1 t).mp h))) (noFlush0_2_A t ((hcond0_0 t).mpr h0) (fun h => h1 ((hcond0_1 t).mp h)))]
      rw [outsAt0_A m c t h0 h1]
      unfold sout0_A_0; (try dsimp only)
      by_cases hz : t.val = 0
      · rw [PhiS_castSucc m c t, PhiS_zero m c _ _ hz, PhiA0_eq]
        iintro ⟨⟨HS0, Hg⟩, Ho, ⟨%d0, H0⟩, ⟨%d1, H1⟩, ⟨%d2, H2⟩⟩
        iapply ((kernelRun0_A c (grid0.coords t) _ _ _ _ _ _ _ _ ((hcond0_0 t).mpr h0) (fun h => h1 ((hcond0_1 t).mp h)) (iblk m c 0 t) (iblk m c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _)
          iexact Hg
        isplitl [Ho]; · iexact Ho
        isplitl [H0]; · iexact H0
        isplitl [H1]; · iexact H1
        iexists _; iexact H2
      · rw [PhiS_castSucc m c t, PhiS_pos m c _ _ hz]
        iintro ⟨⟨HS0, Hg⟩, Ho, ⟨%d0, H0⟩, ⟨%d1, H1⟩, ⟨%d2, H2⟩⟩
        iapply ((kernelRun0_A c (grid0.coords t) _ _ _ _ _ _ _ _ ((hcond0_0 t).mpr h0) (fun h => h1 ((hcond0_1 t).mp h)) (iblk m c 0 t) (iblk m c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _)
          iexact Hg
        isplitl [Ho]; · iexact Ho
        isplitl [H0]; · iexact H0
        isplitl [H1]; · iexact H1
        iexists _; iexact H2
  · have hz : t.val ≠ 0 := by intro hz; rw [hz] at h0; exact h0 (Nat.zero_mod _)
    by_cases h1 : t.val % 4 = 3
    · rw [show (dats m 0 c).leavesExact 2 t = owns (c : Thread nD τ) (ms0_2 t) fullShare ((dats m 0 c).after 2 t) from by
        unfold Dat.leavesExact; rw [liveAt0_2_C t (fun h => h0 ((hcond0_0 t).mp h)) ((hcond0_1 t).mpr h1)], after0_2]
      rw [outsAt0_C m c t h0 h1]
      unfold out0_C_2 sout0_C_0; (try dsimp only)
      rw [PhiS_castSucc m c t, PhiS_pos m c _ _ hz]
      iintro ⟨⟨HS0, Hg⟩, Ho, ⟨%d0, H0⟩, ⟨%d1, H1⟩, ⟨%d2, H2⟩⟩
      iapply ((kernelRun0_C c (grid0.coords t) _ _ _ _ _ _ _ _ (fun h => h0 ((hcond0_0 t).mp h)) ((hcond0_1 t).mpr h1) (iblk m c 0 t) (iblk m c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hg]
      · isplitl [HS0]
        · unfold owns; iexists _; isplitr
          swap; · iexact HS0
          ipureintro; exact View.read_writes_of_cover _ _ _ _ _ (scover0_C_0 c _ _ _ _ _ _ _ _ _ _ _ _ _ _)
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_C_2 c _ _ _ _ _ _ _ _ _ _ _ _ _ _)
    · rw [Dat.leavesExact_idle (dats m 0 c) 2 t (idleAt0_2_B t (fun h => h0 ((hcond0_0 t).mp h)) (fun h => h1 ((hcond0_1 t).mp h))) (noFlush0_2_B t (fun h => h0 ((hcond0_0 t).mp h)) (fun h => h1 ((hcond0_1 t).mp h)))]
      rw [outsAt0_B m c t h0 h1]
      unfold sout0_B_0; (try dsimp only)
      rw [PhiS_castSucc m c t, PhiS_pos m c _ _ hz]
      iintro ⟨⟨HS0, Hg⟩, Ho, ⟨%d0, H0⟩, ⟨%d1, H1⟩, ⟨%d2, H2⟩⟩
      iapply ((kernelRun0_B c (grid0.coords t) _ _ _ _ _ _ _ _ (fun h => h0 ((hcond0_0 t).mp h)) (fun h => h1 ((hcond0_1 t).mp h)) (iblk m c 0 t) (iblk m c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hg]
      · isplitl [HS0]
        · unfold owns; iexists _; isplitr
          swap; · iexact HS0
          ipureintro; exact View.read_writes_of_cover _ _ _ _ _ (scover0_B_0 c _ _ _ _ _ _ _ _ _ _ _ _ _ _)
        iexact Hg
      isplitl [Ho]; · iexact Ho
      isplitl [H0]; · iexact H0
      isplitl [H1]; · iexact H1
      iexists _; iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the invariant gives it back: the accumulator's contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 16 := N_0; omega)

/-! ## The run and the frame -/

set_option backward.isDefEq.respectTransparency.types false in
/-- From any memory with zero counters every weakly fair execution of @main terminates, and every final state has each
    operand array of the region at what the library computes from the proof data and every other unscoped buffer as
    the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: both argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Hand

end
-- ==== Proof.KI.Pieces.lean ====
/-
  What the body's stores amount to, case by case, as values: the accumulator after a first step is the step's product
  added to the cleared accumulator; after a middle or last step it is the step's product added to what the accumulator
  held; and the block written out at a last step is that accumulator, given the result's leading unit axis.
-/
import proofs.«169048_j87840671137910_1_alg».proof.Proof.KI.Frame
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A pair of zero offsets, however spelt, is the constant zero. -/
theorem zeroOff2 : (![0, 0] : Fin 2 → Nat) = fun _ => 0 := funext fun a => by fin_cases a <;> rfl
/-- Likewise a triple. -/
theorem zeroOff3 : (![0, 0, 0] : Fin 3 → Nat) = fun _ => 0 := funext fun a => by fin_cases a <;> rfl

/-- After a first step the accumulator holds the step's product added to zeros. -/
theorem sout0_A_0_eq (c : Dev nD) (i : grid0.Coords) (arg2 : Memref sig .tc .vmem S1x128x1024 .bf16) (harg2 : arg2.IsWhole) (arg3 : Memref sig .tc .vmem S1x4096x1024 .bf16) (harg3 : arg3.IsWhole) (arg4 : Memref sig .tc .vmem S1x128x4096 .f32) (harg4 : arg4.IsWhole) (arg5 : Memref sig .tc .vmem S128x4096 .f32) (harg5 : arg5.IsWhole) (hc0 : cond0_0 i) (hc1 : ¬cond0_1 i)
    (x0 : Vec F S1x128x1024 .bf16) (x1 : Vec F S1x4096x1024 .bf16) :
    sout0_A_0 c i arg2 harg2 arg3 harg3 arg4 harg4 arg5 harg5 hc0 hc1 x0 x1 = k0_pay2 (k0_pay1 (F := F)) x0 x1 := by
  unfold sout0_A_0
  rw [View.read_writes_eq_canon _ _ _ (scover0_A_0 c i arg2 harg2 arg3 harg3 arg4 harg4 arg5 harg5 hc0 hc1 x0 x1)]
  unfold kernelRun0_A
  dsimp only
  sl_unfold_words
  rw [View.canon_cons_unit_zero (S := S128x4096) zeroOff2, View.readCov_unit_zero (S := S128x4096) _ zeroOff2]
  simp only [View.readAt_eq_ld, harg2.read_unread, harg3.read_unread, View.ld_unit_zero (S := S1x128x1024) zeroOff3, View.ld_unit_zero (S := S1x4096x1024) zeroOff3]

/-- After a middle step the accumulator holds the step's product added to what it held. -/
theorem sout0_B_0_eq (c : Dev nD) (i : grid0.Coords) (arg2 : Memref sig .tc .vmem S1x128x1024 .bf16) (harg2 : arg2.IsWhole) (arg3 : Memref sig .tc .vmem S1x4096x1024 .bf16) (harg3 : arg3.IsWhole) (arg4 : Memref sig .tc .vmem S1x128x4096 .f32) (harg4 : arg4.IsWhole) (arg5 : Memref sig .tc .vmem S128x4096 .f32) (harg5 : arg5.IsWhole) (hc0 : ¬cond0_0 i) (hc1 : ¬cond0_1 i)
    (x0 : Vec F S1x128x1024 .bf16) (x1 : Vec F S1x4096x1024 .bf16) (xs0 : Vec F S128x4096 .f32) :
    sout0_B_0 c i arg2 harg2 arg3 harg3 arg4 harg4 arg5 harg5 hc0 hc1 x0 x1 xs0 = k0_pay2 xs0 x0 x1 := by
  unfold sout0_B_0
  rw [View.read_writes_eq_canon _ _ _ (scover0_B_0 c i arg2 harg2 arg3 harg3 arg4 harg4 arg5 harg5 hc0 hc1 x0 x1 xs0)]
  unfold kernelRun0_B
  dsimp only
  sl_unfold_words
  rw [View.canon_unit_zero (S := S128x4096) zeroOff2]
  simp only [View.readAt_eq_ld, harg2.read_unread, harg3.read_unread, harg5.read_unread, View.ld_unit_zero (S := S128x4096) zeroOff2, View.ld_unit_zero (S := S1x128x1024) zeroOff3, View.ld_unit_zero (S := S1x4096x1024) zeroOff3]

/-- After a last step likewise. -/
theorem sout0_C_0_eq (c : Dev nD) (i : grid0.Coords) (arg2 : Memref sig .tc .vmem S1x128x1024 .bf16) (harg2 : arg2.IsWhole) (arg3 : Memref sig .tc .vmem S1x4096x1024 .bf16) (harg3 : arg3.IsWhole) (arg4 : Memref sig .tc .vmem S1x128x4096 .f32) (harg4 : arg4.IsWhole) (arg5 : Memref sig .tc .vmem S128x4096 .f32) (harg5 : arg5.IsWhole) (hc0 : ¬cond0_0 i) (hc1 : cond0_1 i)
    (x0 : Vec F S1x128x1024 .bf16) (x1 : Vec F S1x4096x1024 .bf16) (xs0 : Vec F S128x4096 .f32) :
    sout0_C_0 c i arg2 harg2 arg3 harg3 arg4 harg4 arg5 harg5 hc0 hc1 x0 x1 xs0 = k0_pay2 xs0 x0 x1 := by
  unfold sout0_C_0
  rw [View.read_writes_eq_canon _ _ _ (scover0_C_0 c i arg2 harg2 arg3 harg3 arg4 harg4 arg5 harg5 hc0 hc1 x0 x1 xs0)]
  unfold kernelRun0_C
  dsimp only
  sl_unfold_words
  rw [View.canon_unit_zero (S := S128x4096) zeroOff2]
  simp only [View.readAt_eq_ld, harg2.read_unread, harg3.read_unread, harg5.read_unread, View.ld_unit_zero (S := S128x4096) zeroOff2, View.ld_unit_zero (S := S1x128x1024) zeroOff3, View.ld_unit_zero (S := S1x4096x1024) zeroOff3]

/-- The block written out at a last step is the accumulator after that step, with a leading unit axis. -/
theorem out0_C_2_eq (c : Dev nD) (i : grid0.Coords) (arg2 : Memref sig .tc .vmem S1x128x1024 .bf16) (harg2 : arg2.IsWhole) (arg3 : Memref sig .tc .vmem S1x4096x1024 .bf16) (harg3 : arg3.IsWhole) (arg4 : Memref sig .tc .vmem S1x128x4096 .f32) (harg4 : arg4.IsWhole) (arg5 : Memref sig .tc .vmem S128x4096 .f32) (harg5 : arg5.IsWhole) (hc0 : ¬cond0_0 i) (hc1 : cond0_1 i)
    (x0 : Vec F S1x128x1024 .bf16) (x1 : Vec F S1x4096x1024 .bf16) (xs0 : Vec F S128x4096 .f32) :
    out0_C_2 c i arg2 harg2 arg3 harg3 arg4 harg4 arg5 harg5 hc0 hc1 x0 x1 xs0 = k0_pay3 (k0_pay2 xs0 x0 x1) := by
  unfold out0_C_2
  rw [View.read_writes_eq_canon _ _ _ (cover0_C_2 c i arg2 harg2 arg3 harg3 arg4 harg4 arg5 harg5 hc0 hc1 x0 x1 xs0)]
  unfold kernelRun0_C
  dsimp only
  sl_unfold_words
  rw [View.canon_unit_zero (S := S1x128x4096) zeroOff3, View.readCov_unit_zero (S := S128x4096) _ zeroOff2]
  simp only [View.readAt_eq_ld, harg2.read_unread, harg3.read_unread, harg5.read_unread, View.ld_unit_zero (S := S128x4096) zeroOff2, View.ld_unit_zero (S := S1x128x1024) zeroOff3, View.ld_unit_zero (S := S1x4096x1024) zeroOff3]

end Cert.KernelIdeal.Hand

end
-- ==== Proof.KI.Acc.lean ====
/-
  The accumulator point by point, as one recursion over the grid positions: at a first contraction step (position
  ≡ 0 mod 4) it is the step's product added to zeros, at every other position the step's product added to what the
  position before left. The proof data's contents are this recursion; the block written out at a last step
  (position ≡ 3 mod 4) is the accumulator there.
-/
import proofs.«169048_j87840671137910_1_alg».proof.Proof.KI.Pieces

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The accumulator after position `n`. -/
def accAt (c : Dev nD) : (n : ℕ) → n < cfg0.N → Vec F S128x4096 .f32
  | 0, hn => k0_pay2 (k0_pay1 (F := F)) (iblk m c 0 ⟨0, hn⟩) (iblk m c 1 ⟨0, hn⟩)
  | n + 1, hn =>
    if (n + 1) % 4 = 0 then k0_pay2 (k0_pay1 (F := F)) (iblk m c 0 ⟨n + 1, hn⟩) (iblk m c 1 ⟨n + 1, hn⟩)
    else k0_pay2 (accAt c n (Nat.lt_of_succ_lt hn)) (iblk m c 0 ⟨n + 1, hn⟩) (iblk m c 1 ⟨n + 1, hn⟩)

theorem accAt_first (c : Dev nD) (n : ℕ) (hn : n < cfg0.N) (h0 : n % 4 = 0) :
    accAt m c n hn = k0_pay2 (k0_pay1 (F := F)) (iblk m c 0 ⟨n, hn⟩) (iblk m c 1 ⟨n, hn⟩) := by
  cases n with
  | zero => rfl
  | succ n => exact if_pos h0

theorem accAt_next (c : Dev nD) (n : ℕ) (hn : n + 1 < cfg0.N) (h0 : ¬(n + 1) % 4 = 0) :
    accAt m c (n + 1) hn = k0_pay2 (accAt m c n (Nat.lt_of_succ_lt hn)) (iblk m c 0 ⟨n + 1, hn⟩) (iblk m c 1 ⟨n + 1, hn⟩) := by
  exact if_neg h0

/-- The proof data's accumulator contents are this recursion. -/
theorem outsAt0_acc (c : Dev nD) (n : ℕ) (hn : n < cfg0.N) : (outsAt0 m c n hn).2 = accAt m c n hn := by
  have z3 : ¬((0 : ℕ) % 4 = 3) := by decide
  induction n with
  | zero =>
    rw [outsAt0_A m c ⟨0, hn⟩ (Nat.zero_mod _) z3, accAt_first m c 0 hn (Nat.zero_mod _)]
    dsimp only
    exact sout0_A_0_eq (F := F) c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => z3 ((hcond0_1 ⟨0, hn⟩).mp h)) (iblk m c 0 ⟨0, hn⟩) (iblk m c 1 ⟨0, hn⟩)
  | succ n ih =>
    by_cases h0 : (n + 1) % 4 = 0
    · have h1 : ¬(n + 1) % 4 = 3 := by omega
      rw [outsAt0_A m c ⟨n + 1, hn⟩ h0 h1, accAt_first m c (n + 1) hn h0]
      dsimp only
      exact sout0_A_0_eq (F := F) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩)
    · by_cases h1 : (n + 1) % 4 = 3
      · rw [outsAt0_C m c ⟨n + 1, hn⟩ h0 h1, accAt_next m c n hn h0, ← ih (Nat.lt_of_succ_lt hn)]
        dsimp only
        exact sout0_C_0_eq (F := F) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 m c n (Nat.lt_of_succ_lt hn)).2
      · rw [outsAt0_B m c ⟨n + 1, hn⟩ h0 h1, accAt_next m c n hn h0, ← ih (Nat.lt_of_succ_lt hn)]
        dsimp only
        exact sout0_B_0_eq (F := F) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 m c n (Nat.lt_of_succ_lt hn)).2

/-- At a last step the result's staging buffer holds the accumulator, with a leading unit axis. -/
theorem outsAt0_out (c : Dev nD) (t : Fin cfg0.N) (h3 : t.val % 4 = 3) :
    (outsAt0 m c t.val t.isLt).1 = k0_pay3 (accAt m c t.val t.isLt) := by
  obtain ⟨n, hn⟩ := t
  cases n with
  | zero => exact absurd h3 (show ¬((0 : ℕ) % 4 = 3) by decide)
  | succ n =>
    have h0 : ¬(n + 1) % 4 = 0 := fun h => by dsimp only at h3; omega
    rw [outsAt0_C m c ⟨n + 1, hn⟩ h0 h3]
    dsimp only
    rw [accAt_next m c n hn h0, ← outsAt0_acc m c n (Nat.lt_of_succ_lt hn)]
    exact out0_C_2_eq (F := F) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h3) (iblk m c 0 ⟨n + 1, hn⟩) (iblk m c 1 ⟨n + 1, hn⟩) (outsAt0 m c n (Nat.lt_of_succ_lt hn)).2

end Cert.KernelIdeal.Hand

end
-- ==== Proof.LibDotT.lean ====
/-
  A matrix product against a transposed right operand, read at an entry. For the dimension numbers "contract the left
  operand's columns with the right operand's columns, no batch axis", the vector unit's product into a zero
  accumulator is, at entry (r, c) and over the extended reals, the sum over k of x(r, k) · w(c, k).
-/
import Idealize.ShloMosaic.PureOps.Ideal
import Idealize.ShloMosaic.PureOps.Ideal.Laws
import Idealize.ShloMosaic.Lib.ValueIdx

noncomputable section

open scoped BigOperators

namespace Cert.LibDotT

open Idealize.ShloMosaic Idealize.ShloMosaic.ValueIdx

/-! ## The four coordinates of the operand indices

  With the left operand's rows the only free left axis, the right operand's rows the only free right axis and one
  shared axis (each operand's columns), the left operand is read at (row of the entry, shared coordinate) and the
  right operand at (column of the entry, shared coordinate). Each of the four coordinates is its own statement, at
  the literal axis. -/

section Axes

variable {R K C : Nat} (d : DotDims ⟨2, ![R, K]⟩ ⟨2, ![C, K]⟩ ⟨2, ![R, C]⟩)

/-- One shared axis. -/
theorem rank_contr_one (hl : d.lhsContracting = [1]) : d.contr.rank = 1 := by
  rw [d.rank_contr, hl]; rfl

/-- The shared axis has the left operand's column count. -/
theorem size_contr_zero (hl : d.lhsContracting = [1]) :
    d.contr.size ⟨0, by rw [rank_contr_one d hl]; exact Nat.one_pos⟩ = K := by
  have h := d.size_contr 0 (by rw [hl]; exact Nat.one_pos)
  rw [h]
  have h1 : d.lhsContracting[0]'(by rw [hl]; exact Nat.one_pos) = (1 : Fin 2) := by simp [hl]
  rw [h1]; rfl

/-- The left operand's row coordinate is the entry's row. -/
theorem lhs_axis0 (hln : d.lhsNonContracting = [0]) (hlb : d.lhsBatch = [])
    (j : (⟨2, ![R, C]⟩ : Shape).Idx) (k : d.contr.Idx) : (d.lhsIdx j k 0 : ℕ) = (j 0 : ℕ) := by
  unfold DotDims.lhsIdx
  rw [dif_neg (by rw [hlb]; exact List.not_mem_nil), dif_pos (by rw [hln]; exact List.mem_singleton.mpr rfl)]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln])

/-- The left operand's column coordinate is the shared coordinate. -/
theorem lhs_axis1 (hl : d.lhsContracting = [1]) (j : (⟨2, ![R, C]⟩ : Shape).Idx) (k : d.contr.Idx) :
    (d.lhsIdx j k 1 : ℕ) = (k ⟨0, by rw [rank_contr_one d hl]; exact Nat.one_pos⟩ : ℕ) :=
  d.lhsIdx_val_of_single hl j k

/-- The right operand's row coordinate is the entry's column. -/
theorem rhs_axis0 (hln : d.lhsNonContracting = [0]) (hrn : d.rhsNonContracting = [0]) (hlb : d.lhsBatch = [])
    (hrb : d.rhsBatch = []) (j : (⟨2, ![R, C]⟩ : Shape).Idx) (k : d.contr.Idx) : (d.rhsIdx j k 0 : ℕ) = (j 1 : ℕ) := by
  unfold DotDims.rhsIdx
  rw [dif_neg (by rw [hrb]; exact List.not_mem_nil), dif_pos (by rw [hrn]; exact List.mem_singleton.mpr rfl)]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln, hrn])

/-- The right operand's column coordinate is the shared coordinate. -/
theorem rhs_axis1 (hl : d.lhsContracting = [1]) (hr : d.rhsContracting = [1]) (j : (⟨2, ![R, C]⟩ : Shape).Idx)
    (k : d.contr.Idx) : (d.rhsIdx j k 1 : ℕ) = (k ⟨0, by rw [rank_contr_one d hl]; exact Nat.one_pos⟩ : ℕ) :=
  d.rhsIdx_val_of_single hr j k

end Axes

/-- The contraction sum of a product against a transposed right operand, re-indexed by the shared axis's
    coordinate: the left operand is read at (r, k), the right one at (c, k). -/
theorem contr_sum_T {R K C : Nat} {φ₁ φ₂ : FTy} (d : DotDims ⟨2, ![R, K]⟩ ⟨2, ![C, K]⟩ ⟨2, ![R, C]⟩)
    (hl : d.lhsContracting = [1]) (hr : d.rhsContracting = [1]) (hln : d.lhsNonContracting = [0])
    (hrn : d.rhsNonContracting = [0]) (hlb : d.lhsBatch = []) (hrb : d.rhsBatch = [])
    (x : FVec Ideal ⟨2, ![R, K]⟩ φ₁) (w : FVec Ideal ⟨2, ![C, K]⟩ φ₂) (r : Fin R) (c : Fin C) :
    (∑ k : d.contr.Idx, x (d.lhsIdx (ix2 r c) k) * w (d.rhsIdx (ix2 r c) k)) = ∑ k : Fin K, x (ix2 r k) * w (ix2 c k) := by
  rw [← Equiv.sum_comp (contrEquiv1 d K (rank_contr_one d hl) (size_contr_zero d hl)).symm]
  refine Finset.sum_congr rfl fun k _ => ?_
  have hk := contrEquiv1_symm_val d K (rank_contr_one d hl) (size_contr_zero d hl) k
  have hx : d.lhsIdx (ix2 r c) ((contrEquiv1 d K (rank_contr_one d hl) (size_contr_zero d hl)).symm k) = ix2 r k := by
    funext a
    match a with
    | ⟨0, _⟩ => exact Fin.ext (lhs_axis0 d hln hlb _ _)
    | ⟨1, _⟩ => exact Fin.ext ((lhs_axis1 d hl _ _).trans hk)
  have hw : d.rhsIdx (ix2 r c) ((contrEquiv1 d K (rank_contr_one d hl) (size_contr_zero d hl)).symm k) = ix2 c k := by
    funext a
    match a with
    | ⟨0, _⟩ => exact Fin.ext (rhs_axis0 d hln hrn hlb hrb _ _)
    | ⟨1, _⟩ => exact Fin.ext ((rhs_axis1 d hl hr _ _).trans hk)
  rw [hx, hw]

/-- The vector unit's product against a transposed right operand into the zero accumulator, at entry (r, c). -/
theorem matmul_zero_at_T {R K C : Nat} {φ₁ φ₂ : FTy} (d : DotDims ⟨2, ![R, K]⟩ ⟨2, ![C, K]⟩ ⟨2, ![R, C]⟩)
    (hl : d.lhsContracting = [1]) (hr : d.rhsContracting = [1]) (hln : d.lhsNonContracting = [0])
    (hrn : d.rhsNonContracting = [0]) (hlb : d.lhsBatch = []) (hrb : d.rhsBatch = [])
    (prec : Option ContractPrecision) (x : FVec Ideal ⟨2, ![R, K]⟩ φ₁) (w : FVec Ideal ⟨2, ![C, K]⟩ φ₂) (r : Fin R) (c : Fin C) :
    FloatOps.matmul d prec x w (constant ⟨2, ![R, C]⟩ .f32 0x00000000#32) (ix2 r c) = ∑ k : Fin K, x (ix2 r k) * w (ix2 c k) := by
  rw [Ideal.matmul_constant_zero_apply]
  exact contr_sum_T d hl hr hln hrn hlb hrb x w r c

end Cert.LibDotT

end
-- ==== Proof.KI.Entries.lean ====
/-
  The body's arithmetic and its operands' blocks, entry by entry, over the extended reals. One contraction step adds
  to entry (r, k) of the accumulator the sum over the step's 1024 columns l of x(r, l) · w(k, l); the cleared
  accumulator is zero everywhere; the block written out is the accumulator entry for entry. The block of an operand at
  grid point t is the part of its array at batch entry t / 4 and columns (t mod 4) · 1024 … (t mod 4) · 1024 + 1023.
-/
import proofs.«169048_j87840671137910_1_alg».proof.Proof.KI.Entry
import proofs.«169048_j87840671137910_1_alg».proof.Proof.LibDotT
import Idealize.ShloMosaic.Lib.ValueIdx
import Idealize.ShloMosaic.Lib.Pipeline.Value
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ)

/-- The left operand as the region finds it: the first argument, cast. -/
abbrev Xarr (c : Dev nD) : S4x128x4096.Idx → EReal := V m c main_v99
/-- The right operand as the region finds it: the interpolation matrix, cast. -/
abbrev Warr (c : Dev nD) : S4x4096x4096.Idx → EReal := V m c main_v98
/-- The operands' blocks at a grid point, at their literal types. -/
abbrev xblk (c : Dev nD) (t : Fin cfg0.N) : S1x128x1024.Idx → EReal := iblk m c 0 t
abbrev wblk (c : Dev nD) (t : Fin cfg0.N) : S1x4096x1024.Idx → EReal := iblk m c 1 t

/-- The cleared accumulator is zero at every entry. -/
theorem pay1_at (r : Fin 128) (k : Fin 4096) : (k0_pay1 (F := Ideal) : S128x4096.Idx → EReal) (ix2 r k) = 0 := by
  -- a recast to the same shape changes nothing; a splat reads its scalar everywhere; the zero word is the real 0
  unfold k0_pay1
  rw [shapeCast_self]
  exact Ideal.ofBits_zero_f32

/-- The index (0, r, l) of a block with a leading unit axis is the index (r, l) with 0 put in front. -/
private theorem cons_ix2 {n0 n1 : Nat} (r : Fin n0) (l : Fin n1) :
    (Fin.cons (⟨0, Nat.one_pos⟩ : Fin 1) (ix2 r l) : (⟨3, ![1, n0, n1]⟩ : Shape).Idx) = ix3 0 r l := by
  funext d
  match d with
  | ⟨0, _⟩ => rfl
  | ⟨1, _⟩ => rfl
  | ⟨2, _⟩ => rfl

/-- One step: entry (r, k) gains the sum over the step's columns of x(r, l) · w(k, l). -/
theorem pay2_at (a : S128x4096.Idx → EReal) (x0 : S1x128x1024.Idx → EReal) (x1 : S1x4096x1024.Idx → EReal) (r : Fin 128) (k : Fin 4096) :
    (k0_pay2 (F := Ideal) a x0 x1 : S128x4096.Idx → EReal) (ix2 r k) = a (ix2 r k) + ∑ l : Fin 1024, x0 (ix3 0 r l) * x1 (ix3 0 k l) := by
  unfold k0_pay2
  -- the outer recast keeps the shape; the sum of two vectors at an entry is the sum of the entries
  refine (congrFun (shapeCast_self _ _) _).trans ?_
  refine (addf_apply _ _ _).trans ?_
  congr 1
  -- the product into the zero accumulator contracts the two operands' columns: entry (r, k) is Σ_l x(r, l) · w(k, l)
  refine (Cert.LibDotT.matmul_zero_at_T dot_S128x1024_S4096x1024_S128x4096_1_1_0_0_n_n rfl rfl rfl rfl rfl rfl none _ _ r k).trans ?_
  refine Finset.sum_congr rfl fun l _ => ?_
  -- each factor is a block with its leading unit axis dropped: (r, l) there is (0, r, l) of the block
  congr 1
  · exact (shapeCast_dropUnit_apply ![128, 1024] x0 _ (ix2 r l)).trans (congrArg x0 (cons_ix2 r l))
  · exact (shapeCast_dropUnit_apply ![4096, 1024] x1 _ (ix2 k l)).trans (congrArg x1 (cons_ix2 k l))

/-- The block written out is the accumulator, entry for entry. -/
theorem pay3_at (a : S128x4096.Idx → EReal) (r : Fin 128) (k : Fin 4096) :
    (k0_pay3 (F := Ideal) a : S1x128x4096.Idx → EReal) (ix3 0 r k) = a (ix2 r k) := by
  -- a leading unit axis is added: (0, r, k) of the block is (r, k) of the accumulator
  unfold k0_pay3
  refine (shapeCast_addUnit_apply _ a _ _).trans ?_
  congr 1
  funext d
  match d with
  | ⟨0, _⟩ => rfl
  | ⟨1, _⟩ => rfl

/-- The left operand's block index at point t, axis by axis: batch entry t / 4, all rows, column block t mod 4. -/
private theorem idx_facts0 : ∀ t : Fin cfg0.N, win0_0.index t (0 : Fin 3) = t.val / 4 ∧ win0_0.index t (1 : Fin 3) = 0 ∧ win0_0.index t (2 : Fin 3) = t.val % 4 :=
  (by decide +kernel : ∀ t : Fin grid0.N, win0_0.index t (0 : Fin 3) = t.val / 4 ∧ win0_0.index t (1 : Fin 3) = 0 ∧ win0_0.index t (2 : Fin 3) = t.val % 4)

/-- The right operand's block index at point t: the same three numbers. -/
private theorem idx_facts1 : ∀ t : Fin cfg0.N, win0_1.index t (0 : Fin 3) = t.val / 4 ∧ win0_1.index t (1 : Fin 3) = 0 ∧ win0_1.index t (2 : Fin 3) = t.val % 4 :=
  (by decide +kernel : ∀ t : Fin grid0.N, win0_1.index t (0 : Fin 3) = t.val / 4 ∧ win0_1.index t (1 : Fin 3) = 0 ∧ win0_1.index t (2 : Fin 3) = t.val % 4)

/-- The left operand's block at point t: batch entry t / 4, columns from (t mod 4) · 1024. -/
theorem xblk_at (c : Dev nD) (t : Fin cfg0.N) (r : Fin 128) (l : Fin 1024) :
    xblk m c t (ix3 0 r l) = Xarr m c (ix3 ⟨t.val / 4, by have := t.isLt; have : cfg0.N = 16 := N_0; omega⟩ r ⟨(t.val % 4) * 1024 + l.val, by omega⟩) := by
  obtain ⟨e0, e1, e2⟩ := idx_facts0 t
  -- the block's element (0, r, l) is the array's element at, on each axis, block index × block size + coordinate
  show V m c main_v99 (((cfg0.win 0).blk t).view.emb (ix3 0 r l)) = _
  refine congrArg (V m c main_v99) ?_
  funext a
  apply Fin.ext
  match a with
  | ⟨0, _⟩ => show win0_0.index t (0 : Fin 3) * 1 + 1 * (0 : Fin 1).val = t.val / 4; rw [e0]; simp
  | ⟨1, _⟩ => show win0_0.index t (1 : Fin 3) * 128 + 1 * r.val = r.val; omega
  | ⟨2, _⟩ => show win0_0.index t (2 : Fin 3) * 1024 + 1 * l.val = t.val % 4 * 1024 + l.val; omega

/-- The right operand's block at point t. -/
theorem wblk_at (c : Dev nD) (t : Fin cfg0.N) (k : Fin 4096) (l : Fin 1024) :
    wblk m c t (ix3 0 k l) = Warr m c (ix3 ⟨t.val / 4, by have := t.isLt; have : cfg0.N = 16 := N_0; omega⟩ k ⟨(t.val % 4) * 1024 + l.val, by omega⟩) := by
  obtain ⟨e0, e1, e2⟩ := idx_facts1 t
  -- the same reading of the right operand's block: block index × block size + coordinate on each axis
  show V m c main_v98 (((cfg0.win 1).blk t).view.emb (ix3 0 k l)) = _
  refine congrArg (V m c main_v98) ?_
  funext a
  apply Fin.ext
  match a with
  | ⟨0, _⟩ => show win0_1.index t (0 : Fin 3) * 1 + 1 * (0 : Fin 1).val = t.val / 4; rw [e0]; simp
  | ⟨1, _⟩ => show win0_1.index t (1 : Fin 3) * 4096 + 1 * k.val = k.val; omega
  | ⟨2, _⟩ => show win0_1.index t (2 : Fin 3) * 1024 + 1 * l.val = t.val % 4 * 1024 + l.val; omega

end Cert.KernelIdeal.Hand

end
-- ==== Proof.TileSum.lean ====
/-
  A sum of 4096 extended reals taken tile by tile. The 4096 positions are cut into four consecutive tiles of 1024;
  a running total starts at zero and takes in one tile's sum at a time, grouped to the left:
  (((0 + tile 0) + tile 1) + tile 2) + tile 3. Because every position lies in exactly one tile, at exactly one place
  inside it (position = tile · 1024 + place), and addition of extended reals is commutative and associative with 0
  neutral, the running total after the last tile is the plain sum over all 4096 positions. No finiteness is used.
-/
import Mathlib.Data.EReal.Basic
import Mathlib.Algebra.BigOperators.Fin
import Mathlib.Logic.Equiv.Fin.Basic

noncomputable section

open scoped BigOperators

namespace Cert.TileSum

/-- the sum of f over tile t: entries t·1024 … t·1024 + 1023 -/
def tile (f : Fin 4096 → EReal) (t : Fin 4) : EReal := ∑ l : Fin 1024, f ⟨t.val * 1024 + l.val, by omega⟩

/-- the accumulation through tile j, from zero, one tile at a time, in this grouping: ((0 + tile 0) + tile 1) + … -/
def accum (f : Fin 4096 → EReal) : (j : ℕ) → j < 4 → EReal
  | 0, _ => 0 + tile f 0
  | j + 1, h => accum f j (by omega) + tile f ⟨j + 1, h⟩

theorem accum_zero (f : Fin 4096 → EReal) (h : 0 < 4) : accum f 0 h = 0 + tile f 0 := rfl

theorem accum_succ (f : Fin 4096 → EReal) (j : ℕ) (h : j + 1 < 4) :
    accum f (j + 1) h = accum f j (by omega) + tile f ⟨j + 1, h⟩ := rfl

/-- The sum over all positions, split by tile: a position is (tile, place in the tile), at tile · 1024 + place. -/
theorem sum_eq_sum_tile (f : Fin 4096 → EReal) : (∑ j : Fin 4096, f j) = ∑ t : Fin 4, tile f t := by
  have e : (∑ j : Fin 4096, f j) = ∑ p : Fin 4 × Fin 1024, f (finProdFinEquiv (m := 4) (n := 1024) p) :=
    (Equiv.sum_comp (finProdFinEquiv (m := 4) (n := 1024)) f).symm
  rw [e, Fintype.sum_prod_type]
  refine Finset.sum_congr rfl fun t _ => ?_
  refine Finset.sum_congr rfl fun l _ => ?_
  congr 1
  apply Fin.ext
  show l.val + 1024 * t.val = t.val * 1024 + l.val
  omega

/-- The running total after the fourth tile is the sum over all 4096 positions. -/
theorem accum_last (f : Fin 4096 → EReal) : accum f 3 (by decide) = ∑ j : Fin 4096, f j := by
  rw [sum_eq_sum_tile, Fin.sum_univ_four]
  show ((0 + tile f 0 + tile f 1) + tile f 2) + tile f 3 = tile f 0 + tile f 1 + tile f 2 + tile f 3
  rw [zero_add]

end Cert.TileSum

end
-- ==== Proof.KI.Value.lean ====
/-
  The result array after the run, entry by entry, over the extended reals. Entry (r, k) of the accumulator after
  contraction step j of batch entry b is the accumulation, tile by tile from zero, of the products
  x(b, r, ·) · w(b, k, ·) through tile j; the block written back at the last step of batch entry b is that accumulator
  after tile 3, so entry (b, r, k) of the result array is the sum over all 4096 columns j of x(b, r, j) · w(b, k, j).
-/
import proofs.«169048_j87840671137910_1_alg».proof.Proof.KI.Acc
import proofs.«169048_j87840671137910_1_alg».proof.Proof.KI.Entries
import proofs.«169048_j87840671137910_1_alg».proof.Proof.TileSum
import Idealize.ShloMosaic.Lib.ValueIdx
import Idealize.ShloMosaic.Lib.Pipeline.Value
import Mathlib.Algebra.BigOperators.Group.Finset.Basic

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ)

/-- The products whose sum entry (b, r, k) of the result is. -/
def prodAt (c : Dev nD) (b : Fin 4) (r : Fin 128) (k : Fin 4096) : Fin 4096 → EReal :=
  fun j => Xarr m c (ix3 b r j) * Warr m c (ix3 b k j)

/-- Step j of batch entry b is grid position 4·b + j, one of the 16. -/
theorem pos_lt (b : Fin 4) (j : ℕ) (hj : j < 4) : 4 * b.val + j < cfg0.N := by
  have : cfg0.N = 16 := N_0; have := b.isLt; omega

/-- What step j of batch entry b adds to entry (r, k): the sum over the step's 1024 columns l of
    x-block(r, l) · w-block(k, l). The blocks at position 4·b + j are batch entry (4·b + j) / 4 = b and columns
    ((4·b + j) mod 4) · 1024 + l = j · 1024 + l of the arrays, so this is tile j of the products. -/
theorem step_tile (c : Dev nD) (b : Fin 4) (j : ℕ) (hj : j < 4) (r : Fin 128) (k : Fin 4096) :
    (∑ l : Fin 1024, xblk m c ⟨4 * b.val + j, pos_lt b j hj⟩ (ix3 0 r l) * wblk m c ⟨4 * b.val + j, pos_lt b j hj⟩ (ix3 0 k l))
      = Cert.TileSum.tile (prodAt m c b r k) ⟨j, hj⟩ := by
  unfold Cert.TileSum.tile
  refine Finset.sum_congr rfl fun l _ => ?_
  rw [xblk_at, wblk_at]
  have hb : (⟨(4 * b.val + j) / 4, by have := b.isLt; omega⟩ : Fin 4) = b := Fin.ext (by show (4 * b.val + j) / 4 = b.val; omega)
  have hl : (⟨((4 * b.val + j) % 4) * 1024 + l.val, by have := l.isLt; omega⟩ : Fin 4096) = ⟨j * 1024 + l.val, by have := l.isLt; omega⟩ :=
    Fin.ext (by show ((4 * b.val + j) % 4) * 1024 + l.val = j * 1024 + l.val; have : (4 * b.val + j) % 4 = j := by omega
                rw [this])
  show Xarr m c (ix3 ⟨(4 * b.val + j) / 4, _⟩ r ⟨((4 * b.val + j) % 4) * 1024 + l.val, _⟩)
      * Warr m c (ix3 ⟨(4 * b.val + j) / 4, _⟩ k ⟨((4 * b.val + j) % 4) * 1024 + l.val, _⟩)
      = Xarr m c (ix3 b r ⟨j * 1024 + l.val, _⟩) * Warr m c (ix3 b k ⟨j * 1024 + l.val, _⟩)
  rw [hb, hl]

/-- Entry (r, k) of the accumulator after step j of batch entry b: the products accumulated through tile j. -/
theorem acc_at (c : Dev nD) (b : Fin 4) (j : ℕ) (hj : j < 4) (r : Fin 128) (k : Fin 4096) :
    (accAt (F := Ideal) m c (4 * b.val + j) (by have : cfg0.N = 16 := N_0; have := b.isLt; omega) : S128x4096.Idx → EReal) (ix2 r k)
      = Cert.TileSum.accum (prodAt m c b r k) j hj := by
  induction j with
  | zero =>
    -- a first step: zero plus tile 0
    rw [Cert.TileSum.accum_zero, accAt_first m c (4 * b.val + 0) _ (by omega), pay2_at, pay1_at]
    exact congrArg (fun z => (0 : EReal) + z) (step_tile m c b 0 hj r k)
  | succ j ih =>
    -- a later step: what the step before left, plus tile j + 1
    rw [Cert.TileSum.accum_succ]
    show (accAt (F := Ideal) m c (4 * b.val + j + 1) _ : S128x4096.Idx → EReal) (ix2 r k) = _
    rw [accAt_next m c (4 * b.val + j) _ (by omega), pay2_at, ih (by omega)]
    exact congrArg (fun z => Cert.TileSum.accum (prodAt m c b r k) j (by omega) + z) (step_tile m c b (j + 1) hj r k)

/-- The accumulator's position may be restated along an equation of naturals. -/
theorem accAt_pos_congr (c : Dev nD) (n n' : ℕ) (hn : n < cfg0.N) (hn' : n' < cfg0.N) (e : n = n') :
    accAt (F := Ideal) m c n hn = accAt (F := Ideal) m c n' hn' := by
  subst e; rfl

/-- The result window's block index at point t, decided over the grid: batch entry t / 4, and 0 on the two other axes. -/
theorem idx_facts2 : ∀ t : Fin cfg0.N, win0_2.index t (0 : Fin 3) = t.val / 4 ∧ win0_2.index t (1 : Fin 3) = 0
    ∧ win0_2.index t (2 : Fin 3) = 0 :=
  (by decide +kernel : ∀ t : Fin grid0.N, _)

/-- What the result array ends holding: entry (b, r, k) is the sum over all columns j of x(b, r, j) · w(b, k, j). -/
abbrev Gres (c : Dev nD) : S4x128x4096.Idx → EReal :=
  fun i => ∑ j : Fin 4096, Xarr m c (ix3 (i 0) (i 1) j) * Warr m c (ix3 (i 0) (i 2) j)

/-- What a last step writes back is its block of that array. -/
theorem flushed2_eq (c : Dev nD) (t : Fin cfg0.N) (hf : (cfg0.win 2).flush t = true) :
    (dats (F := Ideal) m 0 c).flushed 2 t = ((cfg0.win 2).blk t).view.read (Elt Ideal) (Gres m c) := by
  have h3 : t.val % 4 = 3 := (flush0_2 t).mp hf
  have hN : cfg0.N = 16 := N_0
  have htl : t.val < 16 := hN ▸ t.isLt
  show (cfg0.win 2).cut (grid0.coords t) ((dats m 0 c).after 2 t) = _
  rw [after0_2, outsAt0_out m c t h3]
  obtain ⟨e0, e1, e2⟩ := idx_facts2 t
  funext y
  have h0 : (y 0).val < 1 := (y 0).isLt
  have hr : (y 1).val < 128 := (y 1).isLt
  have hk : (y 2).val < 4096 := (y 2).isLt
  have hb : t.val / 4 < 4 := by omega
  have ex : (cfg0.win 2).xinj (grid0.coords t) y = ix3 (0 : Fin 1) (⟨(y 1).val, hr⟩ : Fin 128) (⟨(y 2).val, hk⟩ : Fin 4096) := by
    funext a
    match a with
    | ⟨0, _⟩ => exact Fin.ext (by show (y 0).val = 0; omega)
    | ⟨1, _⟩ => rfl
    | ⟨2, _⟩ => rfl
  have ey : ((cfg0.win 2).blk t).view.emb y = ix3 (⟨t.val / 4, hb⟩ : Fin 4) (⟨(y 1).val, hr⟩ : Fin 128) (⟨(y 2).val, hk⟩ : Fin 4096) := by
    funext a; apply Fin.ext
    match a with
    | ⟨0, _⟩ => show win0_2.index t (0 : Fin 3) * 1 + 1 * (y 0).val = t.val / 4; omega
    | ⟨1, _⟩ => show win0_2.index t (1 : Fin 3) * 128 + 1 * (y 1).val = (y 1).val; omega
    | ⟨2, _⟩ => show win0_2.index t (2 : Fin 3) * 4096 + 1 * (y 2).val = (y 2).val; omega
  show (k0_pay3 (F := Ideal) (accAt (F := Ideal) m c t.val t.isLt) : S1x128x4096.Idx → EReal) ((cfg0.win 2).xinj (grid0.coords t) y)
      = Gres m c (((cfg0.win 2).blk t).view.emb y)
  rw [ex, ey, pay3_at,
    accAt_pos_congr m c t.val (4 * (⟨t.val / 4, hb⟩ : Fin 4).val + 3) t.isLt (pos_lt ⟨t.val / 4, hb⟩ 3 (by decide)) (by show t.val = 4 * (t.val / 4) + 3; omega),
    acc_at m c ⟨t.val / 4, hb⟩ 3 (by decide) ⟨(y 1).val, hr⟩ ⟨(y 2).val, hk⟩, Cert.TileSum.accum_last]
  rfl

/-- An index of the result array lies in point t's block exactly when each coordinate lies in the block's range. -/
theorem mem_blk2 (t : Fin cfg0.N) (i : S4x128x4096.Idx) :
    i ∈ ((cfg0.win 2).blk t).view.set ↔ ∀ a : Fin 3, win0_2.index t a * S1x128x4096.size a ≤ (i a).val
      ∧ (i a).val < win0_2.index t a * S1x128x4096.size a + S1x128x4096.size a := by
  show i ∈ ((View.whole main_v100).slice (win0_2.rect t)).set ↔ _
  rw [View.set_slice_whole, Rect.mem_set_unit]
  exact Iff.rfl

/-- Entry (b, r, k) of the result array after the run. It lies in the block written back at position 4·b + 3, the
    last step of batch entry b, and every written-back block is its block of the one array of full sums. -/
theorem result_at (c : Dev nD) (b : Fin 4) (r : Fin 128) (k : Fin 4096) :
    ((dats (F := Ideal) m 0 c).arrAt 2 cfg0.N : S4x128x4096.Idx → EReal) (ix3 b r k)
      = ∑ j : Fin 4096, Xarr m c (ix3 b r j) * Warr m c (ix3 b k j) := by
  have hb : b.val < 4 := b.isLt
  have hr : r.val < 128 := r.isLt
  have hk : k.val < 4096 := k.isLt
  have hp : 4 * b.val + 3 < cfg0.N := pos_lt b 3 (by decide)
  have hf : (cfg0.win 2).flush ⟨4 * b.val + 3, hp⟩ = true := (flush0_2 _).mpr (by show (4 * b.val + 3) % 4 = 3; omega)
  have hmem : ix3 b r k ∈ ((cfg0.win 2).blk ⟨4 * b.val + 3, hp⟩).view.set := by
    rw [mem_blk2]
    obtain ⟨e0, e1, e2⟩ := idx_facts2 ⟨4 * b.val + 3, hp⟩
    have e0' : win0_2.index ⟨4 * b.val + 3, hp⟩ (0 : Fin 3) = b.val := by rw [e0]; show (4 * b.val + 3) / 4 = b.val; omega
    intro a
    match a with
    | ⟨0, _⟩ => show win0_2.index ⟨4 * b.val + 3, hp⟩ (0 : Fin 3) * 1 ≤ b.val ∧ b.val < win0_2.index ⟨4 * b.val + 3, hp⟩ (0 : Fin 3) * 1 + 1; omega
    | ⟨1, _⟩ => show win0_2.index ⟨4 * b.val + 3, hp⟩ (1 : Fin 3) * 128 ≤ r.val ∧ r.val < win0_2.index ⟨4 * b.val + 3, hp⟩ (1 : Fin 3) * 128 + 128; omega
    | ⟨2, _⟩ => show win0_2.index ⟨4 * b.val + 3, hp⟩ (2 : Fin 3) * 4096 ≤ k.val ∧ k.val < win0_2.index ⟨4 * b.val + 3, hp⟩ (2 : Fin 3) * 4096 + 4096; omega
  exact (dats (F := Ideal) m 0 c).arrAt_apply_of_mem 2 (Gres m c) (fun t hft => flushed2_eq m c t hft) cfg0.N
    ⟨4 * b.val + 3, hp⟩ (ix3 b r k) hp hf hmem

end Cert.KernelIdeal.Hand

end
-- ==== Proof.LibNary3.lean ====
/-
  An operation of three operands given as a literal family: its result with each operand's contents at its own
  reference.
-/
import Idealize.ShloMosaic.Lib.StableHlo.Run

noncomputable section

namespace Cert.LibNary3

open Idealize.ShloMosaic Idealize.ShloMosaic.StableHlo

variable {τ : Topo} {sig : RefSig} {Val : EltTy → Type} {x a b y : Ref sig .tc}

/-- The result of an operation over the literal family of three references `![x, a, b]`: its function at the
    three operands' contents, each read at its own reference. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- The same with the result reference un-indexed, for rewriting by simplification. -/
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

end Cert.LibNary3

end
-- ==== Proof.LibKeepAll.lean ====
/-
  A buffer that no operation of a list writes keeps its contents across the list — for lists that also hold
  operations of any number of operands.
-/
import Idealize.ShloMosaic.Lib.StableHlo.Run

namespace Cert.LibKeepAll

open Idealize.ShloMosaic

/-- Closes `after ops X (devRef b) = X (devRef b)` for a literal list `ops` (named by the identifier given) none of
    whose operations writes `b`: each operation writes one literal reference, and it differs from `b`. -/
macro "kept_all" ops:ident : tactic => `(tactic|
  exact StableHlo.after_of_forall_not_mem _ _ (List.forall_iff_forall_mem.mp (by
    simp only [$ops:ident, List.flatten_cons, List.flatten_nil, List.append_nil, List.cons_append, List.nil_append,
      List.Forall, StableHlo.nullary_writes, StableHlo.unary_writes, StableHlo.binary_writes, StableHlo.ternary_writes,
      StableHlo.quaternary_writes, StableHlo.reshape_writes, StableHlo.binaryIndexed_writes, StableHlo.nary_writes,
      StableHlo.unaryIndexed_writes, Finset.mem_singleton]
    repeat' apply And.intro
    all_goals exact StableHlo.devRef_ne_of_ne (by decide))))

end Cert.LibKeepAll
-- ==== Proof.LibTypedRef.lean ====
/-
  Typed references to host buffers: contents moved to a reference's own buffer type and back are unchanged.
-/
import Idealize.ShloMosaic.Lib.StableHlo

noncomputable section

namespace Cert.LibTypedRef

open Idealize.ShloMosaic

/-- Contents at a value's type, moved to the typed reference's buffer type and back, are the contents: the two moves
    are transports along one equation and its inverse. -/
theorem ofBuf_toBuf {sig : RefSig} {Val : EltTy → Type} {T : BufTy} (x : StableHlo.TRef sig T) (v : T.Contents Val) :
    x.ofBuf (x.toBuf v) = v := by
  obtain ⟨r, h, _, _⟩ := x
  subst h
  rfl

end Cert.LibTypedRef

end
-- ==== Proof.KI.Prefix.lean ====
/-
  The host operations the two programs share: everything that leads from the grid argument to the interpolation
  matrices. Here are the operations in order, as six lists that are run one after the other; the matrices as a function
  of the grid, built in small steps; and the fact that after the operations the matrices' buffer holds that function
  of the grid argument's contents, both arguments unchanged.
-/
import proofs.«169048_j87840671137910_1_alg».proof.Proof.Gen.KernelIdeal
import Idealize.ShloMosaic.Lib.StableHlo.Run
import Idealize.ShloMosaic.Lib.Pipeline.Frame
import proofs.«169048_j87840671137910_1_alg».proof.Proof.LibNary3
import proofs.«169048_j87840671137910_1_alg».proof.Proof.LibKeepAll
import proofs.«169048_j87840671137910_1_alg».proof.Proof.LibTypedRef

noncomputable section

namespace Cert.KernelIdeal.Hand

open Cert.KernelIdeal Cert.KernelIdeal.Gen Idealize.ShloMosaic Idealize.ShloMosaic.TcCoe Idealize.SL.Sem

variable {F : FTy → Type} [FloatOps F]

/-! ## The shared operations, in order -/

/-- The first stretch (37 operations): the corner table; the sample points and, several times over, their first and second coordinates; the four bound checks, each reduced over the batches, and their conjunction; the clip bounds for the first coordinate. -/
abbrev pre0 : List (HloOp τ sig (Elt F)) :=
  [ StableHlo.nullary main_c (fun i => lit0 (S4x2.rowMajor i)),
    StableHlo.reshape main_arg1 main_v0 rfl shapeCasts_S4x64x64x2_S4x4096x2,
    StableHlo.unary main_v0 main_v1 ((extractStridedSlice S4x4096x1 ![0, 0, 0] · slices_S4x4096x2_S4x4096x1_0_0_0) : (⟨S4x4096x2, .f32⟩ : BufTy).Contents (Elt F) → (⟨S4x4096x1, .f32⟩ : BufTy).Contents (Elt F)),
    StableHlo.reshape main_v1 main_v2 rfl shapeCasts_S4x4096x1_S4x4096,
    StableHlo.nullary main_cst (constant S_ .f32 0xBA83126F#32),
    StableHlo.unary main_cst main_v3 (broadcastInDim S4x4096 ![] bcast_S_S4x4096 : (⟨S_, .f32⟩ : BufTy).Contents (Elt F) → (⟨S4x4096, .f32⟩ : BufTy).Contents (Elt F)),
    StableHlo.binary main_v2 main_v3 main_v4 (cmpf .oge : (⟨S4x4096, .f32⟩ : BufTy).Contents (Elt F) → (⟨S4x4096, .f32⟩ : BufTy).Contents (Elt F) → (⟨S4x4096, .i1⟩ : BufTy).Contents (Elt F)),
    StableHlo.nullary main_c_0 (constantI S_ 1 1#1),
    StableHlo.binary main_v4 main_c_0 main_v5 ((fun x v => Host.reduce IntOp.andi x v reducesTo_S4x4096_S4096_d0 h_S_) : (⟨S4x4096, .i1⟩ : BufTy).Contents (Elt F) → (⟨S_, .i1⟩ : BufTy).Contents (Elt F) → (⟨S4096, .i1⟩ : BufTy).Contents (Elt F)),
    StableHlo.unary main_v0 main_v6 ((extractStridedSlice S4x4096x1 ![0, 0, 0] · slices_S4x4096x2_S4x4096x1_0_0_0) : (⟨S4x4096x2, .f32⟩ : BufTy).Contents (Elt F) → (⟨S4x4096x1, .f32⟩ : BufTy).Contents (Elt F)),
    StableHlo.reshape main_v6 main_v7 rfl shapeCasts_S4x4096x1_S4x4096,
    StableHlo.nullary main_cst_1 (constant S_ .f32 0x427C0106#32),
    StableHlo.unary main_cst_1 main_v8 (broadcastInDim S4x4096 ![] bcast_S_S4x4096 : (⟨S_, .f32⟩ : BufTy).Contents (Elt F) → (⟨S4x4096, .f32⟩ : BufTy).Contents (Elt F)),
    StableHlo.binary main_v7 main_v8 main_v9 (cmpf .ole : (⟨S4x4096, .f32⟩ : BufTy).Contents (Elt F) → (⟨S4x4096, .f32⟩ : BufTy).Contents (Elt F) → (⟨S4x4096, .i1⟩ : BufTy).Contents (Elt F)),
    StableHlo.nullary main_c_2 (constantI S_ 1 1#1),
    StableHlo.binary main_v9 main_c_2 main_v10 ((fun x v => Host.reduce IntOp.andi x v reducesTo_S4x4096_S4096_d0 h_S_) : (⟨S4x4096, .i1⟩ : BufTy).Contents (Elt F) → (⟨S_, .i1⟩ : BufTy).Contents (Elt F) → (⟨S4096, .i1⟩ : BufTy).Contents (Elt F)),
    StableHlo.binary main_v5 main_v10 main_v11 (andi : (⟨S4096, .i1⟩ : BufTy).Contents (Elt F) → (⟨S4096, .i1⟩ : BufTy).Contents (Elt F) → (⟨S4096, .i1⟩ : BufTy).Contents (Elt F)),
    StableHlo.unary main_v0 main_v12 ((extractStridedSlice S4x4096x1 ![0, 0, 1] · slices_S4x4096x2_S4x4096x1_0_0_1) : (⟨S4x4096x2, .f32⟩ : BufTy).Contents (Elt F) → (⟨S4x4096x1, .f32⟩ : BufTy).Contents (Elt F)),
    StableHlo.reshape main_v12 main_v13 rfl shapeCasts_S4x4096x1_S4x4096,
    StableHlo.nullary main_cst_3 (constant S_ .f32 0xBA83126F#32),
    StableHlo.unary main_cst_3 main_v14 (broadcastInDim S4x4096 ![] bcast_S_S4x4096 : (⟨S_, .f32⟩ : BufTy).Contents (Elt F) → (⟨S4x4096, .f32⟩ : BufTy).Contents (Elt F)),
    StableHlo.binary main_v13 main_v14 main_v15 (cmpf .oge : (⟨S4x4096, .f32⟩ : BufTy).Contents (Elt F) → (⟨S4x4096, .f32⟩ : BufTy).Contents (Elt F) → (⟨S4x4096, .i1⟩ : BufTy).Contents (Elt F)),
    StableHlo.nullary main_c_4 (constantI S_ 1 1#1),
    StableHlo.binary main_v15 main_c_4 main_v16 ((fun x v => Host.reduce IntOp.andi x v reducesTo_S4x4096_S4096_d0 h_S_) : (⟨S4x4096, .i1⟩ : BufTy).Contents (Elt F) → (⟨S_, .i1⟩ : BufTy).Contents (Elt F) → (⟨S4096, .i1⟩ : BufTy).Contents (Elt F)),
    StableHlo.binary main_v11 main_v16 main_v17 (andi : (⟨S4096, .i1⟩ : BufTy).Contents (Elt F) → (⟨S4096, .i1⟩ : BufTy).Contents (Elt F) → (⟨S4096, .i1⟩ : BufTy).Contents (Elt F)),
    StableHlo.unary main_v0 main_v18 ((extractStridedSlice S4x4096x1 ![0, 0, 1] · slices_S4x4096x2_S4x4096x1_0_0_1) : (⟨S4x4096x2, .f32⟩ : BufTy).Contents (Elt F) → (⟨S4x4096x1, .f32⟩ : BufTy).Contents (Elt F)),
    StableHlo.reshape main_v18 main_v19 rfl shapeCasts_S4x4096x1_S4x4096,
    StableHlo.nullary main_cst_5 (constant S_ .f32 0x427C0106#32),
    StableHlo.unary main_cst_5 main_v20 (broadcastInDim S4x4096 ![] bcast_S_S4x4096 : (⟨S_, .f32⟩ : BufTy).Contents (Elt F) → (⟨S4x4096, .f32⟩ : BufTy).Contents (Elt F)),
    StableHlo.binary main_v19 main_v20 main_v21 (cmpf .ole : (⟨S4x4096, .f32⟩ : BufTy).Contents (Elt F) → (⟨S4x4096, .f32⟩ : BufTy).Contents (Elt F) → (⟨S4x4096, .i1⟩ : BufTy).Contents (Elt F)),
    StableHlo.nullary main_c_6 (constantI S_ 1 1#1),
    StableHlo.binary main_v21 main_c_6 main_v22 ((fun x v => Host.reduce IntOp.andi x v reducesTo_S4x4096_S4096_d0 h_S_) : (⟨S4x4096, .i1⟩ : BufTy).Contents (Elt F) → (⟨S_, .i1⟩ : BufTy).Contents (Elt F) → (⟨S4096, .i1⟩ : BufTy).Contents (Elt F)),
    StableHlo.binary main_v17 main_v22 main_v23 (andi : (⟨S4096, .i1⟩ : BufTy).Contents (Elt F) → (⟨S4096, .i1⟩ : BufTy).Contents (Elt F) → (⟨S4096, .i1⟩ : BufTy).Contents (Elt F)),
    StableHlo.unary main_v0 main_v24 ((extractStridedSlice S4x4096x1 ![0, 0, 0] · slices_S4x4096x2_S4x4096x1_0_0_0) : (⟨S4x4096x2, .f32⟩ : BufTy).Contents (Elt F) → (⟨S4x4096x1, .f32⟩ : BufTy).Contents (Elt F)),
    StableHlo.reshape main_v24 main_v25 rfl shapeCasts_S4x4096x1_S4x4096,
    StableHlo.nullary main_cst_7 (constant S_ .f32 0x3A83126F#32),
    StableHlo.nullary main_cst_8 (constant S_ .f32 0x427BFEFA#32) ]

/-- The second stretch (6 operations): the first coordinate clipped — each bound spread over the batches and positions, the larger of the lower bound and the coordinate, the smaller of the upper bound and that. -/
abbrev pre1 : List (HloOp τ sig (Elt F)) :=
  [ StableHlo.TRef.unary (.of main_cst_7 : StableHlo.TRef sig ⟨S_, .f32⟩) (.of main_call0_v0 : StableHlo.TRef sig ⟨S_, .f32⟩) id,
    StableHlo.TRef.unary (.of main_call0_v0 : StableHlo.TRef sig ⟨S_, .f32⟩) (.of main_call0_v1 : StableHlo.TRef sig ⟨S4x4096, .f32⟩) (broadcastInDim S4x4096 ![] bcast_S_S4x4096),
    StableHlo.TRef.binary (.of main_call0_v1 : StableHlo.TRef sig ⟨S4x4096, .f32⟩) (.of main_v25 : StableHlo.TRef sig ⟨S4x4096, .f32⟩) (.of main_call0_v2 : StableHlo.TRef sig ⟨S4x4096, .f32⟩) maximumf,
    StableHlo.TRef.unary (.of main_cst_8 : StableHlo.TRef sig ⟨S_, .f32⟩) (.of main_call0_v3 : StableHlo.TRef sig ⟨S_, .f32⟩) id,
    StableHlo.TRef.unary (.of main_call0_v3 : StableHlo.TRef sig ⟨S_, .f32⟩) (.of main_call0_v4 : StableHlo.TRef sig ⟨S4x4096, .f32⟩) (broadcastInDim S4x4096 ![] bcast_S_S4x4096),
    StableHlo.TRef.binary (.of main_call0_v4 : StableHlo.TRef sig ⟨S4x4096, .f32⟩) (.of main_call0_v2 : StableHlo.TRef sig ⟨S4x4096, .f32⟩) (.of main_v26 : StableHlo.TRef sig ⟨S4x4096, .f32⟩) minimumf ]

/-- The third stretch (4 operations): the second coordinate read once more and its clip bounds. -/
abbrev pre2 : List (HloOp τ sig (Elt F)) :=
  [ StableHlo.unary main_v0 main_v27 ((extractStridedSlice S4x4096x1 ![0, 0, 1] · slices_S4x4096x2_S4x4096x1_0_0_1) : (⟨S4x4096x2, .f32⟩ : BufTy).Contents (Elt F) → (⟨S4x4096x1, .f32⟩ : BufTy).Contents (Elt F)),
    StableHlo.reshape main_v27 main_v28 rfl shapeCasts_S4x4096x1_S4x4096,
    StableHlo.nullary main_cst_9 (constant S_ .f32 0x3A83126F#32),
    StableHlo.nullary main_cst_10 (constant S_ .f32 0x427BFEFA#32) ]

/-- The fourth stretch (6 operations): the second coordinate clipped, as the first was. -/
abbrev pre3 : List (HloOp τ sig (Elt F)) :=
  [ StableHlo.TRef.unary (.of main_cst_9 : StableHlo.TRef sig ⟨S_, .f32⟩) (.of main_call1_v0 : StableHlo.TRef sig ⟨S_, .f32⟩) id,
    StableHlo.TRef.unary (.of main_call1_v0 : StableHlo.TRef sig ⟨S_, .f32⟩) (.of main_call1_v1 : StableHlo.TRef sig ⟨S4x4096, .f32⟩) (broadcastInDim S4x4096 ![] bcast_S_S4x4096),
    StableHlo.TRef.binary (.of main_call1_v1 : StableHlo.TRef sig ⟨S4x4096, .f32⟩) (.of main_v28 : StableHlo.TRef sig ⟨S4x4096, .f32⟩) (.of main_call1_v2 : StableHlo.TRef sig ⟨S4x4096, .f32⟩) maximumf,
    StableHlo.TRef.unary (.of main_cst_10 : StableHlo.TRef sig ⟨S_, .f32⟩) (.of main_call1_v3 : StableHlo.TRef sig ⟨S_, .f32⟩) id,
    StableHlo.TRef.unary (.of main_call1_v3 : StableHlo.TRef sig ⟨S_, .f32⟩) (.of main_call1_v4 : StableHlo.TRef sig ⟨S4x4096, .f32⟩) (broadcastInDim S4x4096 ![] bcast_S_S4x4096),
    StableHlo.TRef.binary (.of main_call1_v4 : StableHlo.TRef sig ⟨S4x4096, .f32⟩) (.of main_call1_v2 : StableHlo.TRef sig ⟨S4x4096, .f32⟩) (.of main_v29 : StableHlo.TRef sig ⟨S4x4096, .f32⟩) minimumf ]

set_option maxRecDepth 4096 in
/-- The fifth stretch up to the index tensor (71 operations): floors, fractions and cells of the clipped coordinates; the four corners' flat columns; the weights as products of two pairs of factors; the zero matrices; the batch and row numbers; the three entries of every corner's target. -/
abbrev pre4a : List (HloOp τ sig (Elt F)) :=
  [ StableHlo.unary main_v26 main_v30 (Host.floor : (⟨S4x4096, .f32⟩ : BufTy).Contents (Elt F) → (⟨S4x4096, .f32⟩ : BufTy).Contents (Elt F)),
    StableHlo.unary main_v29 main_v31 (Host.floor : (⟨S4x4096, .f32⟩ : BufTy).Contents (Elt F) → (⟨S4x4096, .f32⟩ : BufTy).Contents (Elt F)),
    StableHlo.binary main_v26 main_v30 main_v32 (subf : (⟨S4x4096, .f32⟩ : BufTy).Contents (Elt F) → (⟨S4x4096, .f32⟩ : BufTy).Contents (Elt F) → (⟨S4x4096, .f32⟩ : BufTy).Contents (Elt F)),
    StableHlo.binary main_v29 main_v31 main_v33 (subf : (⟨S4x4096, .f32⟩ : BufTy).Contents (Elt F) → (⟨S4x4096, .f32⟩ : BufTy).Contents (Elt F) → (⟨S4x4096, .f32⟩ : BufTy).Contents (Elt F)),
    StableHlo.unary main_v30 main_v34 (fptosi 32 : (⟨S4x4096, .f32⟩ : BufTy).Contents (Elt F) → (⟨S4x4096, .i32⟩ : BufTy).Contents (Elt F)),
    StableHlo.unary main_v31 main_v35 (fptosi 32 : (⟨S4x4096, .f32⟩ : BufTy).Contents (Elt F) → (⟨S4x4096, .i32⟩ : BufTy).Contents (Elt F)),
    StableHlo.unary main_v34 main_v36 (broadcastInDim S4x4096x1 ![0, 1] bcast_S4x4096_S4x4096x1_0_1 : (⟨S4x4096, .i32⟩ : BufTy).Contents (Elt F) → (⟨S4x4096x1, .i32⟩ : BufTy).Contents (Elt F)),
    StableHlo.unary main_c main_v37 ((extractStridedSlice S4x1 ![0, 0] · slices_S4x2_S4x1_0_0) : (⟨S4x2, .i32⟩ : BufTy).Contents (Elt F) → (⟨S4x1, .i32⟩ : BufTy).Contents (Elt F)),
    StableHlo.reshape main_v37 main_v38 rfl shapeCasts_S4x1_S4,
    StableHlo.unary main_v38 main_v39 (broadcastInDim S1x1x4 ![2] bcast_S4_S1x1x4_2 : (⟨S4, .i32⟩ : BufTy).Contents (Elt F) → (⟨S1x1x4, .i32⟩ : BufTy).Contents (Elt F)),
    StableHlo.unary main_v36 main_v40 (broadcastInDim S4x4096x4 ![0, 1, 2] bcast_S4x4096x1_S4x4096x4_0_1_2 : (⟨S4x4096x1, .i32⟩ : BufTy).Contents (Elt F) → (⟨S4x4096x4, .i32⟩ : BufTy).Contents (Elt F)),
    StableHlo.unary main_v39 main_v41 (broadcastInDim S4x4096x4 ![0, 1, 2] bcast_S1x1x4_S4x4096x4_0_1_2 : (⟨S1x1x4, .i32⟩ : BufTy).Contents (Elt F) → (⟨S4x4096x4, .i32⟩ : BufTy).Contents (Elt F)),
    StableHlo.binary main_v40 main_v41 main_v42 (addi : (⟨S4x4096x4, .i32⟩ : BufTy).Contents (Elt F) → (⟨S4x4096x4, .i32⟩ : BufTy).Contents (Elt F) → (⟨S4x4096x4, .i32⟩ : BufTy).Contents (Elt F)),
    StableHlo.nullary main_c_11 (constantI S_ 32 64#32),
    StableHlo.unary main_c_11 main_v43 (broadcastInDim S4x4096x4 ![] bcast_S_S4x4096x4 : (⟨S_, .i32⟩ : BufTy).Contents (Elt F) → (⟨S4x4096x4, .i32⟩ : BufTy).Contents (Elt F)),
    StableHlo.binary main_v42 main_v43 main_v44 (muli : (⟨S4x4096x4, .i32⟩ : BufTy).Contents (Elt F) → (⟨S4x4096x4, .i32⟩ : BufTy).Contents (Elt F) → (⟨S4x4096x4, .i32⟩ : BufTy).Contents (Elt F)),
    StableHlo.unary main_v35 main_v45 (broadcastInDim S4x4096x1 ![0, 1] bcast_S4x4096_S4x4096x1_0_1 : (⟨S4x4096, .i32⟩ : BufTy).Contents (Elt F) → (⟨S4x4096x1, .i32⟩ : BufTy).Contents (Elt F)),
    StableHlo.unary main_c main_v46 ((extractStridedSlice S4x1 ![0, 1] · slices_S4x2_S4x1_0_1) : (⟨S4x2, .i32⟩ : BufTy).Contents (Elt F) → (⟨S4x1, .i32⟩ : BufTy).Contents (Elt F)),
    StableHlo.reshape main_v46 main_v47 rfl shapeCasts_S4x1_S4,
    StableHlo.unary main_v47 main_v48 (broadcastInDim S1x1x4 ![2] bcast_S4_S1x1x4_2 : (⟨S4, .i32⟩ : BufTy).Contents (Elt F) → (⟨S1x1x4, .i32⟩ : BufTy).Contents (Elt F)),
    StableHlo.unary main_v45 main_v49 (broadcastInDim S4x4096x4 ![0, 1, 2] bcast_S4x4096x1_S4x4096x4_0_1_2 : (⟨S4x4096x1, .i32⟩ : BufTy).Contents (Elt F) → (⟨S4x4096x4, .i32⟩ : BufTy).Contents (Elt F)),
    StableHlo.unary main_v48 main_v50 (broadcastInDim S4x4096x4 ![0, 1, 2] bcast_S1x1x4_S4x4096x4_0_1_2 : (⟨S1x1x4, .i32⟩ : BufTy).Contents (Elt F) → (⟨S4x4096x4, .i32⟩ : BufTy).Contents (Elt F)),
    StableHlo.binary main_v49 main_v50 main_v51 (addi : (⟨S4x4096x4, .i32⟩ : BufTy).Contents (Elt F) → (⟨S4x4096x4, .i32⟩ : BufTy).Contents (Elt F) → (⟨S4x4096x4, .i32⟩ : BufTy).Contents (Elt F)),
    StableHlo.binary main_v44 main_v51 main_v52 (addi : (⟨S4x4096x4, .i32⟩ : BufTy).Contents (Elt F) → (⟨S4x4096x4, .i32⟩ : BufTy).Contents (Elt F) → (⟨S4x4096x4, .i32⟩ : BufTy).Contents (Elt F)),
    StableHlo.nullary main_cst_12 (constant S_ .f32 0x3F800000#32),
    StableHlo.unary main_cst_12 main_v53 (broadcastInDim S4x4096 ![] bcast_S_S4x4096 : (⟨S_, .f32⟩ : BufTy).Contents (Elt F) → (⟨S4x4096, .f32⟩ : BufTy).Contents (Elt F)),
    StableHlo.binary main_v53 main_v32 main_v54 (subf : (⟨S4x4096, .f32⟩ : BufTy).Contents (Elt F) → (⟨S4x4096, .f32⟩ : BufTy).Contents (Elt F) → (⟨S4x4096, .f32⟩ : BufTy).Contents (Elt F)),
    StableHlo.unary main_v54 main_v55 (broadcastInDim S4x4096x1 ![0, 1] bcast_S4x4096_S4x4096x1_0_1 : (⟨S4x4096, .f32⟩ : BufTy).Contents (Elt F) → (⟨S4x4096x1, .f32⟩ : BufTy).Contents (Elt F)),
    StableHlo.unary main_v32 main_v56 (broadcastInDim S4x4096x1 ![0, 1] bcast_S4x4096_S4x4096x1_0_1 : (⟨S4x4096, .f32⟩ : BufTy).Contents (Elt F) → (⟨S4x4096x1, .f32⟩ : BufTy).Contents (Elt F)),
    StableHlo.binary main_v55 main_v56 main_v57 ((fun a b => concatenate S4x4096x2 2 [⟨S4x4096x1, a⟩, ⟨S4x4096x1, b⟩] concatenates_S4x4096x1_S4x4096x1_S4x4096x2_d2) : (⟨S4x4096x1, .f32⟩ : BufTy).Contents (Elt F) → (⟨S4x4096x1, .f32⟩ : BufTy).Contents (Elt F) → (⟨S4x4096x2, .f32⟩ : BufTy).Contents (Elt F)),
    StableHlo.unary main_v32 main_v58 (broadcastInDim S4x4096x1 ![0, 1] bcast_S4x4096_S4x4096x1_0_1 : (⟨S4x4096, .f32⟩ : BufTy).Contents (Elt F) → (⟨S4x4096x1, .f32⟩ : BufTy).Contents (Elt F)),
    StableHlo.unary main_v33 main_v59 (broadcastInDim S4x4096x1 ![0, 1] bcast_S4x4096_S4x4096x1_0_1 : (⟨S4x4096, .f32⟩ : BufTy).Contents (Elt F) → (⟨S4x4096x1, .f32⟩ : BufTy).Contents (Elt F)),
    StableHlo.binary main_v58 main_v59 main_v60 ((fun a b => concatenate S4x4096x2 2 [⟨S4x4096x1, a⟩, ⟨S4x4096x1, b⟩] concatenates_S4x4096x1_S4x4096x1_S4x4096x2_d2) : (⟨S4x4096x1, .f32⟩ : BufTy).Contents (Elt F) → (⟨S4x4096x1, .f32⟩ : BufTy).Contents (Elt F) → (⟨S4x4096x2, .f32⟩ : BufTy).Contents (Elt F)),
    StableHlo.unary main_v57 main_v61 (broadcastInDim S4x4096x2x1 ![0, 1, 2] bcast_S4x4096x2_S4x4096x2x1_0_1_2 : (⟨S4x4096x2, .f32⟩ : BufTy).Contents (Elt F) → (⟨S4x4096x2x1, .f32⟩ : BufTy).Contents (Elt F)),
    StableHlo.unary main_v60 main_v62 (broadcastInDim S4x4096x1x2 ![0, 1, 3] bcast_S4x4096x2_S4x4096x1x2_0_1_3 : (⟨S4x4096x2, .f32⟩ : BufTy).Contents (Elt F) → (⟨S4x4096x1x2, .f32⟩ : BufTy).Contents (Elt F)),
    StableHlo.unary main_v61 main_v63 (broadcastInDim S4x4096x2x2 ![0, 1, 2, 3] bcast_S4x4096x2x1_S4x4096x2x2_0_1_2_3 : (⟨S4x4096x2x1, .f32⟩ : BufTy).Contents (Elt F) → (⟨S4x4096x2x2, .f32⟩ : BufTy).Contents (Elt F)),
    StableHlo.unary main_v62 main_v64 (broadcastInDim S4x4096x2x2 ![0, 1, 2, 3] bcast_S4x4096x1x2_S4x4096x2x2_0_1_2_3 : (⟨S4x4096x1x2, .f32⟩ : BufTy).Contents (Elt F) → (⟨S4x4096x2x2, .f32⟩ : BufTy).Contents (Elt F)),
    StableHlo.binary main_v63 main_v64 main_v65 (mulf : (⟨S4x4096x2x2, .f32⟩ : BufTy).Contents (Elt F) → (⟨S4x4096x2x2, .f32⟩ : BufTy).Contents (Elt F) → (⟨S4x4096x2x2, .f32⟩ : BufTy).Contents (Elt F)),
    StableHlo.reshape main_v65 main_v66 rfl shapeCasts_S4x4096x2x2_S4x4096x4,
    StableHlo.nullary main_cst_13 (constant S_ .f32 0x00000000#32),
    StableHlo.unary main_cst_13 main_v67 (broadcastInDim S4x4096x4096 ![] bcast_S_S4x4096x4096 : (⟨S_, .f32⟩ : BufTy).Contents (Elt F) → (⟨S4x4096x4096, .f32⟩ : BufTy).Contents (Elt F)),
    StableHlo.nullary main_v68 (iotaInDim S4 32 0),
    StableHlo.unary main_v68 main_v69 (broadcastInDim S4x1x1 ![0] bcast_S4_S4x1x1_0 : (⟨S4, .i32⟩ : BufTy).Contents (Elt F) → (⟨S4x1x1, .i32⟩ : BufTy).Contents (Elt F)),
    StableHlo.nullary main_v70 (iotaInDim S4096 32 0),
    StableHlo.unary main_v70 main_v71 (broadcastInDim S1x4096x1 ![1] bcast_S4096_S1x4096x1_1 : (⟨S4096, .i32⟩ : BufTy).Contents (Elt F) → (⟨S1x4096x1, .i32⟩ : BufTy).Contents (Elt F)),
    StableHlo.nullary main_c_14 (constantI S_ 32 0#32),
    StableHlo.unary main_c_14 main_v72 (broadcastInDim S4x1x1 ![] bcast_S_S4x1x1 : (⟨S_, .i32⟩ : BufTy).Contents (Elt F) → (⟨S4x1x1, .i32⟩ : BufTy).Contents (Elt F)),
    StableHlo.binary main_v69 main_v72 main_v73 (cmpi .slt : (⟨S4x1x1, .i32⟩ : BufTy).Contents (Elt F) → (⟨S4x1x1, .i32⟩ : BufTy).Contents (Elt F) → (⟨S4x1x1, .i1⟩ : BufTy).Contents (Elt F)),
    StableHlo.nullary main_c_15 (constantI S_ 32 4#32),
    StableHlo.unary main_c_15 main_v74 (broadcastInDim S4x1x1 ![] bcast_S_S4x1x1 : (⟨S_, .i32⟩ : BufTy).Contents (Elt F) → (⟨S4x1x1, .i32⟩ : BufTy).Contents (Elt F)),
    StableHlo.binary main_v69 main_v74 main_v75 (addi : (⟨S4x1x1, .i32⟩ : BufTy).Contents (Elt F) → (⟨S4x1x1, .i32⟩ : BufTy).Contents (Elt F) → (⟨S4x1x1, .i32⟩ : BufTy).Contents (Elt F)),
    StableHlo.ternary main_v73 main_v75 main_v69 main_v76 (select : (⟨S4x1x1, .i1⟩ : BufTy).Contents (Elt F) → (⟨S4x1x1, .i32⟩ : BufTy).Contents (Elt F) → (⟨S4x1x1, .i32⟩ : BufTy).Contents (Elt F) → (⟨S4x1x1, .i32⟩ : BufTy).Contents (Elt F)),
    StableHlo.nullary main_c_16 (constantI S_ 32 0#32),
    StableHlo.unary main_c_16 main_v77 (broadcastInDim S1x4096x1 ![] bcast_S_S1x4096x1 : (⟨S_, .i32⟩ : BufTy).Contents (Elt F) → (⟨S1x4096x1, .i32⟩ : BufTy).Contents (Elt F)),
    StableHlo.binary main_v71 main_v77 main_v78 (cmpi .slt : (⟨S1x4096x1, .i32⟩ : BufTy).Contents (Elt F) → (⟨S1x4096x1, .i32⟩ : BufTy).Contents (Elt F) → (⟨S1x4096x1, .i1⟩ : BufTy).Contents (Elt F)),
    StableHlo.nullary main_c_17 (constantI S_ 32 4096#32),
    StableHlo.unary main_c_17 main_v79 (broadcastInDim S1x4096x1 ![] bcast_S_S1x4096x1 : (⟨S_, .i32⟩ : BufTy).Contents (Elt F) → (⟨S1x4096x1, .i32⟩ : BufTy).Contents (Elt F)),
    StableHlo.binary main_v71 main_v79 main_v80 (addi : (⟨S1x4096x1, .i32⟩ : BufTy).Contents (Elt F) → (⟨S1x4096x1, .i32⟩ : BufTy).Contents (Elt F) → (⟨S1x4096x1, .i32⟩ : BufTy).Contents (Elt F)),
    StableHlo.ternary main_v78 main_v80 main_v71 main_v81 (select : (⟨S1x4096x1, .i1⟩ : BufTy).Contents (Elt F) → (⟨S1x4096x1, .i32⟩ : BufTy).Contents (Elt F) → (⟨S1x4096x1, .i32⟩ : BufTy).Contents (Elt F) → (⟨S1x4096x1, .i32⟩ : BufTy).Contents (Elt F)),
    StableHlo.nullary main_c_18 (constantI S_ 32 0#32),
    StableHlo.unary main_c_18 main_v82 (broadcastInDim S4x4096x4 ![] bcast_S_S4x4096x4 : (⟨S_, .i32⟩ : BufTy).Contents (Elt F) → (⟨S4x4096x4, .i32⟩ : BufTy).Contents (Elt F)),
    StableHlo.binary main_v52 main_v82 main_v83 (cmpi .slt : (⟨S4x4096x4, .i32⟩ : BufTy).Contents (Elt F) → (⟨S4x4096x4, .i32⟩ : BufTy).Contents (Elt F) → (⟨S4x4096x4, .i1⟩ : BufTy).Contents (Elt F)),
    StableHlo.nullary main_c_19 (constantI S_ 32 4096#32),
    StableHlo.unary main_c_19 main_v84 (broadcastInDim S4x4096x4 ![] bcast_S_S4x4096x4 : (⟨S_, .i32⟩ : BufTy).Contents (Elt F) → (⟨S4x4096x4, .i32⟩ : BufTy).Contents (Elt F)),
    StableHlo.binary main_v52 main_v84 main_v85 (addi : (⟨S4x4096x4, .i32⟩ : BufTy).Contents (Elt F) → (⟨S4x4096x4, .i32⟩ : BufTy).Contents (Elt F) → (⟨S4x4096x4, .i32⟩ : BufTy).Contents (Elt F)),
    StableHlo.ternary main_v83 main_v85 main_v52 main_v86 (select : (⟨S4x4096x4, .i1⟩ : BufTy).Contents (Elt F) → (⟨S4x4096x4, .i32⟩ : BufTy).Contents (Elt F) → (⟨S4x4096x4, .i32⟩ : BufTy).Contents (Elt F) → (⟨S4x4096x4, .i32⟩ : BufTy).Contents (Elt F)),
    StableHlo.unary main_v76 main_v87 (broadcastInDim S4x4096x4 ![0, 1, 2] bcast_S4x1x1_S4x4096x4_0_1_2 : (⟨S4x1x1, .i32⟩ : BufTy).Contents (Elt F) → (⟨S4x4096x4, .i32⟩ : BufTy).Contents (Elt F)),
    StableHlo.unary main_v81 main_v88 (broadcastInDim S4x4096x4 ![0, 1, 2] bcast_S1x4096x1_S4x4096x4_0_1_2 : (⟨S1x4096x1, .i32⟩ : BufTy).Contents (Elt F) → (⟨S4x4096x4, .i32⟩ : BufTy).Contents (Elt F)),
    StableHlo.unary main_v87 main_v89 (broadcastInDim S4x4096x4x1 ![0, 1, 2] bcast_S4x4096x4_S4x4096x4x1_0_1_2 : (⟨S4x4096x4, .i32⟩ : BufTy).Contents (Elt F) → (⟨S4x4096x4x1, .i32⟩ : BufTy).Contents (Elt F)),
    StableHlo.unary main_v88 main_v90 (broadcastInDim S4x4096x4x1 ![0, 1, 2] bcast_S4x4096x4_S4x4096x4x1_0_1_2 : (⟨S4x4096x4, .i32⟩ : BufTy).Contents (Elt F) → (⟨S4x4096x4x1, .i32⟩ : BufTy).Contents (Elt F)),
    StableHlo.unary main_v86 main_v91 (broadcastInDim S4x4096x4x1 ![0, 1, 2] bcast_S4x4096x4_S4x4096x4x1_0_1_2 : (⟨S4x4096x4, .i32⟩ : BufTy).Contents (Elt F) → (⟨S4x4096x4x1, .i32⟩ : BufTy).Contents (Elt F)) ]

/-- The end of the fifth stretch (6 operations): the three target entries joined into the index tensor, the weights scattered into the zero matrices, the validity converted and spread over rows, the product of the two. -/
abbrev pre4d : List (HloOp τ sig (Elt F)) :=
  [ StableHlo.nary ![main_v89, main_v90, main_v91] main_v92 (fun u => concatenate S4x4096x4x3 3 [⟨S4x4096x4x1, u 0⟩, ⟨S4x4096x4x1, u 1⟩, ⟨S4x4096x4x1, u 2⟩] concatenates_S4x4096x4x1_S4x4096x4x1_S4x4096x4x1_S4x4096x4x3_d3),
    StableHlo.ternary main_v67 main_v92 main_v66 main_v93 ((fun x i u => Host.scatter scatter_S4x4096x4096_S4x4096x4x3_S4x4096x4_n_012_012_3 (fun _ b => b) x i u) : (⟨S4x4096x4096, .f32⟩ : BufTy).Contents (Elt F) → (⟨S4x4096x4x3, .i32⟩ : BufTy).Contents (Elt F) → (⟨S4x4096x4, .f32⟩ : BufTy).Contents (Elt F) → (⟨S4x4096x4096, .f32⟩ : BufTy).Contents (Elt F)),
    StableHlo.unary main_v23 main_v94 (uitofp .f32 : (⟨S4096, .i1⟩ : BufTy).Contents (Elt F) → (⟨S4096, .f32⟩ : BufTy).Contents (Elt F)),
    StableHlo.unary main_v94 main_v95 (broadcastInDim S1x4096x1 ![1] bcast_S4096_S1x4096x1_1 : (⟨S4096, .f32⟩ : BufTy).Contents (Elt F) → (⟨S1x4096x1, .f32⟩ : BufTy).Contents (Elt F)),
    StableHlo.unary main_v95 main_v96 (broadcastInDim S4x4096x4096 ![0, 1, 2] bcast_S1x4096x1_S4x4096x4096_0_1_2 : (⟨S1x4096x1, .f32⟩ : BufTy).Contents (Elt F) → (⟨S4x4096x4096, .f32⟩ : BufTy).Contents (Elt F)),
    StableHlo.binary main_v93 main_v96 main_v97 (mulf : (⟨S4x4096x4096, .f32⟩ : BufTy).Contents (Elt F) → (⟨S4x4096x4096, .f32⟩ : BufTy).Contents (Elt F) → (⟨S4x4096x4096, .f32⟩ : BufTy).Contents (Elt F)) ]

/-- The fifth stretch (77 operations): its two pieces in turn. -/
abbrev pre4 : List (HloOp τ sig (Elt F)) := pre4a ++ pre4d

/-- The operations the two programs share (130), in order: the five stretches in turn. -/
abbrev pre : List (HloOp τ sig (Elt F)) := pre0 ++ pre1 ++ pre2 ++ pre3 ++ pre4

/-! ## Every operation touches the device's own buffers only, and determines its results -/

/-- A property of every element of two lists holds of every element of their concatenation. -/
theorem forall_append {α : Type _} {p : α → Prop} {l₁ l₂ : List α} (h₁ : l₁.Forall p) (h₂ : l₂.Forall p) : (l₁ ++ l₂).Forall p :=
  List.forall_iff_forall_mem.mpr fun x hx =>
    (List.mem_append.mp hx).elim (List.forall_iff_forall_mem.mp h₁ x) (List.forall_iff_forall_mem.mp h₂ x)

theorem pre0_sub : (pre0 : List (HloOp τ sig (Elt F))).Forall fun op => op.bufs ⊆ StableHlo.tcRefs τ sig :=
  ⟨StableHlo.nullary_bufs_sub .., StableHlo.reshape_bufs_sub .., StableHlo.unary_bufs_sub .., StableHlo.reshape_bufs_sub .., StableHlo.nullary_bufs_sub .., StableHlo.unary_bufs_sub .., StableHlo.binary_bufs_sub .., StableHlo.nullary_bufs_sub .., StableHlo.binary_bufs_sub .., StableHlo.unary_bufs_sub .., StableHlo.reshape_bufs_sub .., StableHlo.nullary_bufs_sub .., StableHlo.unary_bufs_sub .., StableHlo.binary_bufs_sub .., StableHlo.nullary_bufs_sub .., StableHlo.binary_bufs_sub .., StableHlo.binary_bufs_sub .., StableHlo.unary_bufs_sub .., StableHlo.reshape_bufs_sub .., StableHlo.nullary_bufs_sub .., StableHlo.unary_bufs_sub .., StableHlo.binary_bufs_sub .., StableHlo.nullary_bufs_sub .., StableHlo.binary_bufs_sub .., StableHlo.binary_bufs_sub .., StableHlo.unary_bufs_sub .., StableHlo.reshape_bufs_sub .., StableHlo.nullary_bufs_sub .., StableHlo.unary_bufs_sub .., StableHlo.binary_bufs_sub .., StableHlo.nullary_bufs_sub .., StableHlo.binary_bufs_sub .., StableHlo.binary_bufs_sub .., StableHlo.unary_bufs_sub .., StableHlo.reshape_bufs_sub .., StableHlo.nullary_bufs_sub .., StableHlo.nullary_bufs_sub ..⟩
theorem pre1_sub : (pre1 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.binary_bufs_sub ..⟩
theorem pre2_sub : (pre2 : List (HloOp τ sig (Elt F))).Forall fun op => op.bufs ⊆ StableHlo.tcRefs τ sig :=
  ⟨StableHlo.unary_bufs_sub .., StableHlo.reshape_bufs_sub .., StableHlo.nullary_bufs_sub .., StableHlo.nullary_bufs_sub ..⟩
theorem pre3_sub : (pre3 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.binary_bufs_sub ..⟩
set_option maxRecDepth 4096 in
set_option maxHeartbeats 4000000 in
theorem pre4a_sub : (pre4a : List (HloOp τ sig (Elt F))).Forall fun op => op.bufs ⊆ StableHlo.tcRefs τ sig :=
  ⟨StableHlo.unary_bufs_sub .., StableHlo.unary_bufs_sub .., StableHlo.binary_bufs_sub .., StableHlo.binary_bufs_sub .., StableHlo.unary_bufs_sub .., StableHlo.unary_bufs_sub .., StableHlo.unary_bufs_sub .., StableHlo.unary_bufs_sub .., StableHlo.reshape_bufs_sub .., StableHlo.unary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.reshape_bufs_sub .., StableHlo.unary_bufs_sub .., StableHlo.unary_bufs_sub .., StableHlo.unary_bufs_sub .., StableHlo.binary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.unary_bufs_sub .., StableHlo.unary_bufs_sub .., StableHlo.binary_bufs_sub .., StableHlo.reshape_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.unary_bufs_sub .., StableHlo.unary_bufs_sub .., StableHlo.unary_bufs_sub .., StableHlo.unary_bufs_sub ..⟩
theorem pre4d_sub : (pre4d : List (HloOp τ sig (Elt F))).Forall fun op => op.bufs ⊆ StableHlo.tcRefs τ sig :=
  ⟨StableHlo.nary_bufs_sub .., StableHlo.ternary_bufs_sub .., StableHlo.unary_bufs_sub .., StableHlo.unary_bufs_sub .., StableHlo.unary_bufs_sub .., StableHlo.binary_bufs_sub ..⟩
theorem pre4_sub : (pre4 : List (HloOp τ sig (Elt F))).Forall fun op => op.bufs ⊆ StableHlo.tcRefs τ sig :=
  forall_append pre4a_sub pre4d_sub
theorem pre_sub : (pre : List (HloOp τ sig (Elt F))).Forall fun op => op.bufs ⊆ StableHlo.tcRefs τ sig :=
  forall_append (forall_append (forall_append (forall_append pre0_sub pre1_sub) pre2_sub) pre3_sub) pre4_sub

set_option maxRecDepth 4096 in
theorem pre0_fresh : (pre0 : List (HloOp τ sig (Elt F))).Forall fun op => op.fresh = ∅ := by
  simp only [List.Forall]; repeat' constructor
theorem pre1_fresh : (pre1 : List (HloOp τ sig (Elt F))).Forall fun op => op.fresh = ∅ := by
  simp only [List.Forall]; repeat' constructor
theorem pre2_fresh : (pre2 : List (HloOp τ sig (Elt F))).Forall fun op => op.fresh = ∅ := by
  simp only [List.Forall]; repeat' constructor
theorem pre3_fresh : (pre3 : List (HloOp τ sig (Elt F))).Forall fun op => op.fresh = ∅ := by
  simp only [List.Forall]; repeat' constructor
set_option maxRecDepth 4096 in
theorem pre4a_fresh : (pre4a : List (HloOp τ sig (Elt F))).Forall fun op => op.fresh = ∅ := by
  simp only [List.Forall]; repeat' constructor
theorem pre4d_fresh : (pre4d : List (HloOp τ sig (Elt F))).Forall fun op => op.fresh = ∅ := by
  simp only [List.Forall]; repeat' constructor
theorem pre4_fresh : (pre4 : List (HloOp τ sig (Elt F))).Forall fun op => op.fresh = ∅ :=
  forall_append pre4a_fresh pre4d_fresh
theorem pre_fresh : (pre : List (HloOp τ sig (Elt F))).Forall fun op => op.fresh = ∅ :=
  forall_append (forall_append (forall_append (forall_append pre0_fresh pre1_fresh) pre2_fresh) pre3_fresh) pre4_fresh

/-! ## The interpolation matrix as a function of the grid

The grid holds, for each of 4 batches, 64 × 64 sample points of two coordinates. Read in row-major order they are
4096 points per batch. Each coordinate is clipped into the range of cells, split into its floor (a cell number) and
its fraction above the floor; a point's four corners are the cells at offsets (0,0), (0,1), (1,0), (1,1), each a flat
column number 64 · (first cell + first offset) + (second cell + second offset); its four weights are the products of
one entry of (1 − first fraction, first fraction) with one entry of (first fraction, second fraction). The matrix of
batch b has, on row p, the weight of corner k written at that corner's column (a later corner overwriting an earlier
one at the same column) over zeros; every row is then multiplied by the validity of its position: 1 when, in every
batch, both unclipped coordinates of the point at that position lie within the bounds, else 0. -/

/-- The sample points: the 64 × 64 positions of each batch in row-major order, two coordinates each. -/
def pts (g : FVec F S4x64x64x2 .f32) : FVec F S4x4096x2 .f32 :=
  shapeCast S4x4096x2 g shapeCasts_S4x64x64x2_S4x4096x2

/-- The first coordinate of every sample point. -/
def coord0 (g : FVec F S4x64x64x2 .f32) : FVec F S4x4096 .f32 :=
  shapeCast S4x4096 (extractStridedSlice S4x4096x1 ![0, 0, 0] (pts g) slices_S4x4096x2_S4x4096x1_0_0_0) shapeCasts_S4x4096x1_S4x4096

/-- The second coordinate of every sample point. -/
def coord1 (g : FVec F S4x64x64x2 .f32) : FVec F S4x4096 .f32 :=
  shapeCast S4x4096 (extractStridedSlice S4x4096x1 ![0, 0, 1] (pts g) slices_S4x4096x2_S4x4096x1_0_0_1) shapeCasts_S4x4096x1_S4x4096

/-- Position by position: whether in every batch the coordinate is at least the bound (the conjunction over the batches,
    starting from true). -/
def allGe (lo : BitVec 32) (x : FVec F S4x4096 .f32) : IVec S4096 1 :=
  Host.reduce IntOp.andi (cmpf .oge x (broadcastInDim S4x4096 ![] bcast_S_S4x4096 (constant S_ .f32 lo)))
    (constantI S_ 1 1#1) reducesTo_S4x4096_S4096_d0 h_S_

/-- Position by position: whether in every batch the coordinate is at most the bound. -/
def allLe (hi : BitVec 32) (x : FVec F S4x4096 .f32) : IVec S4096 1 :=
  Host.reduce IntOp.andi (cmpf .ole x (broadcastInDim S4x4096 ![] bcast_S_S4x4096 (constant S_ .f32 hi)))
    (constantI S_ 1 1#1) reducesTo_S4x4096_S4096_d0 h_S_

/-- The validity of a position: in every batch, both coordinates of its point lie between the lower bound −0.001 and the
    upper bound 63.001 (the four conjunctions, joined first coordinate first, lower bound first). -/
def valid (g : FVec F S4x64x64x2 .f32) : IVec S4096 1 :=
  andi (andi (andi (allGe 0xBA83126F#32 (coord0 g)) (allLe 0x427C0106#32 (coord0 g))) (allGe 0xBA83126F#32 (coord1 g)))
    (allLe 0x427C0106#32 (coord1 g))

/-- A coordinate clipped into the cells' range: the smaller of 62.999 and (the larger of 0.001 and the coordinate). -/
def clip (x : FVec F S4x4096 .f32) : FVec F S4x4096 .f32 :=
  minimumf (broadcastInDim S4x4096 ![] bcast_S_S4x4096 (constant S_ .f32 0x427BFEFA#32))
    (maximumf (broadcastInDim S4x4096 ![] bcast_S_S4x4096 (constant S_ .f32 0x3A83126F#32)) x)

/-- The cell of a clipped coordinate: its floor, as an integer. -/
def cell (c : FVec F S4x4096 .f32) : IVec S4x4096 32 := fptosi 32 (Host.floor c)

/-- The fraction of a clipped coordinate: the coordinate less its floor. -/
def frac (c : FVec F S4x4096 .f32) : FVec F S4x4096 .f32 := subf c (Host.floor c)

/-- The four corners' offsets, a row per corner: (0,0), (0,1), (1,0), (1,1). -/
def cornerTable : IVec S4x2 32 := fun i => lit0 (S4x2.rowMajor i)

/-- One value per batch and position, repeated for the four corners. -/
def perCorner (a : IVec S4x4096 32) : IVec S4x4096x4 32 :=
  broadcastInDim S4x4096x4 ![0, 1, 2] bcast_S4x4096x1_S4x4096x4_0_1_2 (broadcastInDim S4x4096x1 ![0, 1] bcast_S4x4096_S4x4096x1_0_1 a)

/-- The corners' first offsets (column 0 of the table), the same for every batch and position. -/
def offset0 (T : IVec S4x2 32) : IVec S4x4096x4 32 :=
  broadcastInDim S4x4096x4 ![0, 1, 2] bcast_S1x1x4_S4x4096x4_0_1_2 (broadcastInDim S1x1x4 ![2] bcast_S4_S1x1x4_2
    (shapeCast S4 (extractStridedSlice S4x1 ![0, 0] T slices_S4x2_S4x1_0_0) shapeCasts_S4x1_S4))

/-- The corners' second offsets (column 1 of the table), the same for every batch and position. -/
def offset1 (T : IVec S4x2 32) : IVec S4x4096x4 32 :=
  broadcastInDim S4x4096x4 ![0, 1, 2] bcast_S1x1x4_S4x4096x4_0_1_2 (broadcastInDim S1x1x4 ![2] bcast_S4_S1x1x4_2
    (shapeCast S4 (extractStridedSlice S4x1 ![0, 1] T slices_S4x2_S4x1_0_1) shapeCasts_S4x1_S4))

/-- The flat column of each corner of each point: 64 · (first cell + first offset) + (second cell + second offset). -/
def cornerFlat (T : IVec S4x2 32) (cx cy : FVec F S4x4096 .f32) : IVec S4x4096x4 32 :=
  addi (muli (addi (perCorner (cell cx)) (offset0 T)) (broadcastInDim S4x4096x4 ![] bcast_S_S4x4096x4 (constantI S_ 32 64#32)))
    (addi (perCorner (cell cy)) (offset1 T))

/-- A corner's column as the scatter reads it: a negative one moved up by the 4096 columns, any other as it is. -/
def cornerCol (T : IVec S4x2 32) (cx cy : FVec F S4x4096 .f32) : IVec S4x4096x4 32 :=
  select (cmpi .slt (cornerFlat T cx cy) (broadcastInDim S4x4096x4 ![] bcast_S_S4x4096x4 (constantI S_ 32 0#32)))
    (addi (cornerFlat T cx cy) (broadcastInDim S4x4096x4 ![] bcast_S_S4x4096x4 (constantI S_ 32 4096#32)))
    (cornerFlat T cx cy)

/-- The batches' numbers 0 … 3. -/
def batchIota : IVec S4x1x1 32 := broadcastInDim S4x1x1 ![0] bcast_S4_S4x1x1_0 (iotaInDim S4 32 0)

/-- A batch's number as the scatter reads it: a negative one moved up by the 4 batches, any other as it is. -/
def batchNo : IVec S4x1x1 32 :=
  select (cmpi .slt batchIota (broadcastInDim S4x1x1 ![] bcast_S_S4x1x1 (constantI S_ 32 0#32)))
    (addi batchIota (broadcastInDim S4x1x1 ![] bcast_S_S4x1x1 (constantI S_ 32 4#32))) batchIota

/-- The positions' numbers 0 … 4095. -/
def rowIota : IVec S1x4096x1 32 := broadcastInDim S1x4096x1 ![1] bcast_S4096_S1x4096x1_1 (iotaInDim S4096 32 0)

/-- A position's number as the scatter reads it: a negative one moved up by the 4096 rows, any other as it is. -/
def rowNo : IVec S1x4096x1 32 :=
  select (cmpi .slt rowIota (broadcastInDim S1x4096x1 ![] bcast_S_S1x4096x1 (constantI S_ 32 0#32)))
    (addi rowIota (broadcastInDim S1x4096x1 ![] bcast_S_S1x4096x1 (constantI S_ 32 4096#32))) rowIota

/-- The first entry of every corner's target: its batch. -/
def idxBatch : IVec S4x4096x4x1 32 :=
  broadcastInDim S4x4096x4x1 ![0, 1, 2] bcast_S4x4096x4_S4x4096x4x1_0_1_2 (broadcastInDim S4x4096x4 ![0, 1, 2] bcast_S4x1x1_S4x4096x4_0_1_2 batchNo)

/-- The second entry of every corner's target: its point's position, the matrix's row. -/
def idxRow : IVec S4x4096x4x1 32 :=
  broadcastInDim S4x4096x4x1 ![0, 1, 2] bcast_S4x4096x4_S4x4096x4x1_0_1_2 (broadcastInDim S4x4096x4 ![0, 1, 2] bcast_S1x4096x1_S4x4096x4_0_1_2 rowNo)

/-- The third entry of every corner's target: the corner's column. -/
def idxCol (T : IVec S4x2 32) (cx cy : FVec F S4x4096 .f32) : IVec S4x4096x4x1 32 :=
  broadcastInDim S4x4096x4x1 ![0, 1, 2] bcast_S4x4096x4_S4x4096x4x1_0_1_2 (cornerCol T cx cy)

/-- One value per batch and position as a column of length one. -/
def asColumn (a : FVec F S4x4096 .f32) : FVec F S4x4096x1 .f32 :=
  broadcastInDim S4x4096x1 ![0, 1] bcast_S4x4096_S4x4096x1_0_1 a

/-- The first factors of a point's weights: (1 − first fraction, first fraction). -/
def factorsA (fx : FVec F S4x4096 .f32) : FVec F S4x4096x2 .f32 :=
  concatenate S4x4096x2 2
    [⟨S4x4096x1, asColumn (subf (broadcastInDim S4x4096 ![] bcast_S_S4x4096 (constant S_ .f32 0x3F800000#32)) fx)⟩, ⟨S4x4096x1, asColumn fx⟩]
    concatenates_S4x4096x1_S4x4096x1_S4x4096x2_d2

/-- The second factors of a point's weights: (first fraction, second fraction). -/
def factorsB (fx fy : FVec F S4x4096 .f32) : FVec F S4x4096x2 .f32 :=
  concatenate S4x4096x2 2 [⟨S4x4096x1, asColumn fx⟩, ⟨S4x4096x1, asColumn fy⟩] concatenates_S4x4096x1_S4x4096x1_S4x4096x2_d2

/-- A point's four weights: entry i of the first factors times entry j of the second, corner 2 i + j. -/
def weights (cx cy : FVec F S4x4096 .f32) : FVec F S4x4096x4 .f32 :=
  shapeCast S4x4096x4
    (mulf
      (broadcastInDim S4x4096x2x2 ![0, 1, 2, 3] bcast_S4x4096x2x1_S4x4096x2x2_0_1_2_3
        (broadcastInDim S4x4096x2x1 ![0, 1, 2] bcast_S4x4096x2_S4x4096x2x1_0_1_2 (factorsA (frac cx))))
      (broadcastInDim S4x4096x2x2 ![0, 1, 2, 3] bcast_S4x4096x1x2_S4x4096x2x2_0_1_2_3
        (broadcastInDim S4x4096x1x2 ![0, 1, 3] bcast_S4x4096x2_S4x4096x1x2_0_1_3 (factorsB (frac cx) (frac cy)))))
    shapeCasts_S4x4096x2x2_S4x4096x4

/-- The matrices before any weight is written: zero everywhere. -/
def zeros : FVec F S4x4096x4096 .f32 :=
  broadcastInDim S4x4096x4096 ![] bcast_S_S4x4096x4096 (constant S_ .f32 0x00000000#32)

/-- The weights written into a matrix: corner k of the point at position p of batch b goes to entry (batch, row, column)
    read from the three target entries, in the order of the corners, a later write replacing an earlier one. -/
def written (z : FVec F S4x4096x4096 .f32) (ib ir ic : IVec S4x4096x4x1 32) (w : FVec F S4x4096x4 .f32) : FVec F S4x4096x4096 .f32 :=
  Host.scatter scatter_S4x4096x4096_S4x4096x4x3_S4x4096x4_n_012_012_3 (fun _ b => b) z
    (concatenate S4x4096x4x3 3 [⟨S4x4096x4x1, ib⟩, ⟨S4x4096x4x1, ir⟩, ⟨S4x4096x4x1, ic⟩]
      concatenates_S4x4096x4x1_S4x4096x4x1_S4x4096x4x1_S4x4096x4x3_d3) w

/-- The validity of each position as a factor 1 or 0 on that position's whole row, in every batch. -/
def rowFactor (v : IVec S4096 1) : FVec F S4x4096x4096 .f32 :=
  broadcastInDim S4x4096x4096 ![0, 1, 2] bcast_S1x4096x1_S4x4096x4096_0_1_2
    (broadcastInDim S1x4096x1 ![1] bcast_S4096_S1x4096x1_1 (uitofp .f32 v))

/-- The interpolation matrices from the clipped coordinates and the validity: the weights written at the corners'
    columns over zeros, each row times its position's validity. -/
def interpOf (cx cy : FVec F S4x4096 .f32) (v : IVec S4096 1) : FVec F S4x4096x4096 .f32 :=
  mulf (written zeros idxBatch idxRow (idxCol cornerTable cx cy) (weights cx cy)) (rowFactor v)

/-- The interpolation matrices as a function of the grid. -/
def interp (g : (⟨S4x64x64x2, .f32⟩ : BufTy).Contents (Elt F)) : (⟨S4x4096x4096, .f32⟩ : BufTy).Contents (Elt F) :=
  interpOf (clip (coord0 g)) (clip (coord1 g)) (valid g)

/-! ## What the operations leave in the buffers

The first four stretches leave the two clipped coordinates, the validity and the corner table; the fifth, from any
contents, computes the three target entries, the weights and the zero matrices from those, then joins, scatters and
multiplies. Each statement reads the buffers the stretch starts from and names the step of the matrix it computes. -/
set_option maxRecDepth 8192 in
/-- After the first four stretches the first clipped coordinate is in place. -/
theorem s1_v26 (W : Valuation τ sig (Elt F)) :
    StableHlo.after pre3 (StableHlo.after pre2 (StableHlo.after pre1 (StableHlo.after pre0 W))) (Proc.devRef .tc main_v26) = clip (coord0 (W (Proc.devRef .tc main_arg1))) := by
  simp (disch := decide) only [StableHlo.after_cons, StableHlo.after_nil,
      StableHlo.nullary_result', StableHlo.unary_result', StableHlo.binary_result', StableHlo.ternary_result', StableHlo.quaternary_result', StableHlo.reshape_result', Cert.LibNary3.nary3_result', StableHlo.nary_result',
      StableHlo.nullary_result_ne', StableHlo.unary_result_ne', StableHlo.binary_result_ne', StableHlo.ternary_result_ne', StableHlo.quaternary_result_ne', StableHlo.reshape_result_ne',
      StableHlo.nary_result_ne', StableHlo.TRef.ofBuf, StableHlo.TRef.toBuf, cast_eq]
  rfl

set_option maxRecDepth 8192 in
/-- After the first four stretches the second clipped coordinate is in place. -/
theorem s1_v29 (W : Valuation τ sig (Elt F)) :
    StableHlo.after pre3 (StableHlo.after pre2 (StableHlo.after pre1 (StableHlo.after pre0 W))) (Proc.devRef .tc main_v29) = clip (coord1 (W (Proc.devRef .tc main_arg1))) := by
  simp (disch := decide) only [StableHlo.after_cons, StableHlo.after_nil,
      StableHlo.nullary_result', StableHlo.unary_result', StableHlo.binary_result', StableHlo.ternary_result', StableHlo.quaternary_result', StableHlo.reshape_result', Cert.LibNary3.nary3_result', StableHlo.nary_result',
      StableHlo.nullary_result_ne', StableHlo.unary_result_ne', StableHlo.binary_result_ne', StableHlo.ternary_result_ne', StableHlo.quaternary_result_ne', StableHlo.reshape_result_ne',
      StableHlo.nary_result_ne', StableHlo.TRef.ofBuf, StableHlo.TRef.toBuf, cast_eq]
  rfl

set_option maxRecDepth 8192 in
/-- After the first four stretches the validity of every position is in place. -/
theorem s1_v23 (W : Valuation τ sig (Elt F)) :
    StableHlo.after pre3 (StableHlo.after pre2 (StableHlo.after pre1 (StableHlo.after pre0 W))) (Proc.devRef .tc main_v23) = valid (W (Proc.devRef .tc main_arg1)) := by
  simp (disch := decide) only [StableHlo.after_cons, StableHlo.after_nil,
      StableHlo.nullary_result', StableHlo.unary_result', StableHlo.binary_result', StableHlo.ternary_result', StableHlo.quaternary_result', StableHlo.reshape_result', Cert.LibNary3.nary3_result', StableHlo.nary_result',
      StableHlo.nullary_result_ne', StableHlo.unary_result_ne', StableHlo.binary_result_ne', StableHlo.ternary_result_ne', StableHlo.quaternary_result_ne', StableHlo.reshape_result_ne',
      StableHlo.nary_result_ne', StableHlo.TRef.ofBuf, StableHlo.TRef.toBuf, cast_eq]
  rfl

set_option maxRecDepth 8192 in
/-- After the first four stretches the corner table is in place. -/
theorem s1_c (W : Valuation τ sig (Elt F)) :
    StableHlo.after pre3 (StableHlo.after pre2 (StableHlo.after pre1 (StableHlo.after pre0 W))) (Proc.devRef .tc main_c) = (cornerTable : IVec S4x2 32) := by
  simp (disch := decide) only [StableHlo.after_cons, StableHlo.after_nil,
      StableHlo.nullary_result', StableHlo.unary_result', StableHlo.binary_result', StableHlo.ternary_result', StableHlo.quaternary_result', StableHlo.reshape_result', Cert.LibNary3.nary3_result', StableHlo.nary_result',
      StableHlo.nullary_result_ne', StableHlo.unary_result_ne', StableHlo.binary_result_ne', StableHlo.ternary_result_ne', StableHlo.quaternary_result_ne', StableHlo.reshape_result_ne',
      StableHlo.nary_result_ne', StableHlo.TRef.ofBuf, StableHlo.TRef.toBuf, cast_eq]
  rfl
set_option maxRecDepth 8192 in
/-- The fifth stretch up to the index tensor: the targets' batch entries. -/
theorem s2_v89 (X : Valuation τ sig (Elt F)) :
    StableHlo.after pre4a X (Proc.devRef .tc main_v89) = (idxBatch : IVec S4x4096x4x1 32) := by
  simp (disch := decide) only [StableHlo.after_cons, StableHlo.after_nil,
      StableHlo.nullary_result', StableHlo.unary_result', StableHlo.binary_result', StableHlo.ternary_result', StableHlo.quaternary_result', StableHlo.reshape_result', Cert.LibNary3.nary3_result', StableHlo.nary_result',
      StableHlo.nullary_result_ne', StableHlo.unary_result_ne', StableHlo.binary_result_ne', StableHlo.ternary_result_ne', StableHlo.quaternary_result_ne', StableHlo.reshape_result_ne',
      StableHlo.nary_result_ne', StableHlo.TRef.ofBuf, StableHlo.TRef.toBuf, cast_eq]
  rfl

set_option maxRecDepth 8192 in
/-- The targets' row entries. -/
theorem s2_v90 (X : Valuation τ sig (Elt F)) :
    StableHlo.after pre4a X (Proc.devRef .tc main_v90) = (idxRow : IVec S4x4096x4x1 32) := by
  simp (disch := decide) only [StableHlo.after_cons, StableHlo.after_nil,
      StableHlo.nullary_result', StableHlo.unary_result', StableHlo.binary_result', StableHlo.ternary_result', StableHlo.quaternary_result', StableHlo.reshape_result', Cert.LibNary3.nary3_result', StableHlo.nary_result',
      StableHlo.nullary_result_ne', StableHlo.unary_result_ne', StableHlo.binary_result_ne', StableHlo.ternary_result_ne', StableHlo.quaternary_result_ne', StableHlo.reshape_result_ne',
      StableHlo.nary_result_ne', StableHlo.TRef.ofBuf, StableHlo.TRef.toBuf, cast_eq]
  rfl

set_option maxRecDepth 8192 in
/-- The targets' column entries, from the corner table and the two clipped coordinates. -/
theorem s2_v91 (X : Valuation τ sig (Elt F)) :
    StableHlo.after pre4a X (Proc.devRef .tc main_v91) = idxCol (X (Proc.devRef .tc main_c)) (X (Proc.devRef .tc main_v26)) (X (Proc.devRef .tc main_v29)) := by
  simp (disch := decide) only [StableHlo.after_cons, StableHlo.after_nil,
      StableHlo.nullary_result', StableHlo.unary_result', StableHlo.binary_result', StableHlo.ternary_result', StableHlo.quaternary_result', StableHlo.reshape_result', Cert.LibNary3.nary3_result', StableHlo.nary_result',
      StableHlo.nullary_result_ne', StableHlo.unary_result_ne', StableHlo.binary_result_ne', StableHlo.ternary_result_ne', StableHlo.quaternary_result_ne', StableHlo.reshape_result_ne',
      StableHlo.nary_result_ne', StableHlo.TRef.ofBuf, StableHlo.TRef.toBuf, cast_eq]
  rfl

set_option maxRecDepth 8192 in
/-- The weights, from the two clipped coordinates. -/
theorem s2_v66 (X : Valuation τ sig (Elt F)) :
    StableHlo.after pre4a X (Proc.devRef .tc main_v66) = weights (X (Proc.devRef .tc main_v26)) (X (Proc.devRef .tc main_v29)) := by
  simp (disch := decide) only [StableHlo.after_cons, StableHlo.after_nil,
      StableHlo.nullary_result', StableHlo.unary_result', StableHlo.binary_result', StableHlo.ternary_result', StableHlo.quaternary_result', StableHlo.reshape_result', Cert.LibNary3.nary3_result', StableHlo.nary_result',
      StableHlo.nullary_result_ne', StableHlo.unary_result_ne', StableHlo.binary_result_ne', StableHlo.ternary_result_ne', StableHlo.quaternary_result_ne', StableHlo.reshape_result_ne',
      StableHlo.nary_result_ne', StableHlo.TRef.ofBuf, StableHlo.TRef.toBuf, cast_eq]
  rfl

set_option maxRecDepth 8192 in
/-- The zero matrices. -/
theorem s2_v67 (X : Valuation τ sig (Elt F)) :
    StableHlo.after pre4a X (Proc.devRef .tc main_v67) = (zeros : FVec F S4x4096x4096 .f32) := by
  simp (disch := decide) only [StableHlo.after_cons, StableHlo.after_nil,
      StableHlo.nullary_result', StableHlo.unary_result', StableHlo.binary_result', StableHlo.ternary_result', StableHlo.quaternary_result', StableHlo.reshape_result', Cert.LibNary3.nary3_result', StableHlo.nary_result',
      StableHlo.nullary_result_ne', StableHlo.unary_result_ne', StableHlo.binary_result_ne', StableHlo.ternary_result_ne', StableHlo.quaternary_result_ne', StableHlo.reshape_result_ne',
      StableHlo.nary_result_ne', StableHlo.TRef.ofBuf, StableHlo.TRef.toBuf, cast_eq]
  rfl

set_option maxRecDepth 8192 in
/-- The validity is not written meanwhile. -/
theorem s2_v23 (X : Valuation τ sig (Elt F)) :
    StableHlo.after pre4a X (Proc.devRef .tc main_v23) = X (Proc.devRef .tc main_v23) := by
  kept_all pre4a

set_option maxRecDepth 8192 in
/-- The last six operations: the index tensor joined from its three entries, the scatter, the validity as a factor, the product. -/
theorem s3_v97 (Y : Valuation τ sig (Elt F)) :
    StableHlo.after pre4d Y (Proc.devRef .tc main_v97)
      = mulf (written (Y (Proc.devRef .tc main_v67)) (Y (Proc.devRef .tc main_v89)) (Y (Proc.devRef .tc main_v90)) (Y (Proc.devRef .tc main_v91)) (Y (Proc.devRef .tc main_v66))) (rowFactor (Y (Proc.devRef .tc main_v23))) := by
  simp (disch := decide) only [StableHlo.after_cons, StableHlo.after_nil,
      StableHlo.nullary_result', StableHlo.unary_result', StableHlo.binary_result', StableHlo.ternary_result', StableHlo.quaternary_result', StableHlo.reshape_result', Cert.LibNary3.nary3_result', StableHlo.nary_result',
      StableHlo.nullary_result_ne', StableHlo.unary_result_ne', StableHlo.binary_result_ne', StableHlo.ternary_result_ne', StableHlo.quaternary_result_ne', StableHlo.reshape_result_ne',
      StableHlo.nary_result_ne', StableHlo.TRef.ofBuf, StableHlo.TRef.toBuf, cast_eq]
  rfl

/-- The shared operations are their six lists run in turn. -/
theorem after_pre (W : Valuation τ sig (Elt F)) :
    StableHlo.after pre W = StableHlo.after pre4d (StableHlo.after pre4a (StableHlo.after pre3 (StableHlo.after pre2 (StableHlo.after pre1 (StableHlo.after pre0 W))))) := by
  simp only [pre, pre4, StableHlo.after_append]

/-- After the shared operations the matrices' buffer holds the interpolation matrices of the grid argument's contents. -/
theorem pre_v97 (W : Valuation τ sig (Elt F)) :
    StableHlo.after pre W (Proc.devRef .tc main_v97) = interp (W (Proc.devRef .tc main_arg1)) := by
  rw [after_pre, s3_v97, s2_v67, s2_v89, s2_v90, s2_v91, s2_v66, s2_v23, s1_v26, s1_v29, s1_v23, s1_c]
  rfl

/-! ## The two arguments are written by no operation -/
set_option maxRecDepth 8192 in
theorem pre0_main_arg0 (X : Valuation τ sig (Elt F)) : StableHlo.after pre0 X (Proc.devRef .tc main_arg0) = X (Proc.devRef .tc main_arg0) := by
  kept_all pre0
set_option maxRecDepth 8192 in
theorem pre1_main_arg0 (X : Valuation τ sig (Elt F)) : StableHlo.after pre1 X (Proc.devRef .tc main_arg0) = X (Proc.devRef .tc main_arg0) := by
  kept_all pre1
set_option maxRecDepth 8192 in
theorem pre2_main_arg0 (X : Valuation τ sig (Elt F)) : StableHlo.after pre2 X (Proc.devRef .tc main_arg0) = X (Proc.devRef .tc main_arg0) := by
  kept_all pre2
set_option maxRecDepth 8192 in
theorem pre3_main_arg0 (X : Valuation τ sig (Elt F)) : StableHlo.after pre3 X (Proc.devRef .tc main_arg0) = X (Proc.devRef .tc main_arg0) := by
  kept_all pre3
set_option maxRecDepth 8192 in
theorem pre4a_main_arg0 (X : Valuation τ sig (Elt F)) : StableHlo.after pre4a X (Proc.devRef .tc main_arg0) = X (Proc.devRef .tc main_arg0) := by
  kept_all pre4a
set_option maxRecDepth 8192 in
theorem pre4d_main_arg0 (X : Valuation τ sig (Elt F)) : StableHlo.after pre4d X (Proc.devRef .tc main_arg0) = X (Proc.devRef .tc main_arg0) := by
  kept_all pre4d
/-- The shared operations leave this argument's buffer as it was. -/
theorem pre_arg0 (W : Valuation τ sig (Elt F)) : StableHlo.after pre W (Proc.devRef .tc main_arg0) = W (Proc.devRef .tc main_arg0) := by
  rw [after_pre, pre4d_main_arg0, pre4a_main_arg0, pre3_main_arg0, pre2_main_arg0, pre1_main_arg0, pre0_main_arg0]

set_option maxRecDepth 8192 in
theorem pre0_main_arg1 (X : Valuation τ sig (Elt F)) : StableHlo.after pre0 X (Proc.devRef .tc main_arg1) = X (Proc.devRef .tc main_arg1) := by
  kept_all pre0
set_option maxRecDepth 8192 in
theorem pre1_main_arg1 (X : Valuation τ sig (Elt F)) : StableHlo.after pre1 X (Proc.devRef .tc main_arg1) = X (Proc.devRef .tc main_arg1) := by
  kept_all pre1
set_option maxRecDepth 8192 in
theorem pre2_main_arg1 (X : Valuation τ sig (Elt F)) : StableHlo.after pre2 X (Proc.devRef .tc main_arg1) = X (Proc.devRef .tc main_arg1) := by
  kept_all pre2
set_option maxRecDepth 8192 in
theorem pre3_main_arg1 (X : Valuation τ sig (Elt F)) : StableHlo.after pre3 X (Proc.devRef .tc main_arg1) = X (Proc.devRef .tc main_arg1) := by
  kept_all pre3
set_option maxRecDepth 8192 in
theorem pre4a_main_arg1 (X : Valuation τ sig (Elt F)) : StableHlo.after pre4a X (Proc.devRef .tc main_arg1) = X (Proc.devRef .tc main_arg1) := by
  kept_all pre4a
set_option maxRecDepth 8192 in
theorem pre4d_main_arg1 (X : Valuation τ sig (Elt F)) : StableHlo.after pre4d X (Proc.devRef .tc main_arg1) = X (Proc.devRef .tc main_arg1) := by
  kept_all pre4d
/-- The shared operations leave this argument's buffer as it was. -/
theorem pre_arg1 (W : Valuation τ sig (Elt F)) : StableHlo.after pre W (Proc.devRef .tc main_arg1) = W (Proc.devRef .tc main_arg1) := by
  rw [after_pre, pre4d_main_arg1, pre4a_main_arg1, pre3_main_arg1, pre2_main_arg1, pre1_main_arg1, pre0_main_arg1]

end Cert.KernelIdeal.Hand

end
-- ==== Proof.KI.HostVals.lean ====
/-
  What the kernel region finds in its two operand arrays. The host operations before the region are the shared ones —
  which leave the interpolation matrix, as a function of the grid argument, in one buffer — followed by two changes of
  float format: of that matrix and of the first argument. So the right operand is the matrix, cast, and the left
  operand the first argument, cast.
-/
import proofs.«169048_j87840671137910_1_alg».proof.Proof.KI.Entry
import proofs.«169048_j87840671137910_1_alg».proof.Proof.KI.Prefix

set_option maxRecDepth 16384

noncomputable section

namespace Cert.KernelIdeal.Hand

open Cert.KernelIdeal Cert.KernelIdeal.Gen
open Idealize.ShloMosaic Idealize.ShloMosaic.TcCoe Idealize.SL.Sem

variable {F : FTy → Type} [FloatOps F]

variable (m : (ℓ : Loc nD τ sig) → Buf (Elt F) ℓ)

/-- The two changes of format that follow the shared operations. -/
abbrev casts : List (HloOp τ sig (Elt F)) :=
  [ StableHlo.unary main_v97 main_v98 ((truncf .bf16 · bitsLt_bf16_f32) : (⟨S4x4096x4096, .f32⟩ : BufTy).Contents (Elt F) → (⟨S4x4096x4096, .bf16⟩ : BufTy).Contents (Elt F)),
    StableHlo.unary main_arg0 main_v99 ((truncf .bf16 · bitsLt_bf16_f32) : (⟨S4x128x4096, .f32⟩ : BufTy).Contents (Elt F) → (⟨S4x128x4096, .bf16⟩ : BufTy).Contents (Elt F)) ]

set_option maxHeartbeats 4000000 in
/-- The five stretches before the region are the shared operations followed by the two casts. -/
theorem flat_eq : (List.flatten [hostOps0, hostOps0_1, hostOps0_2, hostOps0_3, hostOps0_4] : List (HloOp τ sig (Elt F))) = pre ++ casts := rfl

/-- The right operand: the interpolation matrix of the grid argument, cast. -/
theorem V_v98 (c : Dev nD) : V m c main_v98 = truncf .bf16 (interp (m ((c : Thread nD τ).loc main_arg1))) bitsLt_bf16_f32 := by
  show StableHlo.after (List.flatten [hostOps0, hostOps0_1, hostOps0_2, hostOps0_3, hostOps0_4]) (fun b => m (c, b)) (Proc.devRef .tc main_v98) = _
  rw [flat_eq, StableHlo.after_append]
  generalize hW : StableHlo.after pre (fun b => m (c, b)) = W
  have h97 : W (Proc.devRef .tc main_v97) = interp (m ((c : Thread nD τ).loc main_arg1)) := by
    rw [← hW]; exact pre_v97 (fun b => m (c, b))
  rw [← h97]
  unfold casts
  after_results

/-- The left operand: the first argument, cast. -/
theorem V_v99 (c : Dev nD) : V m c main_v99 = truncf .bf16 (m ((c : Thread nD τ).loc main_arg0)) bitsLt_bf16_f32 := by
  show StableHlo.after (List.flatten [hostOps0, hostOps0_1, hostOps0_2, hostOps0_3, hostOps0_4]) (fun b => m (c, b)) (Proc.devRef .tc main_v99) = _
  rw [flat_eq, StableHlo.after_append]
  generalize hW : StableHlo.after pre (fun b => m (c, b)) = W
  have h0 : W (Proc.devRef .tc main_arg0) = m ((c : Thread nD τ).loc main_arg0) := by
    rw [← hW]; exact pre_arg0 (fun b => m (c, b))
  rw [← h0]
  unfold casts
  after_results

end Cert.KernelIdeal.Hand

end
-- ==== Proof.RefPrefix.lean ====
/-
  The host operations the two programs share: everything that leads from the grid argument to the interpolation
  matrices. Here are the operations in order, as six lists that are run one after the other; the matrices as a function
  of the grid, built in small steps; and the fact that after the operations the matrices' buffer holds that function
  of the grid argument's contents, both arguments unchanged.
-/
import proofs.«169048_j87840671137910_1_alg».proof.Proof.Gen.ReferenceIdeal
import Idealize.ShloMosaic.Lib.StableHlo.Run
import Idealize.ShloMosaic.Lib.Pipeline.Frame
import proofs.«169048_j87840671137910_1_alg».proof.Proof.LibNary3
import proofs.«169048_j87840671137910_1_alg».proof.Proof.LibKeepAll
import proofs.«169048_j87840671137910_1_alg».proof.Proof.LibTypedRef

noncomputable section

namespace Cert.ReferenceIdeal.Hand

open Cert.ReferenceIdeal Cert.ReferenceIdeal.Gen Idealize.ShloMosaic Idealize.ShloMosaic.TcCoe Idealize.SL.Sem

variable {F : FTy → Type} [FloatOps F]

/-! ## The shared operations, in order -/

/-- The first stretch (37 operations): the corner table; the sample points and, several times over, their first and second coordinates; the four bound checks, each reduced over the batches, and their conjunction; the clip bounds for the first coordinate. -/
abbrev pre0 : List (HloOp τ sig (Elt F)) :=
  [ StableHlo.nullary main_c (fun i => lit0 (S4x2.rowMajor i)),
    StableHlo.reshape main_arg1 main_v0 rfl shapeCasts_S4x64x64x2_S4x4096x2,
    StableHlo.unary main_v0 main_v1 ((extractStridedSlice S4x4096x1 ![0, 0, 0] · slices_S4x4096x2_S4x4096x1_0_0_0) : (⟨S4x4096x2, .f32⟩ : BufTy).Contents (Elt F) → (⟨S4x4096x1, .f32⟩ : BufTy).Contents (Elt F)),
    StableHlo.reshape main_v1 main_v2 rfl shapeCasts_S4x4096x1_S4x4096,
    StableHlo.nullary main_cst (constant S_ .f32 0xBA83126F#32),
    StableHlo.unary main_cst main_v3 (broadcastInDim S4x4096 ![] bcast_S_S4x4096 : (⟨S_, .f32⟩ : BufTy).Contents (Elt F) → (⟨S4x4096, .f32⟩ : BufTy).Contents (Elt F)),
    StableHlo.binary main_v2 main_v3 main_v4 (cmpf .oge : (⟨S4x4096, .f32⟩ : BufTy).Contents (Elt F) → (⟨S4x4096, .f32⟩ : BufTy).Contents (Elt F) → (⟨S4x4096, .i1⟩ : BufTy).Contents (Elt F)),
    StableHlo.nullary main_c_0 (constantI S_ 1 1#1),
    StableHlo.binary main_v4 main_c_0 main_v5 ((fun x v => Host.reduce IntOp.andi x v reducesTo_S4x4096_S4096_d0 h_S_) : (⟨S4x4096, .i1⟩ : BufTy).Contents (Elt F) → (⟨S_, .i1⟩ : BufTy).Contents (Elt F) → (⟨S4096, .i1⟩ : BufTy).Contents (Elt F)),
    StableHlo.unary main_v0 main_v6 ((extractStridedSlice S4x4096x1 ![0, 0, 0] · slices_S4x4096x2_S4x4096x1_0_0_0) : (⟨S4x4096x2, .f32⟩ : BufTy).Contents (Elt F) → (⟨S4x4096x1, .f32⟩ : BufTy).Contents (Elt F)),
    StableHlo.reshape main_v6 main_v7 rfl shapeCasts_S4x4096x1_S4x4096,
    StableHlo.nullary main_cst_1 (constant S_ .f32 0x427C0106#32),
    StableHlo.unary main_cst_1 main_v8 (broadcastInDim S4x4096 ![] bcast_S_S4x4096 : (⟨S_, .f32⟩ : BufTy).Contents (Elt F) → (⟨S4x4096, .f32⟩ : BufTy).Contents (Elt F)),
    StableHlo.binary main_v7 main_v8 main_v9 (cmpf .ole : (⟨S4x4096, .f32⟩ : BufTy).Contents (Elt F) → (⟨S4x4096, .f32⟩ : BufTy).Contents (Elt F) → (⟨S4x4096, .i1⟩ : BufTy).Contents (Elt F)),
    StableHlo.nullary main_c_2 (constantI S_ 1 1#1),
    StableHlo.binary main_v9 main_c_2 main_v10 ((fun x v => Host.reduce IntOp.andi x v reducesTo_S4x4096_S4096_d0 h_S_) : (⟨S4x4096, .i1⟩ : BufTy).Contents (Elt F) → (⟨S_, .i1⟩ : BufTy).Contents (Elt F) → (⟨S4096, .i1⟩ : BufTy).Contents (Elt F)),
    StableHlo.binary main_v5 main_v10 main_v11 (andi : (⟨S4096, .i1⟩ : BufTy).Contents (Elt F) → (⟨S4096, .i1⟩ : BufTy).Contents (Elt F) → (⟨S4096, .i1⟩ : BufTy).Contents (Elt F)),
    StableHlo.unary main_v0 main_v12 ((extractStridedSlice S4x4096x1 ![0, 0, 1] · slices_S4x4096x2_S4x4096x1_0_0_1) : (⟨S4x4096x2, .f32⟩ : BufTy).Contents (Elt F) → (⟨S4x4096x1, .f32⟩ : BufTy).Contents (Elt F)),
    StableHlo.reshape main_v12 main_v13 rfl shapeCasts_S4x4096x1_S4x4096,
    StableHlo.nullary main_cst_3 (constant S_ .f32 0xBA83126F#32),
    StableHlo.unary main_cst_3 main_v14 (broadcastInDim S4x4096 ![] bcast_S_S4x4096 : (⟨S_, .f32⟩ : BufTy).Contents (Elt F) → (⟨S4x4096, .f32⟩ : BufTy).Contents (Elt F)),
    StableHlo.binary main_v13 main_v14 main_v15 (cmpf .oge : (⟨S4x4096, .f32⟩ : BufTy).Contents (Elt F) → (⟨S4x4096, .f32⟩ : BufTy).Contents (Elt F) → (⟨S4x4096, .i1⟩ : BufTy).Contents (Elt F)),
    StableHlo.nullary main_c_4 (constantI S_ 1 1#1),
    StableHlo.binary main_v15 main_c_4 main_v16 ((fun x v => Host.reduce IntOp.andi x v reducesTo_S4x4096_S4096_d0 h_S_) : (⟨S4x4096, .i1⟩ : BufTy).Contents (Elt F) → (⟨S_, .i1⟩ : BufTy).Contents (Elt F) → (⟨S4096, .i1⟩ : BufTy).Contents (Elt F)),
    StableHlo.binary main_v11 main_v16 main_v17 (andi : (⟨S4096, .i1⟩ : BufTy).Contents (Elt F) → (⟨S4096, .i1⟩ : BufTy).Contents (Elt F) → (⟨S4096, .i1⟩ : BufTy).Contents (Elt F)),
    StableHlo.unary main_v0 main_v18 ((extractStridedSlice S4x4096x1 ![0, 0, 1] · slices_S4x4096x2_S4x4096x1_0_0_1) : (⟨S4x4096x2, .f32⟩ : BufTy).Contents (Elt F) → (⟨S4x4096x1, .f32⟩ : BufTy).Contents (Elt F)),
    StableHlo.reshape main_v18 main_v19 rfl shapeCasts_S4x4096x1_S4x4096,
    StableHlo.nullary main_cst_5 (constant S_ .f32 0x427C0106#32),
    StableHlo.unary main_cst_5 main_v20 (broadcastInDim S4x4096 ![] bcast_S_S4x4096 : (⟨S_, .f32⟩ : BufTy).Contents (Elt F) → (⟨S4x4096, .f32⟩ : BufTy).Contents (Elt F)),
    StableHlo.binary main_v19 main_v20 main_v21 (cmpf .ole : (⟨S4x4096, .f32⟩ : BufTy).Contents (Elt F) → (⟨S4x4096, .f32⟩ : BufTy).Contents (Elt F) → (⟨S4x4096, .i1⟩ : BufTy).Contents (Elt F)),
    StableHlo.nullary main_c_6 (constantI S_ 1 1#1),
    StableHlo.binary main_v21 main_c_6 main_v22 ((fun x v => Host.reduce IntOp.andi x v reducesTo_S4x4096_S4096_d0 h_S_) : (⟨S4x4096, .i1⟩ : BufTy).Contents (Elt F) → (⟨S_, .i1⟩ : BufTy).Contents (Elt F) → (⟨S4096, .i1⟩ : BufTy).Contents (Elt F)),
    StableHlo.binary main_v17 main_v22 main_v23 (andi : (⟨S4096, .i1⟩ : BufTy).Contents (Elt F) → (⟨S4096, .i1⟩ : BufTy).Contents (Elt F) → (⟨S4096, .i1⟩ : BufTy).Contents (Elt F)),
    StableHlo.unary main_v0 main_v24 ((extractStridedSlice S4x4096x1 ![0, 0, 0] · slices_S4x4096x2_S4x4096x1_0_0_0) : (⟨S4x4096x2, .f32⟩ : BufTy).Contents (Elt F) → (⟨S4x4096x1, .f32⟩ : BufTy).Contents (Elt F)),
    StableHlo.reshape main_v24 main_v25 rfl shapeCasts_S4x4096x1_S4x4096,
    StableHlo.nullary main_cst_7 (constant S_ .f32 0x3A83126F#32),
    StableHlo.nullary main_cst_8 (constant S_ .f32 0x427BFEFA#32) ]

/-- The second stretch (6 operations): the first coordinate clipped — each bound spread over the batches and positions, the larger of the lower bound and the coordinate, the smaller of the upper bound and that. -/
abbrev pre1 : List (HloOp τ sig (Elt F)) :=
  [ StableHlo.TRef.unary (.of main_cst_7 : StableHlo.TRef sig ⟨S_, .f32⟩) (.of main_call0_v0 : StableHlo.TRef sig ⟨S_, .f32⟩) id,
    StableHlo.TRef.unary (.of main_call0_v0 : StableHlo.TRef sig ⟨S_, .f32⟩) (.of main_call0_v1 : StableHlo.TRef sig ⟨S4x4096, .f32⟩) (broadcastInDim S4x4096 ![] bcast_S_S4x4096),
    StableHlo.TRef.binary (.of main_call0_v1 : StableHlo.TRef sig ⟨S4x4096, .f32⟩) (.of main_v25 : StableHlo.TRef sig ⟨S4x4096, .f32⟩) (.of main_call0_v2 : StableHlo.TRef sig ⟨S4x4096, .f32⟩) maximumf,
    StableHlo.TRef.unary (.of main_cst_8 : StableHlo.TRef sig ⟨S_, .f32⟩) (.of main_call0_v3 : StableHlo.TRef sig ⟨S_, .f32⟩) id,
    StableHlo.TRef.unary (.of main_call0_v3 : StableHlo.TRef sig ⟨S_, .f32⟩) (.of main_call0_v4 : StableHlo.TRef sig ⟨S4x4096, .f32⟩) (broadcastInDim S4x4096 ![] bcast_S_S4x4096),
    StableHlo.TRef.binary (.of main_call0_v4 : StableHlo.TRef sig ⟨S4x4096, .f32⟩) (.of main_call0_v2 : StableHlo.TRef sig ⟨S4x4096, .f32⟩) (.of main_v26 : StableHlo.TRef sig ⟨S4x4096, .f32⟩) minimumf ]

/-- The third stretch (4 operations): the second coordinate read once more and its clip bounds. -/
abbrev pre2 : List (HloOp τ sig (Elt F)) :=
  [ StableHlo.unary main_v0 main_v27 ((extractStridedSlice S4x4096x1 ![0, 0, 1] · slices_S4x4096x2_S4x4096x1_0_0_1) : (⟨S4x4096x2, .f32⟩ : BufTy).Contents (Elt F) → (⟨S4x4096x1, .f32⟩ : BufTy).Contents (Elt F)),
    StableHlo.reshape main_v27 main_v28 rfl shapeCasts_S4x4096x1_S4x4096,
    StableHlo.nullary main_cst_9 (constant S_ .f32 0x3A83126F#32),
    StableHlo.nullary main_cst_10 (constant S_ .f32 0x427BFEFA#32) ]

/-- The fourth stretch (6 operations): the second coordinate clipped, as the first was. -/
abbrev pre3 : List (HloOp τ sig (Elt F)) :=
  [ StableHlo.TRef.unary (.of main_cst_9 : StableHlo.TRef sig ⟨S_, .f32⟩) (.of main_call1_v0 : StableHlo.TRef sig ⟨S_, .f32⟩) id,
    StableHlo.TRef.unary (.of main_call1_v0 : StableHlo.TRef sig ⟨S_, .f32⟩) (.of main_call1_v1 : StableHlo.TRef sig ⟨S4x4096, .f32⟩) (broadcastInDim S4x4096 ![] bcast_S_S4x4096),
    StableHlo.TRef.binary (.of main_call1_v1 : StableHlo.TRef sig ⟨S4x4096, .f32⟩) (.of main_v28 : StableHlo.TRef sig ⟨S4x4096, .f32⟩) (.of main_call1_v2 : StableHlo.TRef sig ⟨S4x4096, .f32⟩) maximumf,
    StableHlo.TRef.unary (.of main_cst_10 : StableHlo.TRef sig ⟨S_, .f32⟩) (.of main_call1_v3 : StableHlo.TRef sig ⟨S_, .f32⟩) id,
    StableHlo.TRef.unary (.of main_call1_v3 : StableHlo.TRef sig ⟨S_, .f32⟩) (.of main_call1_v4 : StableHlo.TRef sig ⟨S4x4096, .f32⟩) (broadcastInDim S4x4096 ![] bcast_S_S4x4096),
    StableHlo.TRef.binary (.of main_call1_v4 : StableHlo.TRef sig ⟨S4x4096, .f32⟩) (.of main_call1_v2 : StableHlo.TRef sig ⟨S4x4096, .f32⟩) (.of main_v29 : StableHlo.TRef sig ⟨S4x4096, .f32⟩) minimumf ]

set_option maxRecDepth 4096 in
/-- The fifth stretch up to the index tensor (71 operations): floors, fractions and cells of the clipped coordinates; the four corners' flat columns; the weights as products of two pairs of factors; the zero matrices; the batch and row numbers; the three entries of every corner's target. -/
abbrev pre4a : List (HloOp τ sig (Elt F)) :=
  [ StableHlo.unary main_v26 main_v30 (Host.floor : (⟨S4x4096, .f32⟩ : BufTy).Contents (Elt F) → (⟨S4x4096, .f32⟩ : BufTy).Contents (Elt F)),
    StableHlo.unary main_v29 main_v31 (Host.floor : (⟨S4x4096, .f32⟩ : BufTy).Contents (Elt F) → (⟨S4x4096, .f32⟩ : BufTy).Contents (Elt F)),
    StableHlo.binary main_v26 main_v30 main_v32 (subf : (⟨S4x4096, .f32⟩ : BufTy).Contents (Elt F) → (⟨S4x4096, .f32⟩ : BufTy).Contents (Elt F) → (⟨S4x4096, .f32⟩ : BufTy).Contents (Elt F)),
    StableHlo.binary main_v29 main_v31 main_v33 (subf : (⟨S4x4096, .f32⟩ : BufTy).Contents (Elt F) → (⟨S4x4096, .f32⟩ : BufTy).Contents (Elt F) → (⟨S4x4096, .f32⟩ : BufTy).Contents (Elt F)),
    StableHlo.unary main_v30 main_v34 (fptosi 32 : (⟨S4x4096, .f32⟩ : BufTy).Contents (Elt F) → (⟨S4x4096, .i32⟩ : BufTy).Contents (Elt F)),
    StableHlo.unary main_v31 main_v35 (fptosi 32 : (⟨S4x4096, .f32⟩ : BufTy).Contents (Elt F) → (⟨S4x4096, .i32⟩ : BufTy).Contents (Elt F)),
    StableHlo.unary main_v34 main_v36 (broadcastInDim S4x4096x1 ![0, 1] bcast_S4x4096_S4x4096x1_0_1 : (⟨S4x4096, .i32⟩ : BufTy).Contents (Elt F) → (⟨S4x4096x1, .i32⟩ : BufTy).Contents (Elt F)),
    StableHlo.unary main_c main_v37 ((extractStridedSlice S4x1 ![0, 0] · slices_S4x2_S4x1_0_0) : (⟨S4x2, .i32⟩ : BufTy).Contents (Elt F) → (⟨S4x1, .i32⟩ : BufTy).Contents (Elt F)),
    StableHlo.reshape main_v37 main_v38 rfl shapeCasts_S4x1_S4,
    StableHlo.unary main_v38 main_v39 (broadcastInDim S1x1x4 ![2] bcast_S4_S1x1x4_2 : (⟨S4, .i32⟩ : BufTy).Contents (Elt F) → (⟨S1x1x4, .i32⟩ : BufTy).Contents (Elt F)),
    StableHlo.unary main_v36 main_v40 (broadcastInDim S4x4096x4 ![0, 1, 2] bcast_S4x4096x1_S4x4096x4_0_1_2 : (⟨S4x4096x1, .i32⟩ : BufTy).Contents (Elt F) → (⟨S4x4096x4, .i32⟩ : BufTy).Contents (Elt F)),
    StableHlo.unary main_v39 main_v41 (broadcastInDim S4x4096x4 ![0, 1, 2] bcast_S1x1x4_S4x4096x4_0_1_2 : (⟨S1x1x4, .i32⟩ : BufTy).Contents (Elt F) → (⟨S4x4096x4, .i32⟩ : BufTy).Contents (Elt F)),
    StableHlo.binary main_v40 main_v41 main_v42 (addi : (⟨S4x4096x4, .i32⟩ : BufTy).Contents (Elt F) → (⟨S4x4096x4, .i32⟩ : BufTy).Contents (Elt F) → (⟨S4x4096x4, .i32⟩ : BufTy).Contents (Elt F)),
    StableHlo.nullary main_c_11 (constantI S_ 32 64#32),
    StableHlo.unary main_c_11 main_v43 (broadcastInDim S4x4096x4 ![] bcast_S_S4x4096x4 : (⟨S_, .i32⟩ : BufTy).Contents (Elt F) → (⟨S4x4096x4, .i32⟩ : BufTy).Contents (Elt F)),
    StableHlo.binary main_v42 main_v43 main_v44 (muli : (⟨S4x4096x4, .i32⟩ : BufTy).Contents (Elt F) → (⟨S4x4096x4, .i32⟩ : BufTy).Contents (Elt F) → (⟨S4x4096x4, .i32⟩ : BufTy).Contents (Elt F)),
    StableHlo.unary main_v35 main_v45 (broadcastInDim S4x4096x1 ![0, 1] bcast_S4x4096_S4x4096x1_0_1 : (⟨S4x4096, .i32⟩ : BufTy).Contents (Elt F) → (⟨S4x4096x1, .i32⟩ : BufTy).Contents (Elt F)),
    StableHlo.unary main_c main_v46 ((extractStridedSlice S4x1 ![0, 1] · slices_S4x2_S4x1_0_1) : (⟨S4x2, .i32⟩ : BufTy).Contents (Elt F) → (⟨S4x1, .i32⟩ : BufTy).Contents (Elt F)),
    StableHlo.reshape main_v46 main_v47 rfl shapeCasts_S4x1_S4,
    StableHlo.unary main_v47 main_v48 (broadcastInDim S1x1x4 ![2] bcast_S4_S1x1x4_2 : (⟨S4, .i32⟩ : BufTy).Contents (Elt F) → (⟨S1x1x4, .i32⟩ : BufTy).Contents (Elt F)),
    StableHlo.unary main_v45 main_v49 (broadcastInDim S4x4096x4 ![0, 1, 2] bcast_S4x4096x1_S4x4096x4_0_1_2 : (⟨S4x4096x1, .i32⟩ : BufTy).Contents (Elt F) → (⟨S4x4096x4, .i32⟩ : BufTy).Contents (Elt F)),
    StableHlo.unary main_v48 main_v50 (broadcastInDim S4x4096x4 ![0, 1, 2] bcast_S1x1x4_S4x4096x4_0_1_2 : (⟨S1x1x4, .i32⟩ : BufTy).Contents (Elt F) → (⟨S4x4096x4, .i32⟩ : BufTy).Contents (Elt F)),
    StableHlo.binary main_v49 main_v50 main_v51 (addi : (⟨S4x4096x4, .i32⟩ : BufTy).Contents (Elt F) → (⟨S4x4096x4, .i32⟩ : BufTy).Contents (Elt F) → (⟨S4x4096x4, .i32⟩ : BufTy).Contents (Elt F)),
    StableHlo.binary main_v44 main_v51 main_v52 (addi : (⟨S4x4096x4, .i32⟩ : BufTy).Contents (Elt F) → (⟨S4x4096x4, .i32⟩ : BufTy).Contents (Elt F) → (⟨S4x4096x4, .i32⟩ : BufTy).Contents (Elt F)),
    StableHlo.nullary main_cst_12 (constant S_ .f32 0x3F800000#32),
    StableHlo.unary main_cst_12 main_v53 (broadcastInDim S4x4096 ![] bcast_S_S4x4096 : (⟨S_, .f32⟩ : BufTy).Contents (Elt F) → (⟨S4x4096, .f32⟩ : BufTy).Contents (Elt F)),
    StableHlo.binary main_v53 main_v32 main_v54 (subf : (⟨S4x4096, .f32⟩ : BufTy).Contents (Elt F) → (⟨S4x4096, .f32⟩ : BufTy).Contents (Elt F) → (⟨S4x4096, .f32⟩ : BufTy).Contents (Elt F)),
    StableHlo.unary main_v54 main_v55 (broadcastInDim S4x4096x1 ![0, 1] bcast_S4x4096_S4x4096x1_0_1 : (⟨S4x4096, .f32⟩ : BufTy).Contents (Elt F) → (⟨S4x4096x1, .f32⟩ : BufTy).Contents (Elt F)),
    StableHlo.unary main_v32 main_v56 (broadcastInDim S4x4096x1 ![0, 1] bcast_S4x4096_S4x4096x1_0_1 : (⟨S4x4096, .f32⟩ : BufTy).Contents (Elt F) → (⟨S4x4096x1, .f32⟩ : BufTy).Contents (Elt F)),
    StableHlo.binary main_v55 main_v56 main_v57 ((fun a b => concatenate S4x4096x2 2 [⟨S4x4096x1, a⟩, ⟨S4x4096x1, b⟩] concatenates_S4x4096x1_S4x4096x1_S4x4096x2_d2) : (⟨S4x4096x1, .f32⟩ : BufTy).Contents (Elt F) → (⟨S4x4096x1, .f32⟩ : BufTy).Contents (Elt F) → (⟨S4x4096x2, .f32⟩ : BufTy).Contents (Elt F)),
    StableHlo.unary main_v32 main_v58 (broadcastInDim S4x4096x1 ![0, 1] bcast_S4x4096_S4x4096x1_0_1 : (⟨S4x4096, .f32⟩ : BufTy).Contents (Elt F) → (⟨S4x4096x1, .f32⟩ : BufTy).Contents (Elt F)),
    StableHlo.unary main_v33 main_v59 (broadcastInDim S4x4096x1 ![0, 1] bcast_S4x4096_S4x4096x1_0_1 : (⟨S4x4096, .f32⟩ : BufTy).Contents (Elt F) → (⟨S4x4096x1, .f32⟩ : BufTy).Contents (Elt F)),
    StableHlo.binary main_v58 main_v59 main_v60 ((fun a b => concatenate S4x4096x2 2 [⟨S4x4096x1, a⟩, ⟨S4x4096x1, b⟩] concatenates_S4x4096x1_S4x4096x1_S4x4096x2_d2) : (⟨S4x4096x1, .f32⟩ : BufTy).Contents (Elt F) → (⟨S4x4096x1, .f32⟩ : BufTy).Contents (Elt F) → (⟨S4x4096x2, .f32⟩ : BufTy).Contents (Elt F)),
    StableHlo.unary main_v57 main_v61 (broadcastInDim S4x4096x2x1 ![0, 1, 2] bcast_S4x4096x2_S4x4096x2x1_0_1_2 : (⟨S4x4096x2, .f32⟩ : BufTy).Contents (Elt F) → (⟨S4x4096x2x1, .f32⟩ : BufTy).Contents (Elt F)),
    StableHlo.unary main_v60 main_v62 (broadcastInDim S4x4096x1x2 ![0, 1, 3] bcast_S4x4096x2_S4x4096x1x2_0_1_3 : (⟨S4x4096x2, .f32⟩ : BufTy).Contents (Elt F) → (⟨S4x4096x1x2, .f32⟩ : BufTy).Contents (Elt F)),
    StableHlo.unary main_v61 main_v63 (broadcastInDim S4x4096x2x2 ![0, 1, 2, 3] bcast_S4x4096x2x1_S4x4096x2x2_0_1_2_3 : (⟨S4x4096x2x1, .f32⟩ : BufTy).Contents (Elt F) → (⟨S4x4096x2x2, .f32⟩ : BufTy).Contents (Elt F)),
    StableHlo.unary main_v62 main_v64 (broadcastInDim S4x4096x2x2 ![0, 1, 2, 3] bcast_S4x4096x1x2_S4x4096x2x2_0_1_2_3 : (⟨S4x4096x1x2, .f32⟩ : BufTy).Contents (Elt F) → (⟨S4x4096x2x2, .f32⟩ : BufTy).Contents (Elt F)),
    StableHlo.binary main_v63 main_v64 main_v65 (mulf : (⟨S4x4096x2x2, .f32⟩ : BufTy).Contents (Elt F) → (⟨S4x4096x2x2, .f32⟩ : BufTy).Contents (Elt F) → (⟨S4x4096x2x2, .f32⟩ : BufTy).Contents (Elt F)),
    StableHlo.reshape main_v65 main_v66 rfl shapeCasts_S4x4096x2x2_S4x4096x4,
    StableHlo.nullary main_cst_13 (constant S_ .f32 0x00000000#32),
    StableHlo.unary main_cst_13 main_v67 (broadcastInDim S4x4096x4096 ![] bcast_S_S4x4096x4096 : (⟨S_, .f32⟩ : BufTy).Contents (Elt F) → (⟨S4x4096x4096, .f32⟩ : BufTy).Contents (Elt F)),
    StableHlo.nullary main_v68 (iotaInDim S4 32 0),
    StableHlo.unary main_v68 main_v69 (broadcastInDim S4x1x1 ![0] bcast_S4_S4x1x1_0 : (⟨S4, .i32⟩ : BufTy).Contents (Elt F) → (⟨S4x1x1, .i32⟩ : BufTy).Contents (Elt F)),
    StableHlo.nullary main_v70 (iotaInDim S4096 32 0),
    StableHlo.unary main_v70 main_v71 (broadcastInDim S1x4096x1 ![1] bcast_S4096_S1x4096x1_1 : (⟨S4096, .i32⟩ : BufTy).Contents (Elt F) → (⟨S1x4096x1, .i32⟩ : BufTy).Contents (Elt F)),
    StableHlo.nullary main_c_14 (constantI S_ 32 0#32),
    StableHlo.unary main_c_14 main_v72 (broadcastInDim S4x1x1 ![] bcast_S_S4x1x1 : (⟨S_, .i32⟩ : BufTy).Contents (Elt F) → (⟨S4x1x1, .i32⟩ : BufTy).Contents (Elt F)),
    StableHlo.binary main_v69 main_v72 main_v73 (cmpi .slt : (⟨S4x1x1, .i32⟩ : BufTy).Contents (Elt F) → (⟨S4x1x1, .i32⟩ : BufTy).Contents (Elt F) → (⟨S4x1x1, .i1⟩ : BufTy).Contents (Elt F)),
    StableHlo.nullary main_c_15 (constantI S_ 32 4#32),
    StableHlo.unary main_c_15 main_v74 (broadcastInDim S4x1x1 ![] bcast_S_S4x1x1 : (⟨S_, .i32⟩ : BufTy).Contents (Elt F) → (⟨S4x1x1, .i32⟩ : BufTy).Contents (Elt F)),
    StableHlo.binary main_v69 main_v74 main_v75 (addi : (⟨S4x1x1, .i32⟩ : BufTy).Contents (Elt F) → (⟨S4x1x1, .i32⟩ : BufTy).Contents (Elt F) → (⟨S4x1x1, .i32⟩ : BufTy).Contents (Elt F)),
    StableHlo.ternary main_v73 main_v75 main_v69 main_v76 (select : (⟨S4x1x1, .i1⟩ : BufTy).Contents (Elt F) → (⟨S4x1x1, .i32⟩ : BufTy).Contents (Elt F) → (⟨S4x1x1, .i32⟩ : BufTy).Contents (Elt F) → (⟨S4x1x1, .i32⟩ : BufTy).Contents (Elt F)),
    StableHlo.nullary main_c_16 (constantI S_ 32 0#32),
    StableHlo.unary main_c_16 main_v77 (broadcastInDim S1x4096x1 ![] bcast_S_S1x4096x1 : (⟨S_, .i32⟩ : BufTy).Contents (Elt F) → (⟨S1x4096x1, .i32⟩ : BufTy).Contents (Elt F)),
    StableHlo.binary main_v71 main_v77 main_v78 (cmpi .slt : (⟨S1x4096x1, .i32⟩ : BufTy).Contents (Elt F) → (⟨S1x4096x1, .i32⟩ : BufTy).Contents (Elt F) → (⟨S1x4096x1, .i1⟩ : BufTy).Contents (Elt F)),
    StableHlo.nullary main_c_17 (constantI S_ 32 4096#32),
    StableHlo.unary main_c_17 main_v79 (broadcastInDim S1x4096x1 ![] bcast_S_S1x4096x1 : (⟨S_, .i32⟩ : BufTy).Contents (Elt F) → (⟨S1x4096x1, .i32⟩ : BufTy).Contents (Elt F)),
    StableHlo.binary main_v71 main_v79 main_v80 (addi : (⟨S1x4096x1, .i32⟩ : BufTy).Contents (Elt F) → (⟨S1x4096x1, .i32⟩ : BufTy).Contents (Elt F) → (⟨S1x4096x1, .i32⟩ : BufTy).Contents (Elt F)),
    StableHlo.ternary main_v78 main_v80 main_v71 main_v81 (select : (⟨S1x4096x1, .i1⟩ : BufTy).Contents (Elt F) → (⟨S1x4096x1, .i32⟩ : BufTy).Contents (Elt F) → (⟨S1x4096x1, .i32⟩ : BufTy).Contents (Elt F) → (⟨S1x4096x1, .i32⟩ : BufTy).Contents (Elt F)),
    StableHlo.nullary main_c_18 (constantI S_ 32 0#32),
    StableHlo.unary main_c_18 main_v82 (broadcastInDim S4x4096x4 ![] bcast_S_S4x4096x4 : (⟨S_, .i32⟩ : BufTy).Contents (Elt F) → (⟨S4x4096x4, .i32⟩ : BufTy).Contents (Elt F)),
    StableHlo.binary main_v52 main_v82 main_v83 (cmpi .slt : (⟨S4x4096x4, .i32⟩ : BufTy).Contents (Elt F) → (⟨S4x4096x4, .i32⟩ : BufTy).Contents (Elt F) → (⟨S4x4096x4, .i1⟩ : BufTy).Contents (Elt F)),
    StableHlo.nullary main_c_19 (constantI S_ 32 4096#32),
    StableHlo.unary main_c_19 main_v84 (broadcastInDim S4x4096x4 ![] bcast_S_S4x4096x4 : (⟨S_, .i32⟩ : BufTy).Contents (Elt F) → (⟨S4x4096x4, .i32⟩ : BufTy).Contents (Elt F)),
    StableHlo.binary main_v52 main_v84 main_v85 (addi : (⟨S4x4096x4, .i32⟩ : BufTy).Contents (Elt F) → (⟨S4x4096x4, .i32⟩ : BufTy).Contents (Elt F) → (⟨S4x4096x4, .i32⟩ : BufTy).Contents (Elt F)),
    StableHlo.ternary main_v83 main_v85 main_v52 main_v86 (select : (⟨S4x4096x4, .i1⟩ : BufTy).Contents (Elt F) → (⟨S4x4096x4, .i32⟩ : BufTy).Contents (Elt F) → (⟨S4x4096x4, .i32⟩ : BufTy).Contents (Elt F) → (⟨S4x4096x4, .i32⟩ : BufTy).Contents (Elt F)),
    StableHlo.unary main_v76 main_v87 (broadcastInDim S4x4096x4 ![0, 1, 2] bcast_S4x1x1_S4x4096x4_0_1_2 : (⟨S4x1x1, .i32⟩ : BufTy).Contents (Elt F) → (⟨S4x4096x4, .i32⟩ : BufTy).Contents (Elt F)),
    StableHlo.unary main_v81 main_v88 (broadcastInDim S4x4096x4 ![0, 1, 2] bcast_S1x4096x1_S4x4096x4_0_1_2 : (⟨S1x4096x1, .i32⟩ : BufTy).Contents (Elt F) → (⟨S4x4096x4, .i32⟩ : BufTy).Contents (Elt F)),
    StableHlo.unary main_v87 main_v89 (broadcastInDim S4x4096x4x1 ![0, 1, 2] bcast_S4x4096x4_S4x4096x4x1_0_1_2 : (⟨S4x4096x4, .i32⟩ : BufTy).Contents (Elt F) → (⟨S4x4096x4x1, .i32⟩ : BufTy).Contents (Elt F)),
    StableHlo.unary main_v88 main_v90 (broadcastInDim S4x4096x4x1 ![0, 1, 2] bcast_S4x4096x4_S4x4096x4x1_0_1_2 : (⟨S4x4096x4, .i32⟩ : BufTy).Contents (Elt F) → (⟨S4x4096x4x1, .i32⟩ : BufTy).Contents (Elt F)),
    StableHlo.unary main_v86 main_v91 (broadcastInDim S4x4096x4x1 ![0, 1, 2] bcast_S4x4096x4_S4x4096x4x1_0_1_2 : (⟨S4x4096x4, .i32⟩ : BufTy).Contents (Elt F) → (⟨S4x4096x4x1, .i32⟩ : BufTy).Contents (Elt F)) ]

/-- The end of the fifth stretch (6 operations): the three target entries joined into the index tensor, the weights scattered into the zero matrices, the validity converted and spread over rows, the product of the two. -/
abbrev pre4d : List (HloOp τ sig (Elt F)) :=
  [ StableHlo.nary ![main_v89, main_v90, main_v91] main_v92 (fun u => concatenate S4x4096x4x3 3 [⟨S4x4096x4x1, u 0⟩, ⟨S4x4096x4x1, u 1⟩, ⟨S4x4096x4x1, u 2⟩] concatenates_S4x4096x4x1_S4x4096x4x1_S4x4096x4x1_S4x4096x4x3_d3),
    StableHlo.ternary main_v67 main_v92 main_v66 main_v93 ((fun x i u => Host.scatter scatter_S4x4096x4096_S4x4096x4x3_S4x4096x4_n_012_012_3 (fun _ b => b) x i u) : (⟨S4x4096x4096, .f32⟩ : BufTy).Contents (Elt F) → (⟨S4x4096x4x3, .i32⟩ : BufTy).Contents (Elt F) → (⟨S4x4096x4, .f32⟩ : BufTy).Contents (Elt F) → (⟨S4x4096x4096, .f32⟩ : BufTy).Contents (Elt F)),
    StableHlo.unary main_v23 main_v94 (uitofp .f32 : (⟨S4096, .i1⟩ : BufTy).Contents (Elt F) → (⟨S4096, .f32⟩ : BufTy).Contents (Elt F)),
    StableHlo.unary main_v94 main_v95 (broadcastInDim S1x4096x1 ![1] bcast_S4096_S1x4096x1_1 : (⟨S4096, .f32⟩ : BufTy).Contents (Elt F) → (⟨S1x4096x1, .f32⟩ : BufTy).Contents (Elt F)),
    StableHlo.unary main_v95 main_v96 (broadcastInDim S4x4096x4096 ![0, 1, 2] bcast_S1x4096x1_S4x4096x4096_0_1_2 : (⟨S1x4096x1, .f32⟩ : BufTy).Contents (Elt F) → (⟨S4x4096x4096, .f32⟩ : BufTy).Contents (Elt F)),
    StableHlo.binary main_v93 main_v96 main_v97 (mulf : (⟨S4x4096x4096, .f32⟩ : BufTy).Contents (Elt F) → (⟨S4x4096x4096, .f32⟩ : BufTy).Contents (Elt F) → (⟨S4x4096x4096, .f32⟩ : BufTy).Contents (Elt F)) ]

/-- The fifth stretch (77 operations): its two pieces in turn. -/
abbrev pre4 : List (HloOp τ sig (Elt F)) := pre4a ++ pre4d

/-- The operations the two programs share (130), in order: the five stretches in turn. -/
abbrev pre : List (HloOp τ sig (Elt F)) := pre0 ++ pre1 ++ pre2 ++ pre3 ++ pre4

/-! ## Every operation touches the device's own buffers only, and determines its results -/

/-- A property of every element of two lists holds of every element of their concatenation. -/
theorem forall_append {α : Type _} {p : α → Prop} {l₁ l₂ : List α} (h₁ : l₁.Forall p) (h₂ : l₂.Forall p) : (l₁ ++ l₂).Forall p :=
  List.forall_iff_forall_mem.mpr fun x hx =>
    (List.mem_append.mp hx).elim (List.forall_iff_forall_mem.mp h₁ x) (List.forall_iff_forall_mem.mp h₂ x)

theorem pre0_sub : (pre0 : List (HloOp τ sig (Elt F))).Forall fun op => op.bufs ⊆ StableHlo.tcRefs τ sig :=
  ⟨StableHlo.nullary_bufs_sub .., StableHlo.reshape_bufs_sub .., StableHlo.unary_bufs_sub .., StableHlo.reshape_bufs_sub .., StableHlo.nullary_bufs_sub .., StableHlo.unary_bufs_sub .., StableHlo.binary_bufs_sub .., StableHlo.nullary_bufs_sub .., StableHlo.binary_bufs_sub .., StableHlo.unary_bufs_sub .., StableHlo.reshape_bufs_sub .., StableHlo.nullary_bufs_sub .., StableHlo.unary_bufs_sub .., StableHlo.binary_bufs_sub .., StableHlo.nullary_bufs_sub .., StableHlo.binary_bufs_sub .., StableHlo.binary_bufs_sub .., StableHlo.unary_bufs_sub .., StableHlo.reshape_bufs_sub .., StableHlo.nullary_bufs_sub .., StableHlo.unary_bufs_sub .., StableHlo.binary_bufs_sub .., StableHlo.nullary_bufs_sub .., StableHlo.binary_bufs_sub .., StableHlo.binary_bufs_sub .., StableHlo.unary_bufs_sub .., StableHlo.reshape_bufs_sub .., StableHlo.nullary_bufs_sub .., StableHlo.unary_bufs_sub .., StableHlo.binary_bufs_sub .., StableHlo.nullary_bufs_sub .., StableHlo.binary_bufs_sub .., StableHlo.binary_bufs_sub .., StableHlo.unary_bufs_sub .., StableHlo.reshape_bufs_sub .., StableHlo.nullary_bufs_sub .., StableHlo.nullary_bufs_sub ..⟩
theorem pre1_sub : (pre1 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.binary_bufs_sub ..⟩
theorem pre2_sub : (pre2 : List (HloOp τ sig (Elt F))).Forall fun op => op.bufs ⊆ StableHlo.tcRefs τ sig :=
  ⟨StableHlo.unary_bufs_sub .., StableHlo.reshape_bufs_sub .., StableHlo.nullary_bufs_sub .., StableHlo.nullary_bufs_sub ..⟩
theorem pre3_sub : (pre3 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.binary_bufs_sub ..⟩
set_option maxRecDepth 4096 in
set_option maxHeartbeats 4000000 in
theorem pre4a_sub : (pre4a : List (HloOp τ sig (Elt F))).Forall fun op => op.bufs ⊆ StableHlo.tcRefs τ sig :=
  ⟨StableHlo.unary_bufs_sub .., StableHlo.unary_bufs_sub .., StableHlo.binary_bufs_sub .., StableHlo.binary_bufs_sub .., StableHlo.unary_bufs_sub .., StableHlo.unary_bufs_sub .., StableHlo.unary_bufs_sub .., StableHlo.unary_bufs_sub .., StableHlo.reshape_bufs_sub .., StableHlo.unary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.reshape_bufs_sub .., StableHlo.unary_bufs_sub .., StableHlo.unary_bufs_sub .., StableHlo.unary_bufs_sub .., StableHlo.binary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.unary_bufs_sub .., StableHlo.unary_bufs_sub .., StableHlo.binary_bufs_sub .., StableHlo.reshape_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.unary_bufs_sub .., StableHlo.unary_bufs_sub .., StableHlo.unary_bufs_sub .., StableHlo.unary_bufs_sub ..⟩
theorem pre4d_sub : (pre4d : List (HloOp τ sig (Elt F))).Forall fun op => op.bufs ⊆ StableHlo.tcRefs τ sig :=
  ⟨StableHlo.nary_bufs_sub .., StableHlo.ternary_bufs_sub .., StableHlo.unary_bufs_sub .., StableHlo.unary_bufs_sub .., StableHlo.unary_bufs_sub .., StableHlo.binary_bufs_sub ..⟩
theorem pre4_sub : (pre4 : List (HloOp τ sig (Elt F))).Forall fun op => op.bufs ⊆ StableHlo.tcRefs τ sig :=
  forall_append pre4a_sub pre4d_sub
theorem pre_sub : (pre : List (HloOp τ sig (Elt F))).Forall fun op => op.bufs ⊆ StableHlo.tcRefs τ sig :=
  forall_append (forall_append (forall_append (forall_append pre0_sub pre1_sub) pre2_sub) pre3_sub) pre4_sub

set_option maxRecDepth 4096 in
theorem pre0_fresh : (pre0 : List (HloOp τ sig (Elt F))).Forall fun op => op.fresh = ∅ := by
  simp only [List.Forall]; repeat' constructor
theorem pre1_fresh : (pre1 : List (HloOp τ sig (Elt F))).Forall fun op => op.fresh = ∅ := by
  simp only [List.Forall]; repeat' constructor
theorem pre2_fresh : (pre2 : List (HloOp τ sig (Elt F))).Forall fun op => op.fresh = ∅ := by
  simp only [List.Forall]; repeat' constructor
theorem pre3_fresh : (pre3 : List (HloOp τ sig (Elt F))).Forall fun op => op.fresh = ∅ := by
  simp only [List.Forall]; repeat' constructor
set_option maxRecDepth 4096 in
theorem pre4a_fresh : (pre4a : List (HloOp τ sig (Elt F))).Forall fun op => op.fresh = ∅ := by
  simp only [List.Forall]; repeat' constructor
theorem pre4d_fresh : (pre4d : List (HloOp τ sig (Elt F))).Forall fun op => op.fresh = ∅ := by
  simp only [List.Forall]; repeat' constructor
theorem pre4_fresh : (pre4 : List (HloOp τ sig (Elt F))).Forall fun op => op.fresh = ∅ :=
  forall_append pre4a_fresh pre4d_fresh
theorem pre_fresh : (pre : List (HloOp τ sig (Elt F))).Forall fun op => op.fresh = ∅ :=
  forall_append (forall_append (forall_append (forall_append pre0_fresh pre1_fresh) pre2_fresh) pre3_fresh) pre4_fresh

/-! ## The interpolation matrix as a function of the grid

The grid holds, for each of 4 batches, 64 × 64 sample points of two coordinates. Read in row-major order they are
4096 points per batch. Each coordinate is clipped into the range of cells, split into its floor (a cell number) and
its fraction above the floor; a point's four corners are the cells at offsets (0,0), (0,1), (1,0), (1,1), each a flat
column number 64 · (first cell + first offset) + (second cell + second offset); its four weights are the products of
one entry of (1 − first fraction, first fraction) with one entry of (first fraction, second fraction). The matrix of
batch b has, on row p, the weight of corner k written at that corner's column (a later corner overwriting an earlier
one at the same column) over zeros; every row is then multiplied by the validity of its position: 1 when, in every
batch, both unclipped coordinates of the point at that position lie within the bounds, else 0. -/

/-- The sample points: the 64 × 64 positions of each batch in row-major order, two coordinates each. -/
def pts (g : FVec F S4x64x64x2 .f32) : FVec F S4x4096x2 .f32 :=
  shapeCast S4x4096x2 g shapeCasts_S4x64x64x2_S4x4096x2

/-- The first coordinate of every sample point. -/
def coord0 (g : FVec F S4x64x64x2 .f32) : FVec F S4x4096 .f32 :=
  shapeCast S4x4096 (extractStridedSlice S4x4096x1 ![0, 0, 0] (pts g) slices_S4x4096x2_S4x4096x1_0_0_0) shapeCasts_S4x4096x1_S4x4096

/-- The second coordinate of every sample point. -/
def coord1 (g : FVec F S4x64x64x2 .f32) : FVec F S4x4096 .f32 :=
  shapeCast S4x4096 (extractStridedSlice S4x4096x1 ![0, 0, 1] (pts g) slices_S4x4096x2_S4x4096x1_0_0_1) shapeCasts_S4x4096x1_S4x4096

/-- Position by position: whether in every batch the coordinate is at least the bound (the conjunction over the batches,
    starting from true). -/
def allGe (lo : BitVec 32) (x : FVec F S4x4096 .f32) : IVec S4096 1 :=
  Host.reduce IntOp.andi (cmpf .oge x (broadcastInDim S4x4096 ![] bcast_S_S4x4096 (constant S_ .f32 lo)))
    (constantI S_ 1 1#1) reducesTo_S4x4096_S4096_d0 h_S_

/-- Position by position: whether in every batch the coordinate is at most the bound. -/
def allLe (hi : BitVec 32) (x : FVec F S4x4096 .f32) : IVec S4096 1 :=
  Host.reduce IntOp.andi (cmpf .ole x (broadcastInDim S4x4096 ![] bcast_S_S4x4096 (constant S_ .f32 hi)))
    (constantI S_ 1 1#1) reducesTo_S4x4096_S4096_d0 h_S_

/-- The validity of a position: in every batch, both coordinates of its point lie between the lower bound −0.001 and the
    upper bound 63.001 (the four conjunctions, joined first coordinate first, lower bound first). -/
def valid (g : FVec F S4x64x64x2 .f32) : IVec S4096 1 :=
  andi (andi (andi (allGe 0xBA83126F#32 (coord0 g)) (allLe 0x427C0106#32 (coord0 g))) (allGe 0xBA83126F#32 (coord1 g)))
    (allLe 0x427C0106#32 (coord1 g))

/-- A coordinate clipped into the cells' range: the smaller of 62.999 and (the larger of 0.001 and the coordinate). -/
def clip (x : FVec F S4x4096 .f32) : FVec F S4x4096 .f32 :=
  minimumf (broadcastInDim S4x4096 ![] bcast_S_S4x4096 (constant S_ .f32 0x427BFEFA#32))
    (maximumf (broadcastInDim S4x4096 ![] bcast_S_S4x4096 (constant S_ .f32 0x3A83126F#32)) x)

/-- The cell of a clipped coordinate: its floor, as an integer. -/
def cell (c : FVec F S4x4096 .f32) : IVec S4x4096 32 := fptosi 32 (Host.floor c)

/-- The fraction of a clipped coordinate: the coordinate less its floor. -/
def frac (c : FVec F S4x4096 .f32) : FVec F S4x4096 .f32 := subf c (Host.floor c)

/-- The four corners' offsets, a row per corner: (0,0), (0,1), (1,0), (1,1). -/
def cornerTable : IVec S4x2 32 := fun i => lit0 (S4x2.rowMajor i)

/-- One value per batch and position, repeated for the four corners. -/
def perCorner (a : IVec S4x4096 32) : IVec S4x4096x4 32 :=
  broadcastInDim S4x4096x4 ![0, 1, 2] bcast_S4x4096x1_S4x4096x4_0_1_2 (broadcastInDim S4x4096x1 ![0, 1] bcast_S4x4096_S4x4096x1_0_1 a)

/-- The corners' first offsets (column 0 of the table), the same for every batch and position. -/
def offset0 (T : IVec S4x2 32) : IVec S4x4096x4 32 :=
  broadcastInDim S4x4096x4 ![0, 1, 2] bcast_S1x1x4_S4x4096x4_0_1_2 (broadcastInDim S1x1x4 ![2] bcast_S4_S1x1x4_2
    (shapeCast S4 (extractStridedSlice S4x1 ![0, 0] T slices_S4x2_S4x1_0_0) shapeCasts_S4x1_S4))

/-- The corners' second offsets (column 1 of the table), the same for every batch and position. -/
def offset1 (T : IVec S4x2 32) : IVec S4x4096x4 32 :=
  broadcastInDim S4x4096x4 ![0, 1, 2] bcast_S1x1x4_S4x4096x4_0_1_2 (broadcastInDim S1x1x4 ![2] bcast_S4_S1x1x4_2
    (shapeCast S4 (extractStridedSlice S4x1 ![0, 1] T slices_S4x2_S4x1_0_1) shapeCasts_S4x1_S4))

/-- The flat column of each corner of each point: 64 · (first cell + first offset) + (second cell + second offset). -/
def cornerFlat (T : IVec S4x2 32) (cx cy : FVec F S4x4096 .f32) : IVec S4x4096x4 32 :=
  addi (muli (addi (perCorner (cell cx)) (offset0 T)) (broadcastInDim S4x4096x4 ![] bcast_S_S4x4096x4 (constantI S_ 32 64#32)))
    (addi (perCorner (cell cy)) (offset1 T))

/-- A corner's column as the scatter reads it: a negative one moved up by the 4096 columns, any other as it is. -/
def cornerCol (T : IVec S4x2 32) (cx cy : FVec F S4x4096 .f32) : IVec S4x4096x4 32 :=
  select (cmpi .slt (cornerFlat T cx cy) (broadcastInDim S4x4096x4 ![] bcast_S_S4x4096x4 (constantI S_ 32 0#32)))
    (addi (cornerFlat T cx cy) (broadcastInDim S4x4096x4 ![] bcast_S_S4x4096x4 (constantI S_ 32 4096#32)))
    (cornerFlat T cx cy)

/-- The batches' numbers 0 … 3. -/
def batchIota : IVec S4x1x1 32 := broadcastInDim S4x1x1 ![0] bcast_S4_S4x1x1_0 (iotaInDim S4 32 0)

/-- A batch's number as the scatter reads it: a negative one moved up by the 4 batches, any other as it is. -/
def batchNo : IVec S4x1x1 32 :=
  select (cmpi .slt batchIota (broadcastInDim S4x1x1 ![] bcast_S_S4x1x1 (constantI S_ 32 0#32)))
    (addi batchIota (broadcastInDim S4x1x1 ![] bcast_S_S4x1x1 (constantI S_ 32 4#32))) batchIota

/-- The positions' numbers 0 … 4095. -/
def rowIota : IVec S1x4096x1 32 := broadcastInDim S1x4096x1 ![1] bcast_S4096_S1x4096x1_1 (iotaInDim S4096 32 0)

/-- A position's number as the scatter reads it: a negative one moved up by the 4096 rows, any other as it is. -/
def rowNo : IVec S1x4096x1 32 :=
  select (cmpi .slt rowIota (broadcastInDim S1x4096x1 ![] bcast_S_S1x4096x1 (constantI S_ 32 0#32)))
    (addi rowIota (broadcastInDim S1x4096x1 ![] bcast_S_S1x4096x1 (constantI S_ 32 4096#32))) rowIota

/-- The first entry of every corner's target: its batch. -/
def idxBatch : IVec S4x4096x4x1 32 :=
  broadcastInDim S4x4096x4x1 ![0, 1, 2] bcast_S4x4096x4_S4x4096x4x1_0_1_2 (broadcastInDim S4x4096x4 ![0, 1, 2] bcast_S4x1x1_S4x4096x4_0_1_2 batchNo)

/-- The second entry of every corner's target: its point's position, the matrix's row. -/
def idxRow : IVec S4x4096x4x1 32 :=
  broadcastInDim S4x4096x4x1 ![0, 1, 2] bcast_S4x4096x4_S4x4096x4x1_0_1_2 (broadcastInDim S4x4096x4 ![0, 1, 2] bcast_S1x4096x1_S4x4096x4_0_1_2 rowNo)

/-- The third entry of every corner's target: the corner's column. -/
def idxCol (T : IVec S4x2 32) (cx cy : FVec F S4x4096 .f32) : IVec S4x4096x4x1 32 :=
  broadcastInDim S4x4096x4x1 ![0, 1, 2] bcast_S4x4096x4_S4x4096x4x1_0_1_2 (cornerCol T cx cy)

/-- One value per batch and position as a column of length one. -/
def asColumn (a : FVec F S4x4096 .f32) : FVec F S4x4096x1 .f32 :=
  broadcastInDim S4x4096x1 ![0, 1] bcast_S4x4096_S4x4096x1_0_1 a

/-- The first factors of a point's weights: (1 − first fraction, first fraction). -/
def factorsA (fx : FVec F S4x4096 .f32) : FVec F S4x4096x2 .f32 :=
  concatenate S4x4096x2 2
    [⟨S4x4096x1, asColumn (subf (broadcastInDim S4x4096 ![] bcast_S_S4x4096 (constant S_ .f32 0x3F800000#32)) fx)⟩, ⟨S4x4096x1, asColumn fx⟩]
    concatenates_S4x4096x1_S4x4096x1_S4x4096x2_d2

/-- The second factors of a point's weights: (first fraction, second fraction). -/
def factorsB (fx fy : FVec F S4x4096 .f32) : FVec F S4x4096x2 .f32 :=
  concatenate S4x4096x2 2 [⟨S4x4096x1, asColumn fx⟩, ⟨S4x4096x1, asColumn fy⟩] concatenates_S4x4096x1_S4x4096x1_S4x4096x2_d2

/-- A point's four weights: entry i of the first factors times entry j of the second, corner 2 i + j. -/
def weights (cx cy : FVec F S4x4096 .f32) : FVec F S4x4096x4 .f32 :=
  shapeCast S4x4096x4
    (mulf
      (broadcastInDim S4x4096x2x2 ![0, 1, 2, 3] bcast_S4x4096x2x1_S4x4096x2x2_0_1_2_3
        (broadcastInDim S4x4096x2x1 ![0, 1, 2] bcast_S4x4096x2_S4x4096x2x1_0_1_2 (factorsA (frac cx))))
      (broadcastInDim S4x4096x2x2 ![0, 1, 2, 3] bcast_S4x4096x1x2_S4x4096x2x2_0_1_2_3
        (broadcastInDim S4x4096x1x2 ![0, 1, 3] bcast_S4x4096x2_S4x4096x1x2_0_1_3 (factorsB (frac cx) (frac cy)))))
    shapeCasts_S4x4096x2x2_S4x4096x4

/-- The matrices before any weight is written: zero everywhere. -/
def zeros : FVec F S4x4096x4096 .f32 :=
  broadcastInDim S4x4096x4096 ![] bcast_S_S4x4096x4096 (constant S_ .f32 0x00000000#32)

/-- The weights written into a matrix: corner k of the point at position p of batch b goes to entry (batch, row, column)
    read from the three target entries, in the order of the corners, a later write replacing an earlier one. -/
def written (z : FVec F S4x4096x4096 .f32) (ib ir ic : IVec S4x4096x4x1 32) (w : FVec F S4x4096x4 .f32) : FVec F S4x4096x4096 .f32 :=
  Host.scatter scatter_S4x4096x4096_S4x4096x4x3_S4x4096x4_n_012_012_3 (fun _ b => b) z
    (concatenate S4x4096x4x3 3 [⟨S4x4096x4x1, ib⟩, ⟨S4x4096x4x1, ir⟩, ⟨S4x4096x4x1, ic⟩]
      concatenates_S4x4096x4x1_S4x4096x4x1_S4x4096x4x1_S4x4096x4x3_d3) w

/-- The validity of each position as a factor 1 or 0 on that position's whole row, in every batch. -/
def rowFactor (v : IVec S4096 1) : FVec F S4x4096x4096 .f32 :=
  broadcastInDim S4x4096x4096 ![0, 1, 2] bcast_S1x4096x1_S4x4096x4096_0_1_2
    (broadcastInDim S1x4096x1 ![1] bcast_S4096_S1x4096x1_1 (uitofp .f32 v))

/-- The interpolation matrices from the clipped coordinates and the validity: the weights written at the corners'
    columns over zeros, each row times its position's validity. -/
def interpOf (cx cy : FVec F S4x4096 .f32) (v : IVec S4096 1) : FVec F S4x4096x4096 .f32 :=
  mulf (written zeros idxBatch idxRow (idxCol cornerTable cx cy) (weights cx cy)) (rowFactor v)

/-- The interpolation matrices as a function of the grid. -/
def interp (g : (⟨S4x64x64x2, .f32⟩ : BufTy).Contents (Elt F)) : (⟨S4x4096x4096, .f32⟩ : BufTy).Contents (Elt F) :=
  interpOf (clip (coord0 g)) (clip (coord1 g)) (valid g)

/-! ## What the operations leave in the buffers

The first four stretches leave the two clipped coordinates, the validity and the corner table; the fifth, from any
contents, computes the three target entries, the weights and the zero matrices from those, then joins, scatters and
multiplies. Each statement reads the buffers the stretch starts from and names the step of the matrix it computes. -/
set_option maxRecDepth 8192 in
/-- After the first four stretches the first clipped coordinate is in place. -/
theorem s1_v26 (W : Valuation τ sig (Elt F)) :
    StableHlo.after pre3 (StableHlo.after pre2 (StableHlo.after pre1 (StableHlo.after pre0 W))) (Proc.devRef .tc main_v26) = clip (coord0 (W (Proc.devRef .tc main_arg1))) := by
  simp (disch := decide) only [StableHlo.after_cons, StableHlo.after_nil,
      StableHlo.nullary_result', StableHlo.unary_result', StableHlo.binary_result', StableHlo.ternary_result', StableHlo.quaternary_result', StableHlo.reshape_result', Cert.LibNary3.nary3_result', StableHlo.nary_result',
      StableHlo.nullary_result_ne', StableHlo.unary_result_ne', StableHlo.binary_result_ne', StableHlo.ternary_result_ne', StableHlo.quaternary_result_ne', StableHlo.reshape_result_ne',
      StableHlo.nary_result_ne', StableHlo.TRef.ofBuf, StableHlo.TRef.toBuf, cast_eq]
  rfl

set_option maxRecDepth 8192 in
/-- After the first four stretches the second clipped coordinate is in place. -/
theorem s1_v29 (W : Valuation τ sig (Elt F)) :
    StableHlo.after pre3 (StableHlo.after pre2 (StableHlo.after pre1 (StableHlo.after pre0 W))) (Proc.devRef .tc main_v29) = clip (coord1 (W (Proc.devRef .tc main_arg1))) := by
  simp (disch := decide) only [StableHlo.after_cons, StableHlo.after_nil,
      StableHlo.nullary_result', StableHlo.unary_result', StableHlo.binary_result', StableHlo.ternary_result', StableHlo.quaternary_result', StableHlo.reshape_result', Cert.LibNary3.nary3_result', StableHlo.nary_result',
      StableHlo.nullary_result_ne', StableHlo.unary_result_ne', StableHlo.binary_result_ne', StableHlo.ternary_result_ne', StableHlo.quaternary_result_ne', StableHlo.reshape_result_ne',
      StableHlo.nary_result_ne', StableHlo.TRef.ofBuf, StableHlo.TRef.toBuf, cast_eq]
  rfl

set_option maxRecDepth 8192 in
/-- After the first four stretches the validity of every position is in place. -/
theorem s1_v23 (W : Valuation τ sig (Elt F)) :
    StableHlo.after pre3 (StableHlo.after pre2 (StableHlo.after pre1 (StableHlo.after pre0 W))) (Proc.devRef .tc main_v23) = valid (W (Proc.devRef .tc main_arg1)) := by
  simp (disch := decide) only [StableHlo.after_cons, StableHlo.after_nil,
      StableHlo.nullary_result', StableHlo.unary_result', StableHlo.binary_result', StableHlo.ternary_result', StableHlo.quaternary_result', StableHlo.reshape_result', Cert.LibNary3.nary3_result', StableHlo.nary_result',
      StableHlo.nullary_result_ne', StableHlo.unary_result_ne', StableHlo.binary_result_ne', StableHlo.ternary_result_ne', StableHlo.quaternary_result_ne', StableHlo.reshape_result_ne',
      StableHlo.nary_result_ne', StableHlo.TRef.ofBuf, StableHlo.TRef.toBuf, cast_eq]
  rfl

set_option maxRecDepth 8192 in
/-- After the first four stretches the corner table is in place. -/
theorem s1_c (W : Valuation τ sig (Elt F)) :
    StableHlo.after pre3 (StableHlo.after pre2 (StableHlo.after pre1 (StableHlo.after pre0 W))) (Proc.devRef .tc main_c) = (cornerTable : IVec S4x2 32) := by
  simp (disch := decide) only [StableHlo.after_cons, StableHlo.after_nil,
      StableHlo.nullary_result', StableHlo.unary_result', StableHlo.binary_result', StableHlo.ternary_result', StableHlo.quaternary_result', StableHlo.reshape_result', Cert.LibNary3.nary3_result', StableHlo.nary_result',
      StableHlo.nullary_result_ne', StableHlo.unary_result_ne', StableHlo.binary_result_ne', StableHlo.ternary_result_ne', StableHlo.quaternary_result_ne', StableHlo.reshape_result_ne',
      StableHlo.nary_result_ne', StableHlo.TRef.ofBuf, StableHlo.TRef.toBuf, cast_eq]
  rfl
set_option maxRecDepth 8192 in
/-- The fifth stretch up to the index tensor: the targets' batch entries. -/
theorem s2_v89 (X : Valuation τ sig (Elt F)) :
    StableHlo.after pre4a X (Proc.devRef .tc main_v89) = (idxBatch : IVec S4x4096x4x1 32) := by
  simp (disch := decide) only [StableHlo.after_cons, StableHlo.after_nil,
      StableHlo.nullary_result', StableHlo.unary_result', StableHlo.binary_result', StableHlo.ternary_result', StableHlo.quaternary_result', StableHlo.reshape_result', Cert.LibNary3.nary3_result', StableHlo.nary_result',
      StableHlo.nullary_result_ne', StableHlo.unary_result_ne', StableHlo.binary_result_ne', StableHlo.ternary_result_ne', StableHlo.quaternary_result_ne', StableHlo.reshape_result_ne',
      StableHlo.nary_result_ne', StableHlo.TRef.ofBuf, StableHlo.TRef.toBuf, cast_eq]
  rfl

set_option maxRecDepth 8192 in
/-- The targets' row entries. -/
theorem s2_v90 (X : Valuation τ sig (Elt F)) :
    StableHlo.after pre4a X (Proc.devRef .tc main_v90) = (idxRow : IVec S4x4096x4x1 32) := by
  simp (disch := decide) only [StableHlo.after_cons, StableHlo.after_nil,
      StableHlo.nullary_result', StableHlo.unary_result', StableHlo.binary_result', StableHlo.ternary_result', StableHlo.quaternary_result', StableHlo.reshape_result', Cert.LibNary3.nary3_result', StableHlo.nary_result',
      StableHlo.nullary_result_ne', StableHlo.unary_result_ne', StableHlo.binary_result_ne', StableHlo.ternary_result_ne', StableHlo.quaternary_result_ne', StableHlo.reshape_result_ne',
      StableHlo.nary_result_ne', StableHlo.TRef.ofBuf, StableHlo.TRef.toBuf, cast_eq]
  rfl

set_option maxRecDepth 8192 in
/-- The targets' column entries, from the corner table and the two clipped coordinates. -/
theorem s2_v91 (X : Valuation τ sig (Elt F)) :
    StableHlo.after pre4a X (Proc.devRef .tc main_v91) = idxCol (X (Proc.devRef .tc main_c)) (X (Proc.devRef .tc main_v26)) (X (Proc.devRef .tc main_v29)) := by
  simp (disch := decide) only [StableHlo.after_cons, StableHlo.after_nil,
      StableHlo.nullary_result', StableHlo.unary_result', StableHlo.binary_result', StableHlo.ternary_result', StableHlo.quaternary_result', StableHlo.reshape_result', Cert.LibNary3.nary3_result', StableHlo.nary_result',
      StableHlo.nullary_result_ne', StableHlo.unary_result_ne', StableHlo.binary_result_ne', StableHlo.ternary_result_ne', StableHlo.quaternary_result_ne', StableHlo.reshape_result_ne',
      StableHlo.nary_result_ne', StableHlo.TRef.ofBuf, StableHlo.TRef.toBuf, cast_eq]
  rfl

set_option maxRecDepth 8192 in
/-- The weights, from the two clipped coordinates. -/
theorem s2_v66 (X : Valuation τ sig (Elt F)) :
    StableHlo.after pre4a X (Proc.devRef .tc main_v66) = weights (X (Proc.devRef .tc main_v26)) (X (Proc.devRef .tc main_v29)) := by
  simp (disch := decide) only [StableHlo.after_cons, StableHlo.after_nil,
      StableHlo.nullary_result', StableHlo.unary_result', StableHlo.binary_result', StableHlo.ternary_result', StableHlo.quaternary_result', StableHlo.reshape_result', Cert.LibNary3.nary3_result', StableHlo.nary_result',
      StableHlo.nullary_result_ne', StableHlo.unary_result_ne', StableHlo.binary_result_ne', StableHlo.ternary_result_ne', StableHlo.quaternary_result_ne', StableHlo.reshape_result_ne',
      StableHlo.nary_result_ne', StableHlo.TRef.ofBuf, StableHlo.TRef.toBuf, cast_eq]
  rfl

set_option maxRecDepth 8192 in
/-- The zero matrices. -/
theorem s2_v67 (X : Valuation τ sig (Elt F)) :
    StableHlo.after pre4a X (Proc.devRef .tc main_v67) = (zeros : FVec F S4x4096x4096 .f32) := by
  simp (disch := decide) only [StableHlo.after_cons, StableHlo.after_nil,
      StableHlo.nullary_result', StableHlo.unary_result', StableHlo.binary_result', StableHlo.ternary_result', StableHlo.quaternary_result', StableHlo.reshape_result', Cert.LibNary3.nary3_result', StableHlo.nary_result',
      StableHlo.nullary_result_ne', StableHlo.unary_result_ne', StableHlo.binary_result_ne', StableHlo.ternary_result_ne', StableHlo.quaternary_result_ne', StableHlo.reshape_result_ne',
      StableHlo.nary_result_ne', StableHlo.TRef.ofBuf, StableHlo.TRef.toBuf, cast_eq]
  rfl

set_option maxRecDepth 8192 in
/-- The validity is not written meanwhile. -/
theorem s2_v23 (X : Valuation τ sig (Elt F)) :
    StableHlo.after pre4a X (Proc.devRef .tc main_v23) = X (Proc.devRef .tc main_v23) := by
  kept_all pre4a

set_option maxRecDepth 8192 in
/-- The last six operations: the index tensor joined from its three entries, the scatter, the validity as a factor, the product. -/
theorem s3_v97 (Y : Valuation τ sig (Elt F)) :
    StableHlo.after pre4d Y (Proc.devRef .tc main_v97)
      = mulf (written (Y (Proc.devRef .tc main_v67)) (Y (Proc.devRef .tc main_v89)) (Y (Proc.devRef .tc main_v90)) (Y (Proc.devRef .tc main_v91)) (Y (Proc.devRef .tc main_v66))) (rowFactor (Y (Proc.devRef .tc main_v23))) := by
  simp (disch := decide) only [StableHlo.after_cons, StableHlo.after_nil,
      StableHlo.nullary_result', StableHlo.unary_result', StableHlo.binary_result', StableHlo.ternary_result', StableHlo.quaternary_result', StableHlo.reshape_result', Cert.LibNary3.nary3_result', StableHlo.nary_result',
      StableHlo.nullary_result_ne', StableHlo.unary_result_ne', StableHlo.binary_result_ne', StableHlo.ternary_result_ne', StableHlo.quaternary_result_ne', StableHlo.reshape_result_ne',
      StableHlo.nary_result_ne', StableHlo.TRef.ofBuf, StableHlo.TRef.toBuf, cast_eq]
  rfl

/-- The shared operations are their six lists run in turn. -/
theorem after_pre (W : Valuation τ sig (Elt F)) :
    StableHlo.after pre W = StableHlo.after pre4d (StableHlo.after pre4a (StableHlo.after pre3 (StableHlo.after pre2 (StableHlo.after pre1 (StableHlo.after pre0 W))))) := by
  simp only [pre, pre4, StableHlo.after_append]

/-- After the shared operations the matrices' buffer holds the interpolation matrices of the grid argument's contents. -/
theorem pre_v97 (W : Valuation τ sig (Elt F)) :
    StableHlo.after pre W (Proc.devRef .tc main_v97) = interp (W (Proc.devRef .tc main_arg1)) := by
  rw [after_pre, s3_v97, s2_v67, s2_v89, s2_v90, s2_v91, s2_v66, s2_v23, s1_v26, s1_v29, s1_v23, s1_c]
  rfl

/-! ## The two arguments are written by no operation -/
set_option maxRecDepth 8192 in
theorem pre0_main_arg0 (X : Valuation τ sig (Elt F)) : StableHlo.after pre0 X (Proc.devRef .tc main_arg0) = X (Proc.devRef .tc main_arg0) := by
  kept_all pre0
set_option maxRecDepth 8192 in
theorem pre1_main_arg0 (X : Valuation τ sig (Elt F)) : StableHlo.after pre1 X (Proc.devRef .tc main_arg0) = X (Proc.devRef .tc main_arg0) := by
  kept_all pre1
set_option maxRecDepth 8192 in
theorem pre2_main_arg0 (X : Valuation τ sig (Elt F)) : StableHlo.after pre2 X (Proc.devRef .tc main_arg0) = X (Proc.devRef .tc main_arg0) := by
  kept_all pre2
set_option maxRecDepth 8192 in
theorem pre3_main_arg0 (X : Valuation τ sig (Elt F)) : StableHlo.after pre3 X (Proc.devRef .tc main_arg0) = X (Proc.devRef .tc main_arg0) := by
  kept_all pre3
set_option maxRecDepth 8192 in
theorem pre4a_main_arg0 (X : Valuation τ sig (Elt F)) : StableHlo.after pre4a X (Proc.devRef .tc main_arg0) = X (Proc.devRef .tc main_arg0) := by
  kept_all pre4a
set_option maxRecDepth 8192 in
theorem pre4d_main_arg0 (X : Valuation τ sig (Elt F)) : StableHlo.after pre4d X (Proc.devRef .tc main_arg0) = X (Proc.devRef .tc main_arg0) := by
  kept_all pre4d
/-- The shared operations leave this argument's buffer as it was. -/
theorem pre_arg0 (W : Valuation τ sig (Elt F)) : StableHlo.after pre W (Proc.devRef .tc main_arg0) = W (Proc.devRef .tc main_arg0) := by
  rw [after_pre, pre4d_main_arg0, pre4a_main_arg0, pre3_main_arg0, pre2_main_arg0, pre1_main_arg0, pre0_main_arg0]

set_option maxRecDepth 8192 in
theorem pre0_main_arg1 (X : Valuation τ sig (Elt F)) : StableHlo.after pre0 X (Proc.devRef .tc main_arg1) = X (Proc.devRef .tc main_arg1) := by
  kept_all pre0
set_option maxRecDepth 8192 in
theorem pre1_main_arg1 (X : Valuation τ sig (Elt F)) : StableHlo.after pre1 X (Proc.devRef .tc main_arg1) = X (Proc.devRef .tc main_arg1) := by
  kept_all pre1
set_option maxRecDepth 8192 in
theorem pre2_main_arg1 (X : Valuation τ sig (Elt F)) : StableHlo.after pre2 X (Proc.devRef .tc main_arg1) = X (Proc.devRef .tc main_arg1) := by
  kept_all pre2
set_option maxRecDepth 8192 in
theorem pre3_main_arg1 (X : Valuation τ sig (Elt F)) : StableHlo.after pre3 X (Proc.devRef .tc main_arg1) = X (Proc.devRef .tc main_arg1) := by
  kept_all pre3
set_option maxRecDepth 8192 in
theorem pre4a_main_arg1 (X : Valuation τ sig (Elt F)) : StableHlo.after pre4a X (Proc.devRef .tc main_arg1) = X (Proc.devRef .tc main_arg1) := by
  kept_all pre4a
set_option maxRecDepth 8192 in
theorem pre4d_main_arg1 (X : Valuation τ sig (Elt F)) : StableHlo.after pre4d X (Proc.devRef .tc main_arg1) = X (Proc.devRef .tc main_arg1) := by
  kept_all pre4d
/-- The shared operations leave this argument's buffer as it was. -/
theorem pre_arg1 (W : Valuation τ sig (Elt F)) : StableHlo.after pre W (Proc.devRef .tc main_arg1) = W (Proc.devRef .tc main_arg1) := by
  rw [after_pre, pre4d_main_arg1, pre4a_main_arg1, pre3_main_arg1, pre2_main_arg1, pre1_main_arg1, pre0_main_arg1]

end Cert.ReferenceIdeal.Hand

end
-- ==== Proof.RefRun.lean ====
/-
  The reference program's run: its operations are the shared ones followed by one contraction, each batch's array
  against that batch's interpolation matrix over the 4096 positions; every execution ends with the result buffer at
  that contraction of the first argument with the matrices of the second, both arguments unchanged.
-/
import proofs.«169048_j87840671137910_1_alg».proof.Proof.RefPrefix
import Idealize.ShloMosaic.Lib.Pipeline.Regions

noncomputable section

namespace Cert.ReferenceIdeal.Hand

open Cert.ReferenceIdeal Cert.ReferenceIdeal.Gen Idealize.ShloMosaic Idealize.ShloMosaic.TcCoe Idealize.SL.Sem

variable {F : FTy → Type} [FloatOps F]

/-- The last operation: for every batch, row r of the array times the matrix, the sum over the positions q of
    array[r, q] · matrix[p, q] at column p. -/
abbrev last : List (HloOp τ sig (Elt F)) :=
  [ StableHlo.binary main_arg0 main_v97 main_v98 ((fun l r => Host.dotGeneral dot_S4x128x4096_S4x4096x4096_S4x128x4096_2_2_1_1_0_0 none l r) : (⟨S4x128x4096, .f32⟩ : BufTy).Contents (Elt F) → (⟨S4x4096x4096, .f32⟩ : BufTy).Contents (Elt F) → (⟨S4x128x4096, .f32⟩ : BufTy).Contents (Elt F)) ]

/-- The program's 131 operations, in order. -/
abbrev ops : List (HloOp τ sig (Elt F)) := pre ++ last

/-- The program is that straight line: its three windows and the two calls of the clip unfold to the operations. -/
theorem main_eq (c : Dev nD) : main (F := F) c = StableHlo.seq ops := by
  chain_rfl

theorem scopedRefs_eq : (Finset.univ.filter fun b : Ref sig .tc => b.isScoped) = ∅ := by decide
theorem scopedSems_eq : (Finset.univ.filter fun sm : SemLoc sig => sm.isScoped .tc) = ∅ := by decide

theorem last_sub : (last : List (HloOp τ sig (Elt F))).Forall fun op => op.bufs ⊆ StableHlo.tcRefs τ sig :=
  StableHlo.binary_bufs_sub ..
theorem last_fresh : (last : List (HloOp τ sig (Elt F))).Forall fun op => op.fresh = ∅ := rfl

theorem ops_sub : (ops : List (HloOp τ sig (Elt F))).Forall fun op => op.bufs ⊆ StableHlo.tcRefs τ sig :=
  forall_append pre_sub last_sub
theorem ops_fresh : (ops : List (HloOp τ sig (Elt F))).Forall fun op => op.fresh = ∅ :=
  forall_append pre_fresh last_fresh

/-- After all the operations the result buffer holds the contraction of the first argument's contents with the
    interpolation matrices of the second's. -/
theorem ops_v98 (W : Valuation τ sig (Elt F)) :
    StableHlo.after ops W (Proc.devRef .tc main_v98)
      = Host.dotGeneral dot_S4x128x4096_S4x4096x4096_S4x128x4096_2_2_1_1_0_0 none (W (Proc.devRef .tc main_arg0))
          (interp (W (Proc.devRef .tc main_arg1))) := by
  rw [ops, StableHlo.after_append, last, StableHlo.after_cons, StableHlo.after_nil, StableHlo.binary_result, pre_arg0, pre_v97]

/-- The last operation writes neither argument. -/
theorem ops_arg0 (W : Valuation τ sig (Elt F)) :
    StableHlo.after ops W (Proc.devRef .tc main_arg0) = W (Proc.devRef .tc main_arg0) := by
  rw [ops, StableHlo.after_append, last, StableHlo.after_cons, StableHlo.after_nil, StableHlo.binary_result_ne _ _ _ _ _ _ _ _ (by decide), pre_arg0]
theorem ops_arg1 (W : Valuation τ sig (Elt F)) :
    StableHlo.after ops W (Proc.devRef .tc main_arg1) = W (Proc.devRef .tc main_arg1) := by
  rw [ops, StableHlo.after_append, last, StableHlo.after_cons, StableHlo.after_nil, StableHlo.binary_result_ne _ _ _ _ _ _ _ _ (by decide), pre_arg1]

/-- On every device, for any float values, from any memory with zero counters: every weakly fair execution of the
    program terminates with the result at the contraction of the first argument with the interpolation matrices of the
    second, and both arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v98) = Host.dotGeneral dot_S4x128x4096_S4x4096x4096_S4x128x4096_2_2_1_1_0_0 none (m ((c.tc : Thread nD τ).loc main_arg0)) (interp (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v98).trans (ops_v98 _), (h c main_arg0).trans (ops_arg0 _), (h c main_arg1).trans (ops_arg1 _)⟩)
    (StableHlo.run_seq scopedRefs_eq scopedSems_eq defs main (fun _ => ops) main_eq (fun _ => ops_sub) m ρ
      (fun _ => List.forall_iff_forall_mem.mp ops_fresh))

end Cert.ReferenceIdeal.Hand

end
-- ==== Proof.InterpEq.lean ====
/-
  The interpolation matrices are one function of the grid on both sides: the two programs state the same steps over
  the same shapes, the same corner table and the same bounds, and the side conditions each cites are proofs of the
  same statements.
-/
import proofs.«169048_j87840671137910_1_alg».proof.Proof.RefPrefix
import proofs.«169048_j87840671137910_1_alg».proof.Proof.KI.Prefix

noncomputable section

namespace Cert.Proof.Hand

open Idealize.ShloMosaic

set_option maxRecDepth 8192 in
/-- Step by step the two definitions unfold to the same operations at the same shapes. -/
theorem interp_eq {F : FTy → Type} [FloatOps F] (g : (⟨Cert.ReferenceIdeal.S4x64x64x2, .f32⟩ : BufTy).Contents (Elt F)) :
    Cert.ReferenceIdeal.Hand.interp (F := F) g = Cert.KernelIdeal.Hand.interp (F := F) g := rfl

end Cert.Proof.Hand

end
-- ==== Proof.LibDotBatchT.lean ====
/-
  A batched matrix product against a transposed right operand, read at an entry. For the dimension numbers "axis 0 of
  both operands is a batch axis carried to the result, the left operand's axis 1 and the right operand's axis 1 are the
  free axes, and the two last axes are contracted with each other", the host's product is, at entry (b, r, c) and over
  the extended reals, the sum over k of x(b, r, k) · w(b, c, k): batch b of the result is the product of batch b of
  the left operand with the transpose of batch b of the right operand.
-/
import Idealize.ShloMosaic.PureOps.Ideal
import Idealize.ShloMosaic.PureOps.Ideal.Laws
import Idealize.ShloMosaic.Lib.ValueIdx

noncomputable section

open scoped BigOperators

namespace Cert.LibDotBatchT

open Idealize.ShloMosaic Idealize.ShloMosaic.ValueIdx

/-! ## The six coordinates of the operand indices

  The result's axes are ordered: batch axis, the left operand's free axis, the right operand's free axis. With one
  batch axis (axis 0 of each operand), one free axis per operand (axis 1) and one shared axis (axis 2 of each), the
  left operand is read at (batch of the entry, row of the entry, shared coordinate) and the right operand at
  (batch of the entry, column of the entry, shared coordinate). Each of the six coordinates is its own statement, at
  the literal axis. -/

section Axes

variable {B R K C : Nat} (d : DotDims ⟨3, ![B, R, K]⟩ ⟨3, ![B, C, K]⟩ ⟨3, ![B, R, C]⟩)

/-- One shared axis. -/
theorem rank_contr_one (hl : d.lhsContracting = [2]) : d.contr.rank = 1 := by
  rw [d.rank_contr, hl]; rfl

/-- The shared axis has the length of the left operand's last axis. -/
theorem size_contr_zero (hl : d.lhsContracting = [2]) :
    d.contr.size ⟨0, by rw [rank_contr_one d hl]; exact Nat.one_pos⟩ = K := by
  have h := d.size_contr 0 (by rw [hl]; exact Nat.one_pos)
  rw [h]
  have h1 : d.lhsContracting[0]'(by rw [hl]; exact Nat.one_pos) = (2 : Fin 3) := by simp [hl]
  rw [h1]; rfl

/-- The left operand's batch coordinate is the entry's batch: a batch axis reads the result at its place among the
    batch axes, here the first. -/
theorem lhs_axis0 (hlb : d.lhsBatch = [0]) (j : (⟨3, ![B, R, C]⟩ : Shape).Idx) (k : d.contr.Idx) :
    (d.lhsIdx j k 0 : ℕ) = (j 0 : ℕ) := by
  unfold DotDims.lhsIdx
  rw [dif_pos (by rw [hlb]; exact List.mem_singleton.mpr rfl)]
  simp only [Fin.val_cast]
  have key : ∀ (p q : Nat) (hp : p < 3) (hq : q < 3), p = q → (j ⟨p, hp⟩).val = (j ⟨q, hq⟩).val :=
    fun p q hp hq h => by subst h; rfl
  exact key _ _ _ _ (by simp [hlb])

/-- The left operand's row coordinate is the entry's row: a free left axis reads the result after the batch axes. -/
theorem lhs_axis1 (hln : d.lhsNonContracting = [1]) (hlb : d.lhsBatch = [0])
    (j : (⟨3, ![B, R, C]⟩ : Shape).Idx) (k : d.contr.Idx) : (d.lhsIdx j k 1 : ℕ) = (j 1 : ℕ) := by
  unfold DotDims.lhsIdx
  rw [dif_neg (by rw [hlb]; simp), dif_pos (by rw [hln]; exact List.mem_singleton.mpr rfl)]
  simp only [Fin.val_cast]
  have key : ∀ (p q : Nat) (hp : p < 3) (hq : q < 3), p = q → (j ⟨p, hp⟩).val = (j ⟨q, hq⟩).val :=
    fun p q hp hq h => by subst h; rfl
  exact key _ _ _ _ (by simp [hlb, hln])

/-- The left operand's last coordinate is the shared coordinate. -/
theorem lhs_axis2 (hl : d.lhsContracting = [2]) (j : (⟨3, ![B, R, C]⟩ : Shape).Idx) (k : d.contr.Idx) :
    (d.lhsIdx j k 2 : ℕ) = (k ⟨0, by rw [rank_contr_one d hl]; exact Nat.one_pos⟩ : ℕ) :=
  d.lhsIdx_val_of_single hl j k

/-- The right operand's batch coordinate is the entry's batch. -/
theorem rhs_axis0 (hrb : d.rhsBatch = [0]) (j : (⟨3, ![B, R, C]⟩ : Shape).Idx) (k : d.contr.Idx) :
    (d.rhsIdx j k 0 : ℕ) = (j 0 : ℕ) := by
  unfold DotDims.rhsIdx
  rw [dif_pos (by rw [hrb]; exact List.mem_singleton.mpr rfl)]
  simp only [Fin.val_cast]
  have key : ∀ (p q : Nat) (hp : p < 3) (hq : q < 3), p = q → (j ⟨p, hp⟩).val = (j ⟨q, hq⟩).val :=
    fun p q hp hq h => by subst h; rfl
  exact key _ _ _ _ (by simp [hrb])

/-- The right operand's row coordinate is the entry's column: a free right axis reads the result after the batch
    axes and the left operand's free axes. -/
theorem rhs_axis1 (hln : d.lhsNonContracting = [1]) (hrn : d.rhsNonContracting = [1]) (hlb : d.lhsBatch = [0])
    (hrb : d.rhsBatch = [0]) (j : (⟨3, ![B, R, C]⟩ : Shape).Idx) (k : d.contr.Idx) : (d.rhsIdx j k 1 : ℕ) = (j 2 : ℕ) := by
  unfold DotDims.rhsIdx
  rw [dif_neg (by rw [hrb]; simp), dif_pos (by rw [hrn]; exact List.mem_singleton.mpr rfl)]
  simp only [Fin.val_cast]
  have key : ∀ (p q : Nat) (hp : p < 3) (hq : q < 3), p = q → (j ⟨p, hp⟩).val = (j ⟨q, hq⟩).val :=
    fun p q hp hq h => by subst h; rfl
  exact key _ _ _ _ (by simp [hlb, hln, hrn])

/-- The right operand's last coordinate is the shared coordinate. -/
theorem rhs_axis2 (hl : d.lhsContracting = [2]) (hr : d.rhsContracting = [2]) (j : (⟨3, ![B, R, C]⟩ : Shape).Idx)
    (k : d.contr.Idx) : (d.rhsIdx j k 2 : ℕ) = (k ⟨0, by rw [rank_contr_one d hl]; exact Nat.one_pos⟩ : ℕ) :=
  d.rhsIdx_val_of_single hr j k

end Axes

/-- The contraction sum of a batched product against a transposed right operand, re-indexed by the shared axis's
    coordinate: the left operand is read at (b, r, k), the right one at (b, c, k). -/
theorem contr_sum_BT {B R K C : Nat} {φ₁ φ₂ : FTy} (d : DotDims ⟨3, ![B, R, K]⟩ ⟨3, ![B, C, K]⟩ ⟨3, ![B, R, C]⟩)
    (hl : d.lhsContracting = [2]) (hr : d.rhsContracting = [2]) (hln : d.lhsNonContracting = [1])
    (hrn : d.rhsNonContracting = [1]) (hlb : d.lhsBatch = [0]) (hrb : d.rhsBatch = [0])
    (x : FVec Ideal ⟨3, ![B, R, K]⟩ φ₁) (w : FVec Ideal ⟨3, ![B, C, K]⟩ φ₂) (b : Fin B) (r : Fin R) (c : Fin C) :
    (∑ k : d.contr.Idx, x (d.lhsIdx (ix3 b r c) k) * w (d.rhsIdx (ix3 b r c) k))
      = ∑ k : Fin K, x (ix3 b r k) * w (ix3 b c k) := by
  rw [← Equiv.sum_comp (contrEquiv1 d K (rank_contr_one d hl) (size_contr_zero d hl)).symm]
  refine Finset.sum_congr rfl fun k _ => ?_
  have hk := contrEquiv1_symm_val d K (rank_contr_one d hl) (size_contr_zero d hl) k
  have hx : d.lhsIdx (ix3 b r c) ((contrEquiv1 d K (rank_contr_one d hl) (size_contr_zero d hl)).symm k) = ix3 b r k := by
    funext a
    match a with
    | ⟨0, _⟩ => exact Fin.ext (lhs_axis0 d hlb _ _)
    | ⟨1, _⟩ => exact Fin.ext (lhs_axis1 d hln hlb _ _)
    | ⟨2, _⟩ => exact Fin.ext ((lhs_axis2 d hl _ _).trans hk)
  have hw : d.rhsIdx (ix3 b r c) ((contrEquiv1 d K (rank_contr_one d hl) (size_contr_zero d hl)).symm k) = ix3 b c k := by
    funext a
    match a with
    | ⟨0, _⟩ => exact Fin.ext (rhs_axis0 d hrb _ _)
    | ⟨1, _⟩ => exact Fin.ext (rhs_axis1 d hln hrn hlb hrb _ _)
    | ⟨2, _⟩ => exact Fin.ext ((rhs_axis2 d hl hr _ _).trans hk)
  rw [hx, hw]

/-- The host's batched product against a transposed right operand, at entry (b, r, c), whatever the precision and
    the order in which the host adds the products. -/
theorem dotGeneral_at_BT {B R K C : Nat} {φ₁ φ₂ : FTy} (d : DotDims ⟨3, ![B, R, K]⟩ ⟨3, ![B, C, K]⟩ ⟨3, ![B, R, C]⟩)
    (hl : d.lhsContracting = [2]) (hr : d.rhsContracting = [2]) (hln : d.lhsNonContracting = [1])
    (hrn : d.rhsNonContracting = [1]) (hlb : d.lhsBatch = [0]) (hrb : d.rhsBatch = [0])
    (prec : Option ContractPrecision) (sched : HostSchedule)
    (x : FVec Ideal ⟨3, ![B, R, K]⟩ φ₁) (w : FVec Ideal ⟨3, ![B, C, K]⟩ φ₂) (b : Fin B) (r : Fin R) (c : Fin C) :
    FloatOps.dotGeneral d prec sched x w (ix3 b r c) = ∑ k : Fin K, x (ix3 b r k) * w (ix3 b c k) := by
  rw [Ideal.dotGeneral_apply]
  exact contr_sum_BT d hl hr hln hrn hlb hrb x w b r c

end Cert.LibDotBatchT

end
-- ==== Proof.Bridge.lean ====
/-
  The two idealized programs compute one function of the arguments. Entry (b, r, k) of either result is the sum over
  the 4096 columns j of x(b, r, j) · M(b, k, j), where x is the first argument and M the interpolation matrix the
  shared host operations build from the second: the kernel reaches it tile by tile from zero (four tiles of 1024
  columns, one per contraction step), the reference by one batched product against the transposed matrix; the two
  groupings of the sum agree because addition of extended reals is commutative and associative and 0 + a = a. The
  change of float format on the kernel's operands is the identity over the extended reals.
-/
import proofs.«169048_j87840671137910_1_alg».proof.Defs
import proofs.«169048_j87840671137910_1_alg».proof.Proof.KI.Value
import proofs.«169048_j87840671137910_1_alg».proof.Proof.KI.HostVals
import proofs.«169048_j87840671137910_1_alg».proof.Proof.RefRun
import proofs.«169048_j87840671137910_1_alg».proof.Proof.InterpEq
import proofs.«169048_j87840671137910_1_alg».proof.Proof.LibDotBatchT

set_option maxRecDepth 16384

noncomputable section

open scoped BigOperators

namespace Cert.Proof.Hand

open Idealize.ShloMosaic Idealize.ShloMosaic.TcCoe Idealize.ShloMosaic.ValueIdx Idealize.SL.Sem

/-- The common result: entry (b, r, k) is the sum over j of x(b, r, j) · M(b, k, j), M the interpolation matrix of the grid array. -/
def result (x : Cert.KernelIdeal.S4x128x4096.Idx → EReal) (g : Cert.KernelIdeal.S4x64x64x2.Idx → EReal) :
    Cert.KernelIdeal.S4x128x4096.Idx → EReal :=
  fun i => ∑ j : Fin 4096, x (ix3 (i 0) (i 1) j)
    * (Cert.KernelIdeal.Hand.interp (F := Ideal) g : Cert.KernelIdeal.S4x4096x4096.Idx → EReal) (ix3 (i 0) (i 2) j)

section Kernel
open Cert.KernelIdeal Cert.KernelIdeal.Gen Cert.KernelIdeal.Hand

/-- The kernel's result array after the run is the common result of the launch contents of the two arguments. -/
theorem kernel_result (m : (ℓ : Loc nD τ sig) → Buf (Elt Ideal) ℓ) (c : Dev nD) :
    ((dats (F := Ideal) m 0 c).arrAt 2 cfg0.N : S4x128x4096.Idx → EReal)
      = result (m ((c.tc : Thread nD τ).loc main_arg0)) (m ((c.tc : Thread nD τ).loc main_arg1)) := by
  funext i
  obtain ⟨b, r, k, rfl⟩ : ∃ (b : Fin 4) (r : Fin 128) (k : Fin 4096), i = ix3 b r k := ⟨i 0, i 1, i 2, eq_ix3 i⟩
  have h : ((dats (F := Ideal) m 0 c).arrAt 2 cfg0.N : S4x128x4096.Idx → EReal) (ix3 b r k)
      = ∑ j : Fin 4096, Xarr m c (ix3 b r j) * Warr m c (ix3 b k j) := result_at m c b r k
  have h2 : (∑ j : Fin 4096, Xarr m c (ix3 b r j) * Warr m c (ix3 b k j) : EReal)
      = result (m ((c.tc : Thread nD τ).loc main_arg0)) (m ((c.tc : Thread nD τ).loc main_arg1)) (ix3 b r k) := by
    have hx : Xarr m c = (m ((c.tc : Thread nD τ).loc main_arg0) : S4x128x4096.Idx → EReal) := by
      show V m c main_v99 = _
      rw [V_v99] <;> rfl
    have hw : Warr m c = (interp (F := Ideal) (m ((c.tc : Thread nD τ).loc main_arg1)) : S4x4096x4096.Idx → EReal) := by
      show V m c main_v98 = _
      rw [V_v98] <;> rfl
    unfold result
    rw [hx, hw] <;> rfl
  exact h.trans h2

/-- The idealized kernel program runs, ends with the common result, and leaves both arguments as launched. -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v100) = result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).1 2).trans (kernel_result m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c)⟩) (run_main m ρ)

end Kernel

section Reference
open Cert.ReferenceIdeal Cert.ReferenceIdeal.Gen Cert.ReferenceIdeal.Hand

/-- The reference's batched product against the transposed interpolation matrix is the common result. -/
theorem ref_result (x : FVec Ideal S4x128x4096 .f32) (g : FVec Ideal S4x64x64x2 .f32) :
    (Host.dotGeneral (F := Ideal) (φ₁ := .f32) (φ₂ := .f32) dot_S4x128x4096_S4x4096x4096_S4x128x4096_2_2_1_1_0_0 none x (interp (F := Ideal) g) : S4x128x4096.Idx → EReal)
      = result x g := by
  funext i
  obtain ⟨b, r, k, rfl⟩ : ∃ (b : Fin 4) (r : Fin 128) (k : Fin 4096), i = ix3 b r k := ⟨i 0, i 1, i 2, eq_ix3 i⟩
  refine (Cert.LibDotBatchT.dotGeneral_at_BT dot_S4x128x4096_S4x4096x4096_S4x128x4096_2_2_1_1_0_0 rfl rfl rfl rfl rfl rfl none .single
    x (interp (F := Ideal) g) b r k).trans ?_
  unfold result
  rw [Cert.Proof.Hand.interp_eq] <;> rfl

end Reference

end Cert.Proof.Hand

end
-- ==== Proof.lean ====
/-
  The certificate's claims. Both kernel programs (the word-level one and its idealization, the same text at two float
  families) run to the end and leave the argument arrays as launched: one kernel region, whose accumulator is carried
  along the contraction axis and whose body is run case by case. The reference is a straight line of host operations,
  so its run is the fold of their results. No operation was rewritten by the idealization, so there is nothing to
  preserve. Over the extended reals both idealized programs end with entry (b, r, k) equal to the sum over j of
  x(b, r, j) · M(b, k, j): the kernel's four tile sums accumulated from zero against the reference's one sum.
-/
import proofs.«169048_j87840671137910_1_alg».proof.Defs
import proofs.«169048_j87840671137910_1_alg».proof.Proof.Gen.Kernel
import proofs.«169048_j87840671137910_1_alg».proof.Proof.Gen.KernelIdeal
import proofs.«169048_j87840671137910_1_alg».proof.Proof.Gen.ReferenceIdeal
import proofs.«169048_j87840671137910_1_alg».proof.Proof.Gen.Pre_finite_inputs
import proofs.«169048_j87840671137910_1_alg».proof.Proof.K.Frame
import proofs.«169048_j87840671137910_1_alg».proof.Proof.KI.Frame
import proofs.«169048_j87840671137910_1_alg».proof.Proof.Bridge
import Idealize.ShloMosaic.Adequacy
import Idealize.ShloMosaic.Init

noncomputable section

namespace Cert.Proof

open Idealize.ShloMosaic Idealize.SL.Sem

/-- The word-level kernel program runs and leaves its arguments unchanged. -/
theorem frame_k : Cert.frame_Kernel := fun m ρ _ => Cert.Kernel.Hand.frame m ρ

/-- So does its idealization. -/
theorem frame_ki : Cert.frame_KernelIdeal := fun m ρ _ => Cert.KernelIdeal.Hand.frame m ρ

/-- The reference runs and leaves its arguments unchanged: its run, the result forgotten. -/
theorem frame_ri : Cert.frame_ReferenceIdeal := fun m ρ _ =>
  (θ_run Cert.ReferenceIdeal.defs _ _).mono (fun _ h c => (h c).2) (Cert.ReferenceIdeal.Hand.run (F := Ideal) m ρ)

/-- The idealization rewrote nothing. -/
theorem preserves : Cert.preserves_Kernel_KernelIdeal := trivial

/-- From memories agreeing on the arguments both idealized programs end with the common result. -/
theorem algebraic : Cert.algebraic_KernelIdeal_ReferenceIdeal := by
  intro m ρ m' ρ' _ hagree
  refine ⟨fun c => Cert.Proof.Hand.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), Cert.Proof.Hand.kernel_run m ρ, ?_⟩
  refine (θ_run Cert.ReferenceIdeal.defs _ _).mono (fun _ h c => ⟨(h c).1.trans ?_, (h c).2⟩)
    (Cert.ReferenceIdeal.Hand.run (F := Ideal) m' ρ')
  rw [(hagree c).1, (hagree c).2]
  exact Cert.Proof.Hand.ref_result _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
